-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S2x8388608 : Shape := ⟨2, ![2, 8388608]⟩
abbrev S8388608 : Shape := ⟨1, ![8388608]⟩
abbrev S262144 : Shape := ⟨1, ![262144]⟩
abbrev S5x1x8 : Shape := ⟨3, ![5, 1, 8]⟩
abbrev S8 : Shape := ⟨1, ![8]⟩
abbrev S5x8x8 : Shape := ⟨3, ![5, 8, 8]⟩
abbrev S65536x1000 : Shape := ⟨2, ![65536, 1000]⟩
abbrev S1000 : Shape := ⟨1, ![1000]⟩
abbrev S1000x50 : Shape := ⟨2, ![1000, 50]⟩
abbrev S50 : Shape := ⟨1, ![50]⟩
abbrev S8192x350 : Shape := ⟨2, ![8192, 350]⟩
abbrev S350 : Shape := ⟨1, ![350]⟩
abbrev S350x350 : Shape := ⟨2, ![350, 350]⟩
abbrev S350x50 : Shape := ⟨2, ![350, 50]⟩
abbrev S100x1 : Shape := ⟨2, ![100, 1]⟩
abbrev S1 : Shape := ⟨1, ![1]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S8388608 : S_.BroadcastsInDim S8388608 (![] : Fin 0 → Fin S8388608.rank)
  reducesTo_S8388608_S_d0 : S8388608.ReducesTo [0] S_
  bcast_S_S5x1x8 : S_.BroadcastsInDim S5x1x8 (![] : Fin 0 → Fin S5x1x8.rank)
  reducesTo_S5x1x8_S_d0_1_2 : S5x1x8.ReducesTo [0, 1, 2] S_
  bcast_S_S8 : S_.BroadcastsInDim S8 (![] : Fin 0 → Fin S8.rank)
  reducesTo_S8_S_d0 : S8.ReducesTo [0] S_
  bcast_S_S5x8x8 : S_.BroadcastsInDim S5x8x8 (![] : Fin 0 → Fin S5x8x8.rank)
  reducesTo_S5x8x8_S_d0_1_2 : S5x8x8.ReducesTo [0, 1, 2] S_
  bcast_S_S65536x1000 : S_.BroadcastsInDim S65536x1000 (![] : Fin 0 → Fin S65536x1000.rank)
  reducesTo_S65536x1000_S_d0_1 : S65536x1000.ReducesTo [0, 1] S_
  bcast_S_S1000 : S_.BroadcastsInDim S1000 (![] : Fin 0 → Fin S1000.rank)
  reducesTo_S1000_S_d0 : S1000.ReducesTo [0] S_
  bcast_S_S1000x50 : S_.BroadcastsInDim S1000x50 (![] : Fin 0 → Fin S1000x50.rank)
  reducesTo_S1000x50_S_d0_1 : S1000x50.ReducesTo [0, 1] S_
  bcast_S_S50 : S_.BroadcastsInDim S50 (![] : Fin 0 → Fin S50.rank)
  reducesTo_S50_S_d0 : S50.ReducesTo [0] S_
  bcast_S_S8192x350 : S_.BroadcastsInDim S8192x350 (![] : Fin 0 → Fin S8192x350.rank)
  reducesTo_S8192x350_S_d0_1 : S8192x350.ReducesTo [0, 1] S_
  bcast_S_S350 : S_.BroadcastsInDim S350 (![] : Fin 0 → Fin S350.rank)
  reducesTo_S350_S_d0 : S350.ReducesTo [0] S_
  bcast_S_S350x350 : S_.BroadcastsInDim S350x350 (![] : Fin 0 → Fin S350x350.rank)
  reducesTo_S350x350_S_d0_1 : S350x350.ReducesTo [0, 1] S_
  bcast_S_S350x50 : S_.BroadcastsInDim S350x50 (![] : Fin 0 → Fin S350x50.rank)
  reducesTo_S350x50_S_d0_1 : S350x50.ReducesTo [0, 1] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S100x1 .f32) (main_arg21 : FVec F S1 .f32) (main_v83 : IVec S_ 1) (main_v84 : FVec F S50 .f32) (main_cst_32 : FVec F S_ .f32) : IVec S_ 1 :=
  let main_v85 : FVec F S50 .f32 := broadcastInDim S50 ![] bcast_S_S50 main_cst_32
  let main_v86 : IVec S50 1 := cmpf .olt main_v84 main_v85
  let main_c_33 : IVec S_ 1 := constantI S_ 1 1#1
  let main_v87 : IVec S_ 1 := (fun x v => Host.reduce IntOp.andi x v reducesTo_S50_S_d0 h_S_) main_v86 main_c_33
  let main_v88 : IVec S_ 1 := andi main_v83 main_v87
  let main_v89 : FVec F S100x1 .f32 := Host.absf main_arg20
  let main_cst_34 : FVec F S_ .f32 := constant S_ .f32 0x7F800000#32
  let main_v90 : FVec F S100x1 .f32 := broadcastInDim S100x1 ![] bcast_S_S100x1 main_cst_34
  let main_v91 : IVec S100x1 1 := cmpf .olt main_v89 main_v90
  let main_c_35 : IVec S_ 1 := constantI S_ 1 1#1
  let main_v92 : IVec S_ 1 := (fun x v => Host.reduce IntOp.andi x v reducesTo_S100x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S350x350 .f32) (main_arg17 : FVec F S350 .f32) (main_arg18 : FVec F S350x50 .f32) (main_arg19 : FVec F S50 .f32) (main_arg20 : FVec F S100x1 .f32) (main_arg21 : FVec F S1 .f32) (main_v63 : IVec S_ 1) (main_v67 : IVec S_ 1) : IVec S_ 1 :=
  let main_v68 : IVec S_ 1 := andi main_v63 main_v67
  let main_v69 : FVec F S350x350 .f32 := Host.absf main_arg16
  let main_cst_26 : FVec F S_ .f32 := constant S_ .f32 0x7F800000#32
  let main_v70 : FVec F S350x350 .f32 := broadcastInDim S350x350 ![] bcast_S_S350x350 main_cst_26
  let main_v71 : IVec S350x350 1 := cmpf .olt main_v69 main_v70
  let main_c_27 : IVec S_ 1 := constantI S_ 1 1#1
  let main_v72 : IVec S_ 1 := (fun x v => Host.reduce IntOp.andi x v reducesTo_S350x350_S_d0_1 h_S_) main_v71 main_c_27
  let main_v73 : IVec S_ 1 := andi main_v68 main_v72
  let main_v74 : FVec F S350 .f32 := Host.absf main_arg17
  let main_cst_28 : FVec F S_ .f32 := constant S_ .f32 0x7F800000#32
  let main_v75 : FVec F S350 .f32 := broadcastInDim S350 ![] bcast_S_S350 main_cst_28
  let main_v76 : IVec S350 1 := cmpf .olt main_v74 main_v75
  let main_c_29 : IVec S_ 1 := constantI S_ 1 1#1
  let main_v77 : IVec S_ 1 := (fun x v => Host.reduce IntOp.andi x v reducesTo_S350_S_d0 h_S_) main_v76 main_c_29
  let main_v78 : IVec S_ 1 := andi main_v73 main_v77
  let main_v79 : FVec F S350x50 .f32 := Host.absf main_arg18
  let main_cst_30 : FVec F S_ .f32 := constant S_ .f32 0x7F800000#32
  let main_v80 : FVec F S350x50 .f32 := broadcastInDim S350x50 ![] bcast_S_S350x50 main_cst_30
  let main_v81 : IVec S350x50 1 := cmpf .olt main_v79 main_v80
  let main_c_31 : IVec S_ 1 := constantI S_ 1 1#1
  let main_v82 : IVec S_ 1 := (fun x v => Host.reduce IntOp.andi x v reducesTo_S350x50_S_d0_1 h_S_) main_v81 main_c_31
  let main_v83 : IVec S_ 1 := andi main_v78 main_v82
  let main_v84 : FVec F S50 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S350 .f32) (main_arg14 : FVec F S350x350 .f32) (main_arg15 : FVec F S350 .f32) (main_arg16 : FVec F S350x350 .f32) (main_arg17 : FVec F S350 .f32) (main_arg18 : FVec F S350x50 .f32) (main_arg19 : FVec F S50 .f32) (main_arg20 : FVec F S100x1 .f32) (main_arg21 : FVec F S1 .f32) (main_v48 : IVec S_ 1) (main_v49 : FVec F S8192x350 .f32) (main_v50 : FVec F S8192x350 .f32) : IVec S_ 1 :=
  let main_v51 : IVec S8192x350 1 := cmpf .olt main_v49 main_v50
  let main_c_19 : IVec S_ 1 := constantI S_ 1 1#1
  let main_v52 : IVec S_ 1 := (fun x v => Host.reduce IntOp.andi x v reducesTo_S8192x350_S_d0_1 h_S_) main_v51 main_c_19
  let main_v53 : IVec S_ 1 := andi main_v48 main_v52
  let main_v54 : FVec F S350 .f32 := Host.absf main_arg13
  let main_cst_20 : FVec F S_ .f32 := constant S_ .f32 0x7F800000#32
  let main_v55 : FVec F S350 .f32 := broadcastInDim S350 ![] bcast_S_S350 main_cst_20
  let main_v56 : IVec S350 1 := cmpf .olt main_v54 main_v55
  let main_c_21 : IVec S_ 1 := constantI S_ 1 1#1
  let main_v57 : IVec S_ 1 := (fun x v => Host.reduce IntOp.andi x v reducesTo_S350_S_d0 h_S_) main_v56 main_c_21
  let main_v58 : IVec S_ 1 := andi main_v53 main_v57
  let main_v59 : FVec F S350x350 .f32 := Host.absf main_arg14
  let main_cst_22 : FVec F S_ .f32 := constant S_ .f32 0x7F800000#32
  let main_v60 : FVec F S350x350 .f32 := broadcastInDim S350x350 ![] bcast_S_S350x350 main_cst_22
  let main_v61 : IVec S350x350 1 := cmpf .olt main_v59 main_v60
  let main_c_23 : IVec S_ 1 := constantI S_ 1 1#1
  let main_v62 : IVec S_ 1 := (fun x v => Host.reduce IntOp.andi x v reducesTo_S350x350_S_d0_1 h_S_) main_v61 main_c_23
  let main_v63 : IVec S_ 1 := andi main_v58 main_v62
  let main_v64 : FVec F S350 .f32 := Host.absf main_arg15
  let main_cst_24 : FVec F S_ .f32 := constant S_ .f32 0x7F800000#32
  let main_v65 : FVec F S350 .f32 := broadcastInDim S350 ![] bcast_S_S350 main_cst_24
  let main_v66 : IVec S350 1 := cmpf .olt main_v64 main_v65
  let main_c_25 : IVec S_ 1 := constantI S_ 1 1#1
  let main_v67 : IVec S_ 1 := (fun x v => Host.reduce IntOp.andi x v reducesTo_S350_S_d0 h_S_) main_v66 main_c_25
  fn_part4 (F := F) main_arg16 main_arg17 main_arg18 main_arg19 main_arg20 main_arg21 main_v63 main_v67

def fn_part2 {F : FTy → Type} [FloatOps F] (main_arg9 : FVec F S1000 .f32) (main_arg10 : FVec F S1000x50 .f32) (main_arg11 : FVec F S50 .f32) (main_arg12 : FVec F S8192x350 .f32) (main_arg13 : FVec F S350 .f32) (main_arg14 : FVec F S350x350 .f32) (main_arg15 : FVec F S350 .f32) (main_arg16 : FVec F S350x350 .f32) (main_arg17 : FVec F S350 .f32) (main_arg18 : FVec F S350x50 .f32) (main_arg19 : FVec F S50 .f32) (main_arg20 : FVec F S100x1 .f32) (main_arg21 : FVec F S1 .f32) (main_v33 : IVec S_ 1) : IVec S_ 1 :=
  let main_v34 : FVec F S1000 .f32 := Host.absf main_arg9
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  let main_v39 : FVec F S1000x50 .f32 := Host.absf main_arg10
  let main_cst_14 : FVec F S_ .f32 := constant S_ .f32 0x7F800000#32
  let main_v40 : FVec F S1000x50 .f32 := broadcastInDim S1000x50 ![] bcast_S_S1000x50 main_cst_14
  let main_v41 : IVec S1000x50 1 := cmpf .olt main_v39 main_v40
  let main_c_15 : IVec S_ 1 := constantI S_ 1 1#1
  let main_v42 : IVec S_ 1 := (fun x v => Host.reduce IntOp.andi x v reducesTo_S1000x50_S_d0_1 h_S_) main_v41 main_c_15
  let main_v43 : IVec S_ 1 := andi main_v38 main_v42
  let main_v44 : FVec F S50 .f32 := Host.absf main_arg11
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S8192x350 .f32 := Host.absf main_arg12
  let main_cst_18 : FVec F S_ .f32 := constant S_ .f32 0x7F800000#32
  let main_v50 : FVec F S8192x350 .f32 := broadcastInDim S8192x350 ![] bcast_S_S8192x350 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S5x8x8 .f32) (main_arg7 : FVec F S8 .f32) (main_arg8 : FVec F S65536x1000 .f32) (main_arg9 : FVec F S1000 .f32) (main_arg10 : FVec F S1000x50 .f32) (main_arg11 : FVec F S50 .f32) (main_arg12 : FVec F S8192x350 .f32) (main_arg13 : FVec F S350 .f32) (main_arg14 : FVec F S350x350 .f32) (main_arg15 : FVec F S350 .f32) (main_arg16 : FVec F S350x350 .f32) (main_arg17 : FVec F S350 .f32) (main_arg18 : FVec F S350x50 .f32) (main_arg19 : FVec F S50 .f32) (main_arg20 : FVec F S100x1 .f32) (main_arg21 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S5x8x8 .f32 := Host.absf main_arg6
  let main_cst_6 : FVec F S_ .f32 := constant S_ .f32 0x7F800000#32
  let main_v20 : FVec F S5x8x8 .f32 := broadcastInDim S5x8x8 ![] bcast_S_S5x8x8 main_cst_6
  let main_v21 : IVec S5x8x8 1 := cmpf .olt main_v19 main_v20
  let main_c_7 : IVec S_ 1 := constantI S_ 1 1#1
  let main_v22 : IVec S_ 1 := (fun x v => Host.reduce IntOp.andi x v reducesTo_S5x8x8_S_d0_1_2 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S65536x1000 .f32 := Host.absf main_arg8
  let main_cst_10 : FVec F S_ .f32 := constant S_ .f32 0x7F800000#32
  let main_v30 : FVec F S65536x1000 .f32 := broadcastInDim S65536x1000 ![] bcast_S_S65536x1000 main_cst_10
  let main_v31 : IVec S65536x1000 1 := cmpf .olt main_v29 main_v30
  let main_c_11 : IVec S_ 1 := constantI S_ 1 1#1
  let main_v32 : IVec S_ 1 := (fun x v => Host.reduce IntOp.andi x v reducesTo_S65536x1000_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S262144x1 .f32) (main_arg1 : IVec S2x8388608 32) (main_arg2 : FVec F S8388608 .f32) (main_arg3 : IVec S262144 32) (main_arg4 : FVec F S5x1x8 .f32) (main_arg5 : FVec F S8 .f32) (main_arg6 : FVec F S5x8x8 .f32) (main_arg7 : FVec F S8 .f32) (main_arg8 : FVec F S65536x1000 .f32) (main_arg9 : FVec F S1000 .f32) (main_arg10 : FVec F S1000x50 .f32) (main_arg11 : FVec F S50 .f32) (main_arg12 : FVec F S8192x350 .f32) (main_arg13 : FVec F S350 .f32) (main_arg14 : FVec F S350x350 .f32) (main_arg15 : FVec F S350 .f32) (main_arg16 : FVec F S350x350 .f32) (main_arg17 : FVec F S350 .f32) (main_arg18 : FVec F S350x50 .f32) (main_arg19 : FVec F S50 .f32) (main_arg20 : FVec F S100x1 .f32) (main_arg21 : FVec F S1 .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S8388608 .f32 := Host.absf main_arg2
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S5x1x8 .f32 := Host.absf main_arg4
  let main_cst_2 : FVec F S_ .f32 := constant S_ .f32 0x7F800000#32
  let main_v10 : FVec F S5x1x8 .f32 := broadcastInDim S5x1x8 ![] bcast_S_S5x1x8 main_cst_2
  let main_v11 : IVec S5x1x8 1 := cmpf .olt main_v9 main_v10
  let main_c_3 : IVec S_ 1 := constantI S_ 1 1#1
  let main_v12 : IVec S_ 1 := (fun x v => Host.reduce IntOp.andi x v reducesTo_S5x1x8_S_d0_1_2 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S262144x1 : Shape := ⟨2, ![262144, 1]⟩
abbrev S2x8388608 : Shape := ⟨2, ![2, 8388608]⟩
abbrev S8388608 : Shape := ⟨1, ![8388608]⟩
abbrev S262144 : Shape := ⟨1, ![262144]⟩
abbrev S5x1x8 : Shape := ⟨3, ![5, 1, 8]⟩
abbrev S8 : Shape := ⟨1, ![8]⟩
abbrev S5x8x8 : Shape := ⟨3, ![5, 8, 8]⟩
abbrev S65536x1000 : Shape := ⟨2, ![65536, 1000]⟩
abbrev S1000 : Shape := ⟨1, ![1000]⟩
abbrev S1000x50 : Shape := ⟨2, ![1000, 50]⟩
abbrev S50 : Shape := ⟨1, ![50]⟩
abbrev S8192x350 : Shape := ⟨2, ![8192, 350]⟩
abbrev S350 : Shape := ⟨1, ![350]⟩
abbrev S350x350 : Shape := ⟨2, ![350, 350]⟩
abbrev S350x50 : Shape := ⟨2, ![350, 50]⟩
abbrev S100x1 : Shape := ⟨2, ![100, 1]⟩
abbrev S1 : Shape := ⟨1, ![1]⟩
abbrev S1x8388608 : Shape := ⟨2, ![1, 8388608]⟩
abbrev S_ : Shape := ⟨0, ![]⟩
abbrev S8388608x1 : Shape := ⟨2, ![8388608, 1]⟩
abbrev S1x1x8 : Shape := ⟨3, ![1, 1, 8]⟩
abbrev S1x8 : Shape := ⟨2, ![1, 8]⟩
abbrev S262144x8 : Shape := ⟨2, ![262144, 8]⟩
abbrev S1x8x8 : Shape := ⟨3, ![1, 8, 8]⟩
abbrev S8x8 : Shape := ⟨2, ![8, 8]⟩
abbrev S8388608x8 : Shape := ⟨2, ![8388608, 8]⟩
abbrev S32x65536 : Shape := ⟨2, ![32, 65536]⟩
abbrev S32x8192 : Shape := ⟨2, ![32, 8192]⟩
abbrev S1x1000 : Shape := ⟨2, ![1, 1000]⟩
abbrev S1x50 : Shape := ⟨2, ![1, 50]⟩
abbrev S1x350 : Shape := ⟨2, ![1, 350]⟩
abbrev S1x1 : Shape := ⟨2, ![1, 1]⟩
abbrev S32x1 : Shape := ⟨2, ![32, 1]⟩
abbrev S32x2048 : Shape := ⟨2, ![32, 2048]⟩
abbrev S2048x1000 : Shape := ⟨2, ![2048, 1000]⟩
abbrev S32x1000 : Shape := ⟨2, ![32, 1000]⟩
abbrev S32x50 : Shape := ⟨2, ![32, 50]⟩
abbrev S32x350 : Shape := ⟨2, ![32, 350]⟩
abbrev S32x100 : Shape := ⟨2, ![32, 100]⟩
abbrev S32 : Shape := ⟨1, ![32]⟩

abbrev nBuf : Space → Nat
  | .hbm => 281
  | .vmem => 20
  | .smem => 0
  | _ => 0

abbrev hbmTy0_0 (i : Nat) : BufTy := match i % 128 with
  | 0 => ⟨S262144x1, .f32⟩
  | 1 => ⟨S2x8388608, .i32⟩
  | 2 => ⟨S8388608, .f32⟩
  | 3 => ⟨S262144, .i32⟩
  | 4 => ⟨S5x1x8, .f32⟩
  | 5 => ⟨S8, .f32⟩
  | 6 => ⟨S5x8x8, .f32⟩
  | 7 => ⟨S8, .f32⟩
  | 8 => ⟨S65536x1000, .f32⟩
  | 9 => ⟨S1000, .f32⟩
  | 10 => ⟨S1000x50, .f32⟩
  | 11 => ⟨S50, .f32⟩
  | 12 => ⟨S8192x350, .f32⟩
  | 13 => ⟨S350, .f32⟩
  | 14 => ⟨S350x350, .f32⟩
  | 15 => ⟨S350, .f32⟩
  | 16 => ⟨S350x350, .f32⟩
  | 17 => ⟨S350, .f32⟩
  | 18 => ⟨S350x50, .f32⟩
  | 19 => ⟨S50, .f32⟩
  | 20 => ⟨S100x1, .f32⟩
  | 21 => ⟨S1, .f32⟩
  | 22 => ⟨S1x8388608, .i32⟩
  | 23 => ⟨S8388608, .i32⟩
  | 24 => ⟨S1x8388608, .i32⟩
  | 25 => ⟨S8388608, .i32⟩
  | 26 => ⟨S8388608, .i1⟩
  | 27 => ⟨S8388608, .f32⟩
  | 28 => ⟨S_, .f32⟩
  | 29 => ⟨S262144, .f32⟩
  | 30 => ⟨S8388608x1, .i32⟩
  | 31 => ⟨S262144, .f32⟩
  | 32 => ⟨S_, .f32⟩
  | 33 => ⟨S262144, .f32⟩
  | 34 => ⟨S262144, .i1⟩
  | 35 => ⟨S_, .f32⟩
  | 36 => ⟨S262144, .f32⟩
  | 37 => ⟨S262144, .f32⟩
  | 38 => ⟨S262144, .f32⟩
  | 39 => ⟨S_, .f32⟩
  | 40 => ⟨S_, .f32⟩
  | 41 => ⟨S262144, .f32⟩
  | 42 => ⟨S262144, .f32⟩
  | 43 => ⟨S_, .i32⟩
  | 44 => ⟨S8388608, .i32⟩
  | 45 => ⟨S8388608, .i1⟩
  | 46 => ⟨S_, .i32⟩
  | 47 => ⟨S8388608, .i32⟩
  | 48 => ⟨S8388608, .i32⟩
  | 49 => ⟨S8388608, .i32⟩
  | 50 => ⟨S8388608x1, .i32⟩
  | 51 => ⟨S8388608, .f32⟩
  | 52 => ⟨S8388608, .f32⟩
  | 53 => ⟨S_, .i32⟩
  | 54 => ⟨S8388608, .i32⟩
  | 55 => ⟨S8388608, .i1⟩
  | 56 => ⟨S_, .i32⟩
  | 57 => ⟨S8388608, .i32⟩
  | 58 => ⟨S8388608, .i32⟩
  | 59 => ⟨S8388608, .i32⟩
  | 60 => ⟨S8388608x1, .i32⟩
  | 61 => ⟨S8388608, .f32⟩
  | 62 => ⟨S8388608, .f32⟩
  | 63 => ⟨S8388608, .f32⟩
  | 64 => ⟨S1x1x8, .f32⟩
  | 65 => ⟨S1x8, .f32⟩
  | 66 => ⟨S262144x8, .f32⟩
  | 67 => ⟨S8388608x1, .f32⟩
  | 68 => ⟨S_, .i32⟩
  | 69 => ⟨S8388608, .i32⟩
  | 70 => ⟨S8388608, .i1⟩
  | 71 => ⟨S_, .i32⟩
  | 72 => ⟨S8388608, .i32⟩
  | 73 => ⟨S8388608, .i32⟩
  | 74 => ⟨S8388608, .i32⟩
  | 75 => ⟨S8388608x1, .i32⟩
  | 76 => ⟨S8388608x1, .f32⟩
  | 77 => ⟨S8388608x1, .f32⟩
  | 78 => ⟨S_, .f32⟩
  | 79 => ⟨S262144x1, .f32⟩
  | 80 => ⟨S8388608x1, .i32⟩
  | 81 => ⟨S262144x1, .f32⟩
  | 82 => ⟨S1x1x8, .f32⟩
  | 83 => ⟨S1x8, .f32⟩
  | 84 => ⟨S262144x8, .f32⟩
  | 85 => ⟨S262144x8, .f32⟩
  | 86 => ⟨S8388608x1, .f32⟩
  | 87 => ⟨S_, .i32⟩
  | 88 => ⟨S8388608, .i32⟩
  | 89 => ⟨S8388608, .i1⟩
  | 90 => ⟨S_, .i32⟩
  | 91 => ⟨S8388608, .i32⟩
  | 92 => ⟨S8388608, .i32⟩
  | 93 => ⟨S8388608, .i32⟩
  | 94 => ⟨S8388608x1, .i32⟩
  | 95 => ⟨S8388608x1, .f32⟩
  | 96 => ⟨S8388608x1, .f32⟩
  | 97 => ⟨S_, .f32⟩
  | 98 => ⟨S262144x1, .f32⟩
  | 99 => ⟨S8388608x1, .i32⟩
  | 100 => ⟨S262144x1, .f32⟩
  | 101 => ⟨S_, .f32⟩
  | 102 => ⟨S262144x1, .f32⟩
  | 103 => ⟨S262144x1, .f32⟩
  | 104 => ⟨S262144x1, .f32⟩
  | 105 => ⟨S1x1x8, .f32⟩
  | 106 => ⟨S1x8, .f32⟩
  | 107 => ⟨S262144x8, .f32⟩
  | 108 => ⟨S262144x8, .f32⟩
  | 109 => ⟨S8388608x1, .f32⟩
  | 110 => ⟨S_, .i32⟩
  | 111 => ⟨S8388608, .i32⟩
  | 112 => ⟨S8388608, .i1⟩
  | 113 => ⟨S_, .i32⟩
  | 114 => ⟨S8388608, .i32⟩
  | 115 => ⟨S8388608, .i32⟩
  | 116 => ⟨S8388608, .i32⟩
  | 117 => ⟨S8388608x1, .i32⟩
  | 118 => ⟨S8388608x1, .f32⟩
  | 119 => ⟨S8388608x1, .f32⟩
  | 120 => ⟨S_, .f32⟩
  | 121 => ⟨S262144x1, .f32⟩
  | 122 => ⟨S8388608x1, .i32⟩
  | 123 => ⟨S262144x1, .f32⟩
  | 124 => ⟨S_, .f32⟩
  | 125 => ⟨S262144x1, .f32⟩
  | 126 => ⟨S262144x1, .f32⟩
  | 127 => ⟨S262144x1, .f32⟩
  | _ => ⟨S262144x1, .f32⟩

abbrev hbmTy0_1 (i : Nat) : BufTy := match i % 128 with
  | 0 => ⟨S1x1x8, .f32⟩
  | 1 => ⟨S1x8, .f32⟩
  | 2 => ⟨S262144x8, .f32⟩
  | 3 => ⟨S262144x8, .f32⟩
  | 4 => ⟨S8388608x1, .f32⟩
  | 5 => ⟨S_, .i32⟩
  | 6 => ⟨S8388608, .i32⟩
  | 7 => ⟨S8388608, .i1⟩
  | 8 => ⟨S_, .i32⟩
  | 9 => ⟨S8388608, .i32⟩
  | 10 => ⟨S8388608, .i32⟩
  | 11 => ⟨S8388608, .i32⟩
  | 12 => ⟨S8388608x1, .i32⟩
  | 13 => ⟨S8388608x1, .f32⟩
  | 14 => ⟨S8388608x1, .f32⟩
  | 15 => ⟨S_, .f32⟩
  | 16 => ⟨S262144x1, .f32⟩
  | 17 => ⟨S8388608x1, .i32⟩
  | 18 => ⟨S262144x1, .f32⟩
  | 19 => ⟨S_, .f32⟩
  | 20 => ⟨S262144x1, .f32⟩
  | 21 => ⟨S262144x1, .f32⟩
  | 22 => ⟨S262144x1, .f32⟩
  | 23 => ⟨S1x1x8, .f32⟩
  | 24 => ⟨S1x8, .f32⟩
  | 25 => ⟨S262144x8, .f32⟩
  | 26 => ⟨S262144x8, .f32⟩
  | 27 => ⟨S1x8, .f32⟩
  | 28 => ⟨S262144x8, .f32⟩
  | 29 => ⟨S262144x8, .f32⟩
  | 30 => ⟨S_, .f32⟩
  | 31 => ⟨S262144x8, .f32⟩
  | 32 => ⟨S262144x8, .f32⟩
  | 33 => ⟨S1x8x8, .f32⟩
  | 34 => ⟨S8x8, .f32⟩
  | 35 => ⟨S262144x8, .f32⟩
  | 36 => ⟨S8388608x1, .f32⟩
  | 37 => ⟨S_, .i32⟩
  | 38 => ⟨S8388608, .i32⟩
  | 39 => ⟨S8388608, .i1⟩
  | 40 => ⟨S_, .i32⟩
  | 41 => ⟨S8388608, .i32⟩
  | 42 => ⟨S8388608, .i32⟩
  | 43 => ⟨S8388608, .i32⟩
  | 44 => ⟨S8388608x1, .i32⟩
  | 45 => ⟨S8388608x8, .f32⟩
  | 46 => ⟨S8388608x8, .f32⟩
  | 47 => ⟨S8388608x8, .f32⟩
  | 48 => ⟨S_, .f32⟩
  | 49 => ⟨S262144x8, .f32⟩
  | 50 => ⟨S8388608x1, .i32⟩
  | 51 => ⟨S262144x8, .f32⟩
  | 52 => ⟨S1x8x8, .f32⟩
  | 53 => ⟨S8x8, .f32⟩
  | 54 => ⟨S262144x8, .f32⟩
  | 55 => ⟨S262144x8, .f32⟩
  | 56 => ⟨S8388608x1, .f32⟩
  | 57 => ⟨S_, .i32⟩
  | 58 => ⟨S8388608, .i32⟩
  | 59 => ⟨S8388608, .i1⟩
  | 60 => ⟨S_, .i32⟩
  | 61 => ⟨S8388608, .i32⟩
  | 62 => ⟨S8388608, .i32⟩
  | 63 => ⟨S8388608, .i32⟩
  | 64 => ⟨S8388608x1, .i32⟩
  | 65 => ⟨S8388608x8, .f32⟩
  | 66 => ⟨S8388608x8, .f32⟩
  | 67 => ⟨S8388608x8, .f32⟩
  | 68 => ⟨S_, .f32⟩
  | 69 => ⟨S262144x8, .f32⟩
  | 70 => ⟨S8388608x1, .i32⟩
  | 71 => ⟨S262144x8, .f32⟩
  | 72 => ⟨S_, .f32⟩
  | 73 => ⟨S262144x8, .f32⟩
  | 74 => ⟨S262144x8, .f32⟩
  | 75 => ⟨S262144x8, .f32⟩
  | 76 => ⟨S1x8x8, .f32⟩
  | 77 => ⟨S8x8, .f32⟩
  | 78 => ⟨S262144x8, .f32⟩
  | 79 => ⟨S262144x8, .f32⟩
  | 80 => ⟨S8388608x1, .f32⟩
  | 81 => ⟨S_, .i32⟩
  | 82 => ⟨S8388608, .i32⟩
  | 83 => ⟨S8388608, .i1⟩
  | 84 => ⟨S_, .i32⟩
  | 85 => ⟨S8388608, .i32⟩
  | 86 => ⟨S8388608, .i32⟩
  | 87 => ⟨S8388608, .i32⟩
  | 88 => ⟨S8388608x1, .i32⟩
  | 89 => ⟨S8388608x8, .f32⟩
  | 90 => ⟨S8388608x8, .f32⟩
  | 91 => ⟨S8388608x8, .f32⟩
  | 92 => ⟨S_, .f32⟩
  | 93 => ⟨S262144x8, .f32⟩
  | 94 => ⟨S8388608x1, .i32⟩
  | 95 => ⟨S262144x8, .f32⟩
  | 96 => ⟨S_, .f32⟩
  | 97 => ⟨S262144x8, .f32⟩
  | 98 => ⟨S262144x8, .f32⟩
  | 99 => ⟨S262144x8, .f32⟩
  | 100 => ⟨S1x8x8, .f32⟩
  | 101 => ⟨S8x8, .f32⟩
  | 102 => ⟨S262144x8, .f32⟩
  | 103 => ⟨S262144x8, .f32⟩
  | 104 => ⟨S8388608x1, .f32⟩
  | 105 => ⟨S_, .i32⟩
  | 106 => ⟨S8388608, .i32⟩
  | 107 => ⟨S8388608, .i1⟩
  | 108 => ⟨S_, .i32⟩
  | 109 => ⟨S8388608, .i32⟩
  | 110 => ⟨S8388608, .i32⟩
  | 111 => ⟨S8388608, .i32⟩
  | 112 => ⟨S8388608x1, .i32⟩
  | 113 => ⟨S8388608x8, .f32⟩
  | 114 => ⟨S8388608x8, .f32⟩
  | 115 => ⟨S8388608x8, .f32⟩
  | 116 => ⟨S_, .f32⟩
  | 117 => ⟨S262144x8, .f32⟩
  | 118 => ⟨S8388608x1, .i32⟩
  | 119 => ⟨S262144x8, .f32⟩
  | 120 => ⟨S_, .f32⟩
  | 121 => ⟨S262144x8, .f32⟩
  | 122 => ⟨S262144x8, .f32⟩
  | 123 => ⟨S262144x8, .f32⟩
  | 124 => ⟨S1x8x8, .f32⟩
  | 125 => ⟨S8x8, .f32⟩
  | 126 => ⟨S262144x8, .f32⟩
  | 127 => ⟨S262144x8, .f32⟩
  | _ => ⟨S262144x1, .f32⟩

abbrev hbmTy0_2 (i : Nat) : BufTy := match i % 128 with
  | 0 => ⟨S1x8, .f32⟩
  | 1 => ⟨S262144x8, .f32⟩
  | 2 => ⟨S262144x8, .f32⟩
  | 3 => ⟨S_, .f32⟩
  | 4 => ⟨S262144x8, .f32⟩
  | 5 => ⟨S262144x8, .f32⟩
  | 6 => ⟨S32x65536, .f32⟩
  | 7 => ⟨S32x8192, .f32⟩
  | 8 => ⟨S32x65536, .bf16⟩
  | 9 => ⟨S32x8192, .bf16⟩
  | 10 => ⟨S1000x50, .bf16⟩
  | 11 => ⟨S8192x350, .bf16⟩
  | 12 => ⟨S350x350, .bf16⟩
  | 13 => ⟨S350x350, .bf16⟩
  | 14 => ⟨S350x50, .bf16⟩
  | 15 => ⟨S100x1, .bf16⟩
  | 16 => ⟨S1x1000, .f32⟩
  | 17 => ⟨S1x50, .f32⟩
  | 18 => ⟨S1x350, .f32⟩
  | 19 => ⟨S1x350, .f32⟩
  | 20 => ⟨S1x350, .f32⟩
  | 21 => ⟨S1x50, .f32⟩
  | 22 => ⟨S1x1, .f32⟩
  | 23 => ⟨S32x1, .f32⟩
  | 24 => ⟨S32, .f32⟩
  | _ => ⟨S262144x1, .f32⟩

abbrev hbmTy (i : Nat) : BufTy := match i / 128 with
  | 0 => hbmTy0_0 i
  | 1 => hbmTy0_1 i
  | 2 => hbmTy0_2 i
  | _ => ⟨S262144x1, .f32⟩

abbrev bufTy : (tb : Table) → Fin (tcTables nBuf tb) → BufTy
  | .hbm, ⟨i, _⟩ => hbmTy i
  | .local _ .vmem, ⟨0, _⟩ => ⟨S32x2048, .bf16⟩
  | .local _ .vmem, ⟨1, _⟩ => ⟨S32x2048, .bf16⟩
  | .local _ .vmem, ⟨2, _⟩ => ⟨S2048x1000, .f32⟩
  | .local _ .vmem, ⟨3, _⟩ => ⟨S2048x1000, .f32⟩
  | .local _ .vmem, ⟨4, _⟩ => ⟨S1x1000, .f32⟩
  | .local _ .vmem, ⟨5, _⟩ => ⟨S1000x50, .bf16⟩
  | .local _ .vmem, ⟨6, _⟩ => ⟨S1x50, .f32⟩
  | .local _ .vmem, ⟨7, _⟩ => ⟨S32x8192, .bf16⟩
  | .local _ .vmem, ⟨8, _⟩ => ⟨S8192x350, .bf16⟩
  | .local _ .vmem, ⟨9, _⟩ => ⟨S1x350, .f32⟩
  | .local _ .vmem, ⟨10, _⟩ => ⟨S350x350, .bf16⟩
  | .local _ .vmem, ⟨11, _⟩ => ⟨S1x350, .f32⟩
  | .local _ .vmem, ⟨12, _⟩ => ⟨S350x350, .bf16⟩
  | .local _ .vmem, ⟨13, _⟩ => ⟨S1x350, .f32⟩
  | .local _ .vmem, ⟨14, _⟩ => ⟨S350x50, .bf16⟩
  | .local _ .vmem, ⟨15, _⟩ => ⟨S1x50, .f32⟩
  | .local _ .vmem, ⟨16, _⟩ => ⟨S100x1, .bf16⟩
  | .local _ .vmem, ⟨17, _⟩ => ⟨S1x1, .f32⟩
  | .local _ .vmem, ⟨18, _⟩ => ⟨S32x1, .f32⟩
  | .local _ .vmem, ⟨19, _⟩ => ⟨S32x1000, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_9 : Ref sig .tc := ⟨.hbm, 87, rfl⟩
abbrev main_v52 : Ref sig .tc := ⟨.hbm, 88, rfl⟩
abbrev main_v53 : Ref sig .tc := ⟨.hbm, 89, rfl⟩
abbrev main_c_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_13 : Ref sig .tc := ⟨.hbm, 110, rfl⟩
abbrev main_v71 : Ref sig .tc := ⟨.hbm, 111, rfl⟩
abbrev main_v72 : Ref sig .tc := ⟨.hbm, 112, rfl⟩
abbrev main_c_14 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_16 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_17 : Ref sig .tc := ⟨.hbm, 133, rfl⟩
abbrev main_v90 : Ref sig .tc := ⟨.hbm, 134, rfl⟩
abbrev main_v91 : Ref sig .tc := ⟨.hbm, 135, rfl⟩
abbrev main_c_18 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_19 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_20 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_call1_cst : Ref sig .tc := ⟨.hbm, 158, rfl⟩
abbrev main_call1_v0 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_21 : Ref sig .tc := ⟨.hbm, 165, rfl⟩
abbrev main_v116 : Ref sig .tc := ⟨.hbm, 166, rfl⟩
abbrev main_v117 : Ref sig .tc := ⟨.hbm, 167, rfl⟩
abbrev main_c_22 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_23 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_c_24 : Ref sig .tc := ⟨.hbm, 185, rfl⟩
abbrev main_v133 : Ref sig .tc := ⟨.hbm, 186, rfl⟩
abbrev main_v134 : Ref sig .tc := ⟨.hbm, 187, rfl⟩
abbrev main_c_25 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_26 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_27 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_c_28 : Ref sig .tc := ⟨.hbm, 209, rfl⟩
abbrev main_v153 : Ref sig .tc := ⟨.hbm, 210, rfl⟩
abbrev main_v154 : Ref sig .tc := ⟨.hbm, 211, rfl⟩
abbrev main_c_29 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_30 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_31 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_c_32 : Ref sig .tc := ⟨.hbm, 233, rfl⟩
abbrev main_v173 : Ref sig .tc := ⟨.hbm, 234, rfl⟩
abbrev main_v174 : Ref sig .tc := ⟨.hbm, 235, rfl⟩
abbrev main_c_33 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_34 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_cst_35 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_call2_cst : Ref sig .tc := ⟨.hbm, 259, rfl⟩
abbrev main_call2_v0 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x350 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x350 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S350x350 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x350 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S350x350 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x350 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S350x50 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x50 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S100x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S262144 : S_.BroadcastsInDim S262144 (![] : Fin 0 → Fin S262144.rank)
  bcast_S8388608_S8388608x1_0 : S8388608.BroadcastsInDim S8388608x1 (![0] : Fin 1 → Fin S8388608x1.rank)
  bcast_S_S8388608 : S_.BroadcastsInDim S8388608 (![] : Fin 0 → Fin S8388608.rank)
  slices_S5x1x8_S1x1x8_0_0_0 : S5x1x8.Slices ![0, 0, 0] S1x1x8
  shapeCasts_S1x1x8_S1x8 : S1x1x8.ShapeCasts S1x8
  bcast_S_S262144x1 : S_.BroadcastsInDim S262144x1 (![] : Fin 0 → Fin S262144x1.rank)
  slices_S5x1x8_S1x1x8_1_0_0 : S5x1x8.Slices ![1, 0, 0] S1x1x8
  slices_S5x1x8_S1x1x8_2_0_0 : S5x1x8.Slices ![2, 0, 0] S1x1x8
  slices_S5x1x8_S1x1x8_3_0_0 : S5x1x8.Slices ![3, 0, 0] S1x1x8
  slices_S5x1x8_S1x1x8_4_0_0 : S5x1x8.Slices ![4, 0, 0] S1x1x8
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  bcast_S_S262144x8 : S_.BroadcastsInDim S262144x8 (![] : Fin 0 → Fin S262144x8.rank)
  slices_S5x8x8_S1x8x8_0_0_0 : S5x8x8.Slices ![0, 0, 0] S1x8x8
  shapeCasts_S1x8x8_S8x8 : S1x8x8.ShapeCasts S8x8
  bcast_S8388608x1_S8388608x8_0_1 : S8388608x1.BroadcastsInDim S8388608x8 (![0, 1] : Fin 2 → Fin S8388608x8.rank)
  slices_S5x8x8_S1x8x8_1_0_0 : S5x8x8.Slices ![1, 0, 0] S1x8x8
  slices_S5x8x8_S1x8x8_2_0_0 : S5x8x8.Slices ![2, 0, 0] S1x8x8
  slices_S5x8x8_S1x8x8_3_0_0 : S5x8x8.Slices ![3, 0, 0] S1x8x8
  slices_S5x8x8_S1x8x8_4_0_0 : S5x8x8.Slices ![4, 0, 0] S1x8x8
  shapeCasts_S262144x8_S32x65536 : S262144x8.ShapeCasts S32x65536
  shapeCasts_S262144x1_S32x8192 : S262144x1.ShapeCasts S32x8192
  bitsLt_bf16_f32 : FTy.bits .bf16 < FTy.bits .f32
  shapeCasts_S1000_S1x1000 : S1000.ShapeCasts S1x1000
  shapeCasts_S50_S1x50 : S50.ShapeCasts S1x50
  shapeCasts_S350_S1x350 : S350.ShapeCasts S1x350
  shapeCasts_S1_S1x1 : S1.ShapeCasts S1x1
  inb_S32x1000_S32x1000_0_0 : ∀ a, (![0, 0] : Fin 2 → Nat) a + S32x1000.size a ≤ S32x1000.size a
  h_S32x1000 : 0 < S32x1000.numel
  shapeCasts_S32x1000_S32x1000 : S32x1000.ShapeCasts S32x1000
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S2048x1000_S2048x1000_0_0 : ∀ a, (![0, 0] : Fin 2 → Nat) a + S2048x1000.size a ≤ S2048x1000.size a
  h_S2048x1000 : 0 < S2048x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S32x1000 : S1x1000.Broadcasts S32x1000
  inb_S1000x50_S1000x50_0_0 : ∀ a, (![0, 0] : Fin 2 → Nat) a + S1000x50.size a ≤ S1000x50.size a
  h_S1000x50 : 0 < S1000x50.numel
  shapeCasts_S1000x50_S1000x50 : S1000x50.ShapeCasts S1000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S32x50 : S1x50.Broadcasts S32x50
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S8192x350_S8192x350_0_0 : ∀ a, (![0, 0] : Fin 2 → Nat) a + S8192x350.size a ≤ S8192x350.size a
  h_S8192x350 : 0 < S8192x350.numel
  shapeCasts_S8192x350_S8192x350 : S8192x350.ShapeCasts S8192x350
  inb_S1x350_S1x350_0_0 : ∀ a, (![0, 0] : Fin 2 → Nat) a + S1x350.size a ≤ S1x350.size a
  h_S1x350 : 0 < S1x350.numel
  shapeCasts_S1x350_S1x350 : S1x350.ShapeCasts S1x350
  broadcasts_S1x350_S32x350 : S1x350.Broadcasts S32x350
  inb_S350x350_S350x350_0_0 : ∀ a, (![0, 0] : Fin 2 → Nat) a + S350x350.size a ≤ S350x350.size a
  h_S350x350 : 0 < S350x350.numel
  shapeCasts_S350x350_S350x350 : S350x350.ShapeCasts S350x350
  inb_S350x50_S350x50_0_0 : ∀ a, (![0, 0] : Fin 2 → Nat) a + S350x50.size a ≤ S350x50.size a
  h_S350x50 : 0 < S350x50.numel
  shapeCasts_S350x50_S350x50 : S350x50.ShapeCasts S350x50
  concatenates_S32x50_S32x50_S32x100_d1 : Shape.Concatenates [S32x50, S32x50] S32x100 1
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x1 : S1x1.Broadcasts S32x1
  inb_S32x1_S32x1_0_0 : ∀ a, (![0, 0] : Fin 2 → Nat) a + S32x1.size a ≤ S32x1.size a
  h_S32x1 : 0 < S32x1.numel
  shapeCasts_S32x1_S32 : S32x1.ShapeCasts S32
  scatter_S262144_S8388608x1_S8388608_n_0_0_1_wf : ScatterDims.WF S262144 S8388608x1 S8388608 [] [0] [0] 1
  gather_S262144_S8388608x1_S8388608_n_0_n_n_0_1_1_wf : GatherDims.WF S262144 S8388608x1 S8388608 [] [0] [] [0] [] 1 ![1]
  dot_S262144x1_S1x8_S262144x8_1_0_0_1_n_n_wf : DotDims.WF S262144x1 S1x8 S262144x8 [1] [0] [0] [1] [] []
  gather_S262144x1_S8388608x1_S8388608x1_1_0_n_n_0_1_11_wf : GatherDims.WF S262144x1 S8388608x1 S8388608x1 [1] [0] [] [0] [] 1 ![1, 1]
  scatter_S262144x1_S8388608x1_S8388608x1_1_0_0_1_wf : ScatterDims.WF S262144x1 S8388608x1 S8388608x1 [1] [0] [0] 1
  dot_S262144x8_S8x8_S262144x8_1_0_0_1_n_n_wf : DotDims.WF S262144x8 S8x8 S262144x8 [1] [0] [0] [1] [] []
  gather_S262144x8_S8388608x1_S8388608x8_1_0_n_n_0_1_18_wf : GatherDims.WF S262144x8 S8388608x1 S8388608x8 [1] [0] [] [0] [] 1 ![1, 8]
  scatter_S262144x8_S8388608x1_S8388608x8_1_0_0_1_wf : ScatterDims.WF S262144x8 S8388608x1 S8388608x8 [1] [0] [0] 1
  dot_S32x2048_S2048x1000_S32x1000_1_0_0_1_n_n_wf : DotDims.WF S32x2048 S2048x1000 S32x1000 [1] [0] [0] [1] [] []
  dot_S32x1000_S1000x50_S32x50_1_0_0_1_n_n_wf : DotDims.WF S32x1000 S1000x50 S32x50 [1] [0] [0] [1] [] []
  dot_S32x8192_S8192x350_S32x350_1_0_0_1_n_n_wf : DotDims.WF S32x8192 S8192x350 S32x350 [1] [0] [0] [1] [] []
  dot_S32x350_S350x350_S32x350_1_0_0_1_n_n_wf : DotDims.WF S32x350 S350x350 S32x350 [1] [0] [0] [1] [] []
  dot_S32x350_S350x50_S32x50_1_0_0_1_n_n_wf : DotDims.WF S32x350 S350x50 S32x50 [1] [0] [0] [1] [] []
  dot_S32x100_S100x1_S32x1_1_0_0_1_n_n_wf : DotDims.WF S32x100 S100x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x65536.size a
  hwx0_0 : ∀ i : grid0.Coords, EltTy.bits .bf16 = 32 ∨ (Rect.block (s := S32x65536) S32x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1000.size a ≤ S65536x1000.size a
  hwx0_1 : ∀ i : grid0.Coords, EltTy.bits .f32 = 32 ∨ (Rect.block (s := S65536x1000) S2048x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x50.size a ≤ S1000x50.size a
  hwx0_3 : ∀ i : grid0.Coords, EltTy.bits .bf16 = 32 ∨ (Rect.block (s := S1000x50) S1000x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x8192.size a ≤ S32x8192.size a
  hwx0_5 : ∀ i : grid0.Coords, EltTy.bits .bf16 = 32 ∨ (Rect.block (s := S32x8192) S32x8192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192x350.size a ≤ S8192x350.size a
  hwx0_6 : ∀ i : grid0.Coords, EltTy.bits .bf16 = 32 ∨ (Rect.block (s := S8192x350) S8192x350.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x350.size a ≤ S1x350.size a
  hwx0_7 : ∀ i : grid0.Coords, EltTy.bits .f32 = 32 ∨ (Rect.block (s := S1x350) S1x350.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S350x350.size a ≤ S350x350.size a
  hwx0_8 : ∀ i : grid0.Coords, EltTy.bits .bf16 = 32 ∨ (Rect.block (s := S350x350) S350x350.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x350.size a ≤ S1x350.size a
  hwx0_9 : ∀ i : grid0.Coords, EltTy.bits .f32 = 32 ∨ (Rect.block (s := S1x350) S1x350.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S350x350.size a ≤ S350x350.size a
  hwx0_10 : ∀ i : grid0.Coords, EltTy.bits .bf16 = 32 ∨ (Rect.block (s := S350x350) S350x350.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x350.size a ≤ S1x350.size a
  hwx0_11 : ∀ i : grid0.Coords, EltTy.bits .f32 = 32 ∨ (Rect.block (s := S1x350) S1x350.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S350x50.size a ≤ S350x50.size a
  hwx0_12 : ∀ i : grid0.Coords, EltTy.bits .bf16 = 32 ∨ (Rect.block (s := S350x50) S350x50.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x50.size a ≤ S1x50.size a
  hwx0_13 : ∀ i : grid0.Coords, EltTy.bits .f32 = 32 ∨ (Rect.block (s := S1x50) S1x50.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S100x1.size a ≤ S100x1.size a
  hwx0_14 : ∀ i : grid0.Coords, EltTy.bits .bf16 = 32 ∨ (Rect.block (s := S100x1) S100x1.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x1.size a ≤ S32x1.size a
  hwx0_16 : ∀ i : grid0.Coords, EltTy.bits .f32 = 32 ∨ (Rect.block (s := S32x1) S32x1.size (cc0_transform_16 i) (hinb0_16 i)).WholeWords (EltTy.packing .f32)

variable [Facts₀]

def scatter_S262144_S8388608x1_S8388608_n_0_0_1 : ScatterDims S262144 S8388608x1 S8388608 where
  updateWindowDims := []
  insertedWindowDims := [0]
  scatterDimsToOperandDims := [0]
  indexVectorDim := 1
  wf := scatter_S262144_S8388608x1_S8388608_n_0_0_1_wf
def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf
def dot_S262144x1_S1x8_S262144x8_1_0_0_1_n_n : DotDims S262144x1 S1x8 S262144x8 where
  lhsContracting := [1]
  rhsContracting := [0]
  lhsNonContracting := [0]
  rhsNonContracting := [1]
  lhsBatch := []
  rhsBatch := []
  wf := dot_S262144x1_S1x8_S262144x8_1_0_0_1_n_n_wf
def gather_S262144x1_S8388608x1_S8388608x1_1_0_n_n_0_1_11 : GatherDims S262144x1 S8388608x1 S8388608x1 where
  offsetDims := [1]
  collapsedSliceDims := [0]
  operandBatchingDims := []
  startIndicesBatchingDims := []
  startIndexMap := [0]
  indexVectorDim := 1
  sliceSizes := ![1, 1]
  wf := gather_S262144x1_S8388608x1_S8388608x1_1_0_n_n_0_1_11_wf
def scatter_S262144x1_S8388608x1_S8388608x1_1_0_0_1 : ScatterDims S262144x1 S8388608x1 S8388608x1 where
  updateWindowDims := [1]
  insertedWindowDims := [0]
  scatterDimsToOperandDims := [0]
  indexVectorDim := 1
  wf := scatter_S262144x1_S8388608x1_S8388608x1_1_0_0_1_wf
def dot_S262144x8_S8x8_S262144x8_1_0_0_1_n_n : DotDims S262144x8 S8x8 S262144x8 where
  lhsContracting := [1]
  rhsContracting := [0]
  lhsNonContracting := [0]
  rhsNonContracting := [1]
  lhsBatch := []
  rhsBatch := []
  wf := dot_S262144x8_S8x8_S262144x8_1_0_0_1_n_n_wf
def gather_S262144x8_S8388608x1_S8388608x8_1_0_n_n_0_1_18 : GatherDims S262144x8 S8388608x1 S8388608x8 where
  offsetDims := [1]
  collapsedSliceDims := [0]
  operandBatchingDims := []
  startIndicesBatchingDims := []
  startIndexMap := [0]
  indexVectorDim := 1
  sliceSizes := ![1, 8]
  wf := gather_S262144x8_S8388608x1_S8388608x8_1_0_n_n_0_1_18_wf
def scatter_S262144x8_S8388608x1_S8388608x8_1_0_0_1 : ScatterDims S262144x8 S8388608x1 S8388608x8 where
  updateWindowDims := [1]
  insertedWindowDims := [0]
  scatterDimsToOperandDims := [0]
  indexVectorDim := 1
  wf := scatter_S262144x8_S8388608x1_S8388608x8_1_0_0_1_wf
def dot_S32x2048_S2048x1000_S32x1000_1_0_0_1_n_n : DotDims S32x2048 S2048x1000 S32x1000 where
  lhsContracting := [1]
  rhsContracting := [0]
  lhsNonContracting := [0]
  rhsNonContracting := [1]
  lhsBatch := []
  rhsBatch := []
  wf := dot_S32x2048_S2048x1000_S32x1000_1_0_0_1_n_n_wf
def dot_S32x1000_S1000x50_S32x50_1_0_0_1_n_n : DotDims S32x1000 S1000x50 S32x50 where
  lhsContracting := [1]
  rhsContracting := [0]
  lhsNonContracting := [0]
  rhsNonContracting := [1]
  lhsBatch := []
  rhsBatch := []
  wf := dot_S32x1000_S1000x50_S32x50_1_0_0_1_n_n_wf
def dot_S32x8192_S8192x350_S32x350_1_0_0_1_n_n : DotDims S32x8192 S8192x350 S32x350 where
  lhsContracting := [1]
  rhsContracting := [0]
  lhsNonContracting := [0]
  rhsNonContracting := [1]
  lhsBatch := []
  rhsBatch := []
  wf := dot_S32x8192_S8192x350_S32x350_1_0_0_1_n_n_wf
def dot_S32x350_S350x350_S32x350_1_0_0_1_n_n : DotDims S32x350 S350x350 S32x350 where
  lhsContracting := [1]
  rhsContracting := [0]
  lhsNonContracting := [0]
  rhsNonContracting := [1]
  lhsBatch := []
  rhsBatch := []
  wf := dot_S32x350_S350x350_S32x350_1_0_0_1_n_n_wf
def dot_S32x350_S350x50_S32x50_1_0_0_1_n_n : DotDims S32x350 S350x50 S32x50 where
  lhsContracting := [1]
  rhsContracting := [0]
  lhsNonContracting := [0]
  rhsNonContracting := [1]
  lhsBatch := []
  rhsBatch := []
  wf := dot_S32x350_S350x50_S32x50_1_0_0_1_n_n_wf
def dot_S32x100_S100x1_S32x1_1_0_0_1_n_n : DotDims S32x100 S100x1 S32x1 where
  lhsContracting := [1]
  rhsContracting := [0]
  lhsNonContracting := [0]
  rhsNonContracting := [1]
  lhsBatch := []
  rhsBatch := []
  wf := dot_S32x100_S100x1_S32x1_1_0_0_1_n_n_wf

abbrev win0_0 : Pipeline.Window sig grid0 :=
  Pipeline.Window.ofSpec (Memref.whole main_v198) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S2048x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v206) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v200) S1000x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v207) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v199) S32x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v201) S8192x350.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v208) S1x350.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v202) S350x350.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v209) S1x350.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v203) S350x350.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v210) S1x350.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v204) S350x50.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v211) S1x50.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v205) S100x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v212) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v213) S32x1.size cc0_transform_16 reads0_16 true true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond2 i == 1#1) | ⟨_ + 17, h⟩ => absurd h (Nat.not_lt.2 (Nat.le_add_left _ _))

class Facts : Prop extends Facts₀ where

variable [Facts]
-- ==== ReferenceIdeal.lean ====
abbrev S262144x1 : Shape := ⟨2, ![262144, 1]⟩
abbrev S2x8388608 : Shape := ⟨2, ![2, 8388608]⟩
abbrev S8388608 : Shape := ⟨1, ![8388608]⟩
abbrev S262144 : Shape := ⟨1, ![262144]⟩
abbrev S5x1x8 : Shape := ⟨3, ![5, 1, 8]⟩
abbrev S8 : Shape := ⟨1, ![8]⟩
abbrev S5x8x8 : Shape := ⟨3, ![5, 8, 8]⟩
abbrev S65536x1000 : Shape := ⟨2, ![65536, 1000]⟩
abbrev S1000 : Shape := ⟨1, ![1000]⟩
abbrev S1000x50 : Shape := ⟨2, ![1000, 50]⟩
abbrev S50 : Shape := ⟨1, ![50]⟩
abbrev S8192x350 : Shape := ⟨2, ![8192, 350]⟩
abbrev S350 : Shape := ⟨1, ![350]⟩
abbrev S350x350 : Shape := ⟨2, ![350, 350]⟩
abbrev S350x50 : Shape := ⟨2, ![350, 50]⟩
abbrev S100x1 : Shape := ⟨2, ![100, 1]⟩
abbrev S1 : Shape := ⟨1, ![1]⟩
abbrev S1x8388608 : Shape := ⟨2, ![1, 8388608]⟩
abbrev S_ : Shape := ⟨0, ![]⟩
abbrev S8388608x1 : Shape := ⟨2, ![8388608, 1]⟩
abbrev S1x1x8 : Shape := ⟨3, ![1, 1, 8]⟩
abbrev S1x8 : Shape := ⟨2, ![1, 8]⟩
abbrev S262144x8 : Shape := ⟨2, ![262144, 8]⟩
abbrev S1x8x8 : Shape := ⟨3, ![1, 8, 8]⟩
abbrev S8x8 : Shape := ⟨2, ![8, 8]⟩
abbrev S8388608x8 : Shape := ⟨2, ![8388608, 8]⟩
abbrev S32x65536 : Shape := ⟨2, ![32, 65536]⟩
abbrev S32x1000 : Shape := ⟨2, ![32, 1000]⟩
abbrev S1x1000 : Shape := ⟨2, ![1, 1000]⟩
abbrev S32x50 : Shape := ⟨2, ![32, 50]⟩
abbrev S1x50 : Shape := ⟨2, ![1, 50]⟩
abbrev S32x8192 : Shape := ⟨2, ![32, 8192]⟩
abbrev S32x350 : Shape := ⟨2, ![32, 350]⟩
abbrev S1x350 : Shape := ⟨2, ![1, 350]⟩
abbrev S32x100 : Shape := ⟨2, ![32, 100]⟩
abbrev S32x1 : Shape := ⟨2, ![32, 1]⟩
abbrev S1x1 : Shape := ⟨2, ![1, 1]⟩
abbrev S32 : Shape := ⟨1, ![32]⟩

abbrev nBuf : Space → Nat
  | .hbm => 353
  | .vmem => 0
  | .smem => 0
  | _ => 0

abbrev hbmTy0_0 (i : Nat) : BufTy := match i % 128 with
  | 0 => ⟨S262144x1, .f32⟩
  | 1 => ⟨S2x8388608, .i32⟩
  | 2 => ⟨S8388608, .f32⟩
  | 3 => ⟨S262144, .i32⟩
  | 4 => ⟨S5x1x8, .f32⟩
  | 5 => ⟨S8, .f32⟩
  | 6 => ⟨S5x8x8, .f32⟩
  | 7 => ⟨S8, .f32⟩
  | 8 => ⟨S65536x1000, .f32⟩
  | 9 => ⟨S1000, .f32⟩
  | 10 => ⟨S1000x50, .f32⟩
  | 11 => ⟨S50, .f32⟩
  | 12 => ⟨S8192x350, .f32⟩
  | 13 => ⟨S350, .f32⟩
  | 14 => ⟨S350x350, .f32⟩
  | 15 => ⟨S350, .f32⟩
  | 16 => ⟨S350x350, .f32⟩
  | 17 => ⟨S350, .f32⟩
  | 18 => ⟨S350x50, .f32⟩
  | 19 => ⟨S50, .f32⟩
  | 20 => ⟨S100x1, .f32⟩
  | 21 => ⟨S1, .f32⟩
  | 22 => ⟨S1x8388608, .i32⟩
  | 23 => ⟨S8388608, .i32⟩
  | 24 => ⟨S1x8388608, .i32⟩
  | 25 => ⟨S8388608, .i32⟩
  | 26 => ⟨S8388608, .i1⟩
  | 27 => ⟨S8388608, .f32⟩
  | 28 => ⟨S_, .f32⟩
  | 29 => ⟨S262144, .f32⟩
  | 30 => ⟨S8388608x1, .i32⟩
  | 31 => ⟨S262144, .f32⟩
  | 32 => ⟨S_, .f32⟩
  | 33 => ⟨S262144, .f32⟩
  | 34 => ⟨S262144, .i1⟩
  | 35 => ⟨S_, .f32⟩
  | 36 => ⟨S262144, .f32⟩
  | 37 => ⟨S262144, .f32⟩
  | 38 => ⟨S262144, .f32⟩
  | 39 => ⟨S_, .f32⟩
  | 40 => ⟨S_, .f32⟩
  | 41 => ⟨S262144, .f32⟩
  | 42 => ⟨S262144, .f32⟩
  | 43 => ⟨S_, .i32⟩
  | 44 => ⟨S8388608, .i32⟩
  | 45 => ⟨S8388608, .i1⟩
  | 46 => ⟨S_, .i32⟩
  | 47 => ⟨S8388608, .i32⟩
  | 48 => ⟨S8388608, .i32⟩
  | 49 => ⟨S8388608, .i32⟩
  | 50 => ⟨S8388608x1, .i32⟩
  | 51 => ⟨S8388608, .f32⟩
  | 52 => ⟨S8388608, .f32⟩
  | 53 => ⟨S_, .i32⟩
  | 54 => ⟨S8388608, .i32⟩
  | 55 => ⟨S8388608, .i1⟩
  | 56 => ⟨S_, .i32⟩
  | 57 => ⟨S8388608, .i32⟩
  | 58 => ⟨S8388608, .i32⟩
  | 59 => ⟨S8388608, .i32⟩
  | 60 => ⟨S8388608x1, .i32⟩
  | 61 => ⟨S8388608, .f32⟩
  | 62 => ⟨S8388608, .f32⟩
  | 63 => ⟨S8388608, .f32⟩
  | 64 => ⟨S1x1x8, .f32⟩
  | 65 => ⟨S1x8, .f32⟩
  | 66 => ⟨S262144x8, .f32⟩
  | 67 => ⟨S8388608x1, .f32⟩
  | 68 => ⟨S_, .i32⟩
  | 69 => ⟨S8388608, .i32⟩
  | 70 => ⟨S8388608, .i1⟩
  | 71 => ⟨S_, .i32⟩
  | 72 => ⟨S8388608, .i32⟩
  | 73 => ⟨S8388608, .i32⟩
  | 74 => ⟨S8388608, .i32⟩
  | 75 => ⟨S8388608x1, .i32⟩
  | 76 => ⟨S8388608x1, .f32⟩
  | 77 => ⟨S8388608x1, .f32⟩
  | 78 => ⟨S_, .f32⟩
  | 79 => ⟨S262144x1, .f32⟩
  | 80 => ⟨S8388608x1, .i32⟩
  | 81 => ⟨S262144x1, .f32⟩
  | 82 => ⟨S1x1x8, .f32⟩
  | 83 => ⟨S1x8, .f32⟩
  | 84 => ⟨S262144x8, .f32⟩
  | 85 => ⟨S262144x8, .f32⟩
  | 86 => ⟨S8388608x1, .f32⟩
  | 87 => ⟨S_, .i32⟩
  | 88 => ⟨S8388608, .i32⟩
  | 89 => ⟨S8388608, .i1⟩
  | 90 => ⟨S_, .i32⟩
  | 91 => ⟨S8388608, .i32⟩
  | 92 => ⟨S8388608, .i32⟩
  | 93 => ⟨S8388608, .i32⟩
  | 94 => ⟨S8388608x1, .i32⟩
  | 95 => ⟨S8388608x1, .f32⟩
  | 96 => ⟨S8388608x1, .f32⟩
  | 97 => ⟨S_, .f32⟩
  | 98 => ⟨S262144x1, .f32⟩
  | 99 => ⟨S8388608x1, .i32⟩
  | 100 => ⟨S262144x1, .f32⟩
  | 101 => ⟨S_, .f32⟩
  | 102 => ⟨S262144x1, .f32⟩
  | 103 => ⟨S262144x1, .f32⟩
  | 104 => ⟨S262144x1, .f32⟩
  | 105 => ⟨S1x1x8, .f32⟩
  | 106 => ⟨S1x8, .f32⟩
  | 107 => ⟨S262144x8, .f32⟩
  | 108 => ⟨S262144x8, .f32⟩
  | 109 => ⟨S8388608x1, .f32⟩
  | 110 => ⟨S_, .i32⟩
  | 111 => ⟨S8388608, .i32⟩
  | 112 => ⟨S8388608, .i1⟩
  | 113 => ⟨S_, .i32⟩
  | 114 => ⟨S8388608, .i32⟩
  | 115 => ⟨S8388608, .i32⟩
  | 116 => ⟨S8388608, .i32⟩
  | 117 => ⟨S8388608x1, .i32⟩
  | 118 => ⟨S8388608x1, .f32⟩
  | 119 => ⟨S8388608x1, .f32⟩
  | 120 => ⟨S_, .f32⟩
  | 121 => ⟨S262144x1, .f32⟩
  | 122 => ⟨S8388608x1, .i32⟩
  | 123 => ⟨S262144x1, .f32⟩
  | 124 => ⟨S_, .f32⟩
  | 125 => ⟨S262144x1, .f32⟩
  | 126 => ⟨S262144x1, .f32⟩
  | 127 => ⟨S262144x1, .f32⟩
  | _ => ⟨S262144x1, .f32⟩

abbrev hbmTy0_1 (i : Nat) : BufTy := match i % 128 with
  | 0 => ⟨S1x1x8, .f32⟩
  | 1 => ⟨S1x8, .f32⟩
  | 2 => ⟨S262144x8, .f32⟩
  | 3 => ⟨S262144x8, .f32⟩
  | 4 => ⟨S8388608x1, .f32⟩
  | 5 => ⟨S_, .i32⟩
  | 6 => ⟨S8388608, .i32⟩
  | 7 => ⟨S8388608, .i1⟩
  | 8 => ⟨S_, .i32⟩
  | 9 => ⟨S8388608, .i32⟩
  | 10 => ⟨S8388608, .i32⟩
  | 11 => ⟨S8388608, .i32⟩
  | 12 => ⟨S8388608x1, .i32⟩
  | 13 => ⟨S8388608x1, .f32⟩
  | 14 => ⟨S8388608x1, .f32⟩
  | 15 => ⟨S_, .f32⟩
  | 16 => ⟨S262144x1, .f32⟩
  | 17 => ⟨S8388608x1, .i32⟩
  | 18 => ⟨S262144x1, .f32⟩
  | 19 => ⟨S_, .f32⟩
  | 20 => ⟨S262144x1, .f32⟩
  | 21 => ⟨S262144x1, .f32⟩
  | 22 => ⟨S262144x1, .f32⟩
  | 23 => ⟨S1x1x8, .f32⟩
  | 24 => ⟨S1x8, .f32⟩
  | 25 => ⟨S262144x8, .f32⟩
  | 26 => ⟨S262144x8, .f32⟩
  | 27 => ⟨S1x8, .f32⟩
  | 28 => ⟨S262144x8, .f32⟩
  | 29 => ⟨S262144x8, .f32⟩
  | 30 => ⟨S_, .f32⟩
  | 31 => ⟨S262144x8, .f32⟩
  | 32 => ⟨S262144x8, .f32⟩
  | 33 => ⟨S1x8x8, .f32⟩
  | 34 => ⟨S8x8, .f32⟩
  | 35 => ⟨S262144x8, .f32⟩
  | 36 => ⟨S8388608x1, .f32⟩
  | 37 => ⟨S_, .i32⟩
  | 38 => ⟨S8388608, .i32⟩
  | 39 => ⟨S8388608, .i1⟩
  | 40 => ⟨S_, .i32⟩
  | 41 => ⟨S8388608, .i32⟩
  | 42 => ⟨S8388608, .i32⟩
  | 43 => ⟨S8388608, .i32⟩
  | 44 => ⟨S8388608x1, .i32⟩
  | 45 => ⟨S8388608x8, .f32⟩
  | 46 => ⟨S8388608x8, .f32⟩
  | 47 => ⟨S8388608x8, .f32⟩
  | 48 => ⟨S_, .f32⟩
  | 49 => ⟨S262144x8, .f32⟩
  | 50 => ⟨S8388608x1, .i32⟩
  | 51 => ⟨S262144x8, .f32⟩
  | 52 => ⟨S1x8x8, .f32⟩
  | 53 => ⟨S8x8, .f32⟩
  | 54 => ⟨S262144x8, .f32⟩
  | 55 => ⟨S262144x8, .f32⟩
  | 56 => ⟨S8388608x1, .f32⟩
  | 57 => ⟨S_, .i32⟩
  | 58 => ⟨S8388608, .i32⟩
  | 59 => ⟨S8388608, .i1⟩
  | 60 => ⟨S_, .i32⟩
  | 61 => ⟨S8388608, .i32⟩
  | 62 => ⟨S8388608, .i32⟩
  | 63 => ⟨S8388608, .i32⟩
  | 64 => ⟨S8388608x1, .i32⟩
  | 65 => ⟨S8388608x8, .f32⟩
  | 66 => ⟨S8388608x8, .f32⟩
  | 67 => ⟨S8388608x8, .f32⟩
  | 68 => ⟨S_, .f32⟩
  | 69 => ⟨S262144x8, .f32⟩
  | 70 => ⟨S8388608x1, .i32⟩
  | 71 => ⟨S262144x8, .f32⟩
  | 72 => ⟨S_, .f32⟩
  | 73 => ⟨S262144x8, .f32⟩
  | 74 => ⟨S262144x8, .f32⟩
  | 75 => ⟨S262144x8, .f32⟩
  | 76 => ⟨S1x8x8, .f32⟩
  | 77 => ⟨S8x8, .f32⟩
  | 78 => ⟨S262144x8, .f32⟩
  | 79 => ⟨S262144x8, .f32⟩
  | 80 => ⟨S8388608x1, .f32⟩
  | 81 => ⟨S_, .i32⟩
  | 82 => ⟨S8388608, .i32⟩
  | 83 => ⟨S8388608, .i1⟩
  | 84 => ⟨S_, .i32⟩
  | 85 => ⟨S8388608, .i32⟩
  | 86 => ⟨S8388608, .i32⟩
  | 87 => ⟨S8388608, .i32⟩
  | 88 => ⟨S8388608x1, .i32⟩
  | 89 => ⟨S8388608x8, .f32⟩
  | 90 => ⟨S8388608x8, .f32⟩
  | 91 => ⟨S8388608x8, .f32⟩
  | 92 => ⟨S_, .f32⟩
  | 93 => ⟨S262144x8, .f32⟩
  | 94 => ⟨S8388608x1, .i32⟩
  | 95 => ⟨S262144x8, .f32⟩
  | 96 => ⟨S_, .f32⟩
  | 97 => ⟨S262144x8, .f32⟩
  | 98 => ⟨S262144x8, .f32⟩
  | 99 => ⟨S262144x8, .f32⟩
  | 100 => ⟨S1x8x8, .f32⟩
  | 101 => ⟨S8x8, .f32⟩
  | 102 => ⟨S262144x8, .f32⟩
  | 103 => ⟨S262144x8, .f32⟩
  | 104 => ⟨S8388608x1, .f32⟩
  | 105 => ⟨S_, .i32⟩
  | 106 => ⟨S8388608, .i32⟩
  | 107 => ⟨S8388608, .i1⟩
  | 108 => ⟨S_, .i32⟩
  | 109 => ⟨S8388608, .i32⟩
  | 110 => ⟨S8388608, .i32⟩
  | 111 => ⟨S8388608, .i32⟩
  | 112 => ⟨S8388608x1, .i32⟩
  | 113 => ⟨S8388608x8, .f32⟩
  | 114 => ⟨S8388608x8, .f32⟩
  | 115 => ⟨S8388608x8, .f32⟩
  | 116 => ⟨S_, .f32⟩
  | 117 => ⟨S262144x8, .f32⟩
  | 118 => ⟨S8388608x1, .i32⟩
  | 119 => ⟨S262144x8, .f32⟩
  | 120 => ⟨S_, .f32⟩
  | 121 => ⟨S262144x8, .f32⟩
  | 122 => ⟨S262144x8, .f32⟩
  | 123 => ⟨S262144x8, .f32⟩
  | 124 => ⟨S1x8x8, .f32⟩
  | 125 => ⟨S8x8, .f32⟩
  | 126 => ⟨S262144x8, .f32⟩
  | 127 => ⟨S262144x8, .f32⟩
  | _ => ⟨S262144x1, .f32⟩

abbrev hbmTy0_2 (i : Nat) : BufTy := match i % 128 with
  | 0 => ⟨S1x8, .f32⟩
  | 1 => ⟨S262144x8, .f32⟩
  | 2 => ⟨S262144x8, .f32⟩
  | 3 => ⟨S_, .f32⟩
  | 4 => ⟨S262144x8, .f32⟩
  | 5 => ⟨S262144x8, .f32⟩
  | 6 => ⟨S32x65536, .f32⟩
  | 7 => ⟨S32x1000, .f32⟩
  | 8 => ⟨S1x1000, .f32⟩
  | 9 => ⟨S32x1000, .f32⟩
  | 10 => ⟨S32x1000, .f32⟩
  | 11 => ⟨S_, .f32⟩
  | 12 => ⟨S32x1000, .f32⟩
  | 13 => ⟨S32x1000, .f32⟩
  | 14 => ⟨S32x50, .f32⟩
  | 15 => ⟨S1x50, .f32⟩
  | 16 => ⟨S32x50, .f32⟩
  | 17 => ⟨S32x50, .f32⟩
  | 18 => ⟨S_, .f32⟩
  | 19 => ⟨S32x50, .f32⟩
  | 20 => ⟨S32x50, .f32⟩
  | 21 => ⟨S32x8192, .f32⟩
  | 22 => ⟨S32x350, .f32⟩
  | 23 => ⟨S1x350, .f32⟩
  | 24 => ⟨S32x350, .f32⟩
  | 25 => ⟨S32x350, .f32⟩
  | 26 => ⟨S_, .f32⟩
  | 27 => ⟨S32x350, .f32⟩
  | 28 => ⟨S32x350, .i1⟩
  | 29 => ⟨S_, .f32⟩
  | 30 => ⟨S32x350, .f32⟩
  | 31 => ⟨S32x350, .i1⟩
  | 32 => ⟨S_, .f32⟩
  | 33 => ⟨S_, .f32⟩
  | 34 => ⟨S32x350, .f32⟩
  | 35 => ⟨S32x350, .f32⟩
  | 36 => ⟨S32x350, .f32⟩
  | 37 => ⟨S_, .f32⟩
  | 38 => ⟨S32x350, .f32⟩
  | 39 => ⟨S32x350, .f32⟩
  | 40 => ⟨S32x350, .f32⟩
  | 41 => ⟨S32x350, .f32⟩
  | 42 => ⟨S1x350, .f32⟩
  | 43 => ⟨S32x350, .f32⟩
  | 44 => ⟨S32x350, .f32⟩
  | 45 => ⟨S_, .f32⟩
  | 46 => ⟨S32x350, .f32⟩
  | 47 => ⟨S32x350, .i1⟩
  | 48 => ⟨S_, .f32⟩
  | 49 => ⟨S32x350, .f32⟩
  | 50 => ⟨S32x350, .i1⟩
  | 51 => ⟨S_, .f32⟩
  | 52 => ⟨S_, .f32⟩
  | 53 => ⟨S32x350, .f32⟩
  | 54 => ⟨S32x350, .f32⟩
  | 55 => ⟨S32x350, .f32⟩
  | 56 => ⟨S_, .f32⟩
  | 57 => ⟨S32x350, .f32⟩
  | 58 => ⟨S32x350, .f32⟩
  | 59 => ⟨S32x350, .f32⟩
  | 60 => ⟨S32x350, .f32⟩
  | 61 => ⟨S1x350, .f32⟩
  | 62 => ⟨S32x350, .f32⟩
  | 63 => ⟨S32x350, .f32⟩
  | 64 => ⟨S_, .f32⟩
  | 65 => ⟨S32x350, .f32⟩
  | 66 => ⟨S32x350, .i1⟩
  | 67 => ⟨S_, .f32⟩
  | 68 => ⟨S32x350, .f32⟩
  | 69 => ⟨S32x350, .i1⟩
  | 70 => ⟨S_, .f32⟩
  | 71 => ⟨S_, .f32⟩
  | 72 => ⟨S32x350, .f32⟩
  | 73 => ⟨S32x350, .f32⟩
  | 74 => ⟨S32x350, .f32⟩
  | 75 => ⟨S_, .f32⟩
  | 76 => ⟨S32x350, .f32⟩
  | 77 => ⟨S32x350, .f32⟩
  | 78 => ⟨S32x350, .f32⟩
  | 79 => ⟨S32x50, .f32⟩
  | 80 => ⟨S1x50, .f32⟩
  | 81 => ⟨S32x50, .f32⟩
  | 82 => ⟨S32x50, .f32⟩
  | 83 => ⟨S32x100, .f32⟩
  | 84 => ⟨S32x1, .f32⟩
  | 85 => ⟨S1x1, .f32⟩
  | 86 => ⟨S32x1, .f32⟩
  | 87 => ⟨S32x1, .f32⟩
  | 88 => ⟨S32, .f32⟩
  | 89 => ⟨S_, .f32⟩
  | 90 => ⟨S_, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | _ => ⟨S262144x1, .f32⟩

abbrev hbmTy (i : Nat) : BufTy := match i / 128 with
  | 0 => hbmTy0_0 i
  | 1 => hbmTy0_1 i
  | 2 => hbmTy0_2 i
  | _ => ⟨S262144x1, .f32⟩

abbrev bufTy : (tb : Table) → Fin (tcTables nBuf tb) → BufTy
  | .hbm, ⟨i, _⟩ => hbmTy i
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_9 : Ref sig .tc := ⟨.hbm, 87, rfl⟩
abbrev main_v52 : Ref sig .tc := ⟨.hbm, 88, rfl⟩
abbrev main_v53 : Ref sig .tc := ⟨.hbm, 89, rfl⟩
abbrev main_c_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_13 : Ref sig .tc := ⟨.hbm, 110, rfl⟩
abbrev main_v71 : Ref sig .tc := ⟨.hbm, 111, rfl⟩
abbrev main_v72 : Ref sig .tc := ⟨.hbm, 112, rfl⟩
abbrev main_c_14 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_16 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_17 : Ref sig .tc := ⟨.hbm, 133, rfl⟩
abbrev main_v90 : Ref sig .tc := ⟨.hbm, 134, rfl⟩
abbrev main_v91 : Ref sig .tc := ⟨.hbm, 135, rfl⟩
abbrev main_c_18 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_19 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_20 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_call1_cst : Ref sig .tc := ⟨.hbm, 158, rfl⟩
abbrev main_call1_v0 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_21 : Ref sig .tc := ⟨.hbm, 165, rfl⟩
abbrev main_v116 : Ref sig .tc := ⟨.hbm, 166, rfl⟩
abbrev main_v117 : Ref sig .tc := ⟨.hbm, 167, rfl⟩
abbrev main_c_22 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_23 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_c_24 : Ref sig .tc := ⟨.hbm, 185, rfl⟩
abbrev main_v133 : Ref sig .tc := ⟨.hbm, 186, rfl⟩
abbrev main_v134 : Ref sig .tc := ⟨.hbm, 187, rfl⟩
abbrev main_c_25 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_26 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_27 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_c_28 : Ref sig .tc := ⟨.hbm, 209, rfl⟩
abbrev main_v153 : Ref sig .tc := ⟨.hbm, 210, rfl⟩
abbrev main_v154 : Ref sig .tc := ⟨.hbm, 211, rfl⟩
abbrev main_c_29 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_30 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_31 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_c_32 : Ref sig .tc := ⟨.hbm, 233, rfl⟩
abbrev main_v173 : Ref sig .tc := ⟨.hbm, 234, rfl⟩
abbrev main_v174 : Ref sig .tc := ⟨.hbm, 235, rfl⟩
abbrev main_c_33 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_34 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_cst_35 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_call2_cst : Ref sig .tc := ⟨.hbm, 259, rfl⟩
abbrev main_call2_v0 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_call3_cst : Ref sig .tc := ⟨.hbm, 267, rfl⟩
abbrev main_call3_v0 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_call4_cst : Ref sig .tc := ⟨.hbm, 274, rfl⟩
abbrev main_call4_v0 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_call5_cst : Ref sig .tc := ⟨.hbm, 282, rfl⟩
abbrev main_call5_v0 : Ref sig .tc := ⟨.hbm, 283, rfl⟩
abbrev main_call5_v1 : Ref sig .tc := ⟨.hbm, 284, rfl⟩
abbrev main_call5_cst_0 : Ref sig .tc := ⟨.hbm, 285, rfl⟩
abbrev main_call5_v2 : Ref sig .tc := ⟨.hbm, 286, rfl⟩
abbrev main_call5_v3 : Ref sig .tc := ⟨.hbm, 287, rfl⟩
abbrev main_call5_cst_1 : Ref sig .tc := ⟨.hbm, 288, rfl⟩
abbrev main_call5_call0_v0 : Ref sig .tc := ⟨.hbm, 289, rfl⟩
abbrev main_call5_call0_v1 : Ref sig .tc := ⟨.hbm, 290, rfl⟩
abbrev main_call5_v4 : Ref sig .tc := ⟨.hbm, 291, rfl⟩
abbrev main_call5_v5 : Ref sig .tc := ⟨.hbm, 292, rfl⟩
abbrev main_call5_cst_2 : Ref sig .tc := ⟨.hbm, 293, rfl⟩
abbrev main_call5_v6 : Ref sig .tc := ⟨.hbm, 294, rfl⟩
abbrev main_call5_v7 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_call6_cst : Ref sig .tc := ⟨.hbm, 301, rfl⟩
abbrev main_call6_v0 : Ref sig .tc := ⟨.hbm, 302, rfl⟩
abbrev main_call6_v1 : Ref sig .tc := ⟨.hbm, 303, rfl⟩
abbrev main_call6_cst_0 : Ref sig .tc := ⟨.hbm, 304, rfl⟩
abbrev main_call6_v2 : Ref sig .tc := ⟨.hbm, 305, rfl⟩
abbrev main_call6_v3 : Ref sig .tc := ⟨.hbm, 306, rfl⟩
abbrev main_call6_cst_1 : Ref sig .tc := ⟨.hbm, 307, rfl⟩
abbrev main_call6_call0_v0 : Ref sig .tc := ⟨.hbm, 308, rfl⟩
abbrev main_call6_call0_v1 : Ref sig .tc := ⟨.hbm, 309, rfl⟩
abbrev main_call6_v4 : Ref sig .tc := ⟨.hbm, 310, rfl⟩
abbrev main_call6_v5 : Ref sig .tc := ⟨.hbm, 311, rfl⟩
abbrev main_call6_cst_2 : Ref sig .tc := ⟨.hbm, 312, rfl⟩
abbrev main_call6_v6 : Ref sig .tc := ⟨.hbm, 313, rfl⟩
abbrev main_call6_v7 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_call7_cst : Ref sig .tc := ⟨.hbm, 320, rfl⟩
abbrev main_call7_v0 : Ref sig .tc := ⟨.hbm, 321, rfl⟩
abbrev main_call7_v1 : Ref sig .tc := ⟨.hbm, 322, rfl⟩
abbrev main_call7_cst_0 : Ref sig .tc := ⟨.hbm, 323, rfl⟩
abbrev main_call7_v2 : Ref sig .tc := ⟨.hbm, 324, rfl⟩
abbrev main_call7_v3 : Ref sig .tc := ⟨.hbm, 325, rfl⟩
abbrev main_call7_cst_1 : Ref sig .tc := ⟨.hbm, 326, rfl⟩
abbrev main_call7_call0_v0 : Ref sig .tc := ⟨.hbm, 327, rfl⟩
abbrev main_call7_call0_v1 : Ref sig .tc := ⟨.hbm, 328, rfl⟩
abbrev main_call7_v4 : Ref sig .tc := ⟨.hbm, 329, rfl⟩
abbrev main_call7_v5 : Ref sig .tc := ⟨.hbm, 330, rfl⟩
abbrev main_call7_cst_2 : Ref sig .tc := ⟨.hbm, 331, rfl⟩
abbrev main_call7_v6 : Ref sig .tc := ⟨.hbm, 332, rfl⟩
abbrev main_call7_v7 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_cst_36 : Ref sig .tc := ⟨.hbm, 345, rfl⟩
abbrev main_cst_37 : Ref sig .tc := ⟨.hbm, 346, rfl⟩
abbrev main_call8_v0 : Ref sig .tc := ⟨.hbm, 347, rfl⟩
abbrev main_call8_v1 : Ref sig .tc := ⟨.hbm, 348, rfl⟩
abbrev main_call8_v2 : Ref sig .tc := ⟨.hbm, 349, rfl⟩
abbrev main_call8_v3 : Ref sig .tc := ⟨.hbm, 350, rfl⟩
abbrev main_call8_v4 : Ref sig .tc := ⟨.hbm, 351, rfl⟩
abbrev main_v233 : Ref sig .tc := ⟨.hbm, 352, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S262144 : S_.BroadcastsInDim S262144 (![] : Fin 0 → Fin S262144.rank)
  bcast_S8388608_S8388608x1_0 : S8388608.BroadcastsInDim S8388608x1 (![0] : Fin 1 → Fin S8388608x1.rank)
  bcast_S_S8388608 : S_.BroadcastsInDim S8388608 (![] : Fin 0 → Fin S8388608.rank)
  slices_S5x1x8_S1x1x8_0_0_0 : S5x1x8.Slices ![0, 0, 0] S1x1x8
  shapeCasts_S1x1x8_S1x8 : S1x1x8.ShapeCasts S1x8
  bcast_S_S262144x1 : S_.BroadcastsInDim S262144x1 (![] : Fin 0 → Fin S262144x1.rank)
  slices_S5x1x8_S1x1x8_1_0_0 : S5x1x8.Slices ![1, 0, 0] S1x1x8
  slices_S5x1x8_S1x1x8_2_0_0 : S5x1x8.Slices ![2, 0, 0] S1x1x8
  slices_S5x1x8_S1x1x8_3_0_0 : S5x1x8.Slices ![3, 0, 0] S1x1x8
  slices_S5x1x8_S1x1x8_4_0_0 : S5x1x8.Slices ![4, 0, 0] S1x1x8
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  bcast_S_S262144x8 : S_.BroadcastsInDim S262144x8 (![] : Fin 0 → Fin S262144x8.rank)
  slices_S5x8x8_S1x8x8_0_0_0 : S5x8x8.Slices ![0, 0, 0] S1x8x8
  shapeCasts_S1x8x8_S8x8 : S1x8x8.ShapeCasts S8x8
  bcast_S8388608x1_S8388608x8_0_1 : S8388608x1.BroadcastsInDim S8388608x8 (![0, 1] : Fin 2 → Fin S8388608x8.rank)
  slices_S5x8x8_S1x8x8_1_0_0 : S5x8x8.Slices ![1, 0, 0] S1x8x8
  slices_S5x8x8_S1x8x8_2_0_0 : S5x8x8.Slices ![2, 0, 0] S1x8x8
  slices_S5x8x8_S1x8x8_3_0_0 : S5x8x8.Slices ![3, 0, 0] S1x8x8
  slices_S5x8x8_S1x8x8_4_0_0 : S5x8x8.Slices ![4, 0, 0] S1x8x8
  shapeCasts_S262144x8_S32x65536 : S262144x8.ShapeCasts S32x65536
  bcast_S1000_S1x1000_1 : S1000.BroadcastsInDim S1x1000 (![1] : Fin 1 → Fin S1x1000.rank)
  bcast_S1x1000_S32x1000_0_1 : S1x1000.BroadcastsInDim S32x1000 (![0, 1] : Fin 2 → Fin S32x1000.rank)
  bcast_S_S32x1000 : S_.BroadcastsInDim S32x1000 (![] : Fin 0 → Fin S32x1000.rank)
  bcast_S50_S1x50_1 : S50.BroadcastsInDim S1x50 (![1] : Fin 1 → Fin S1x50.rank)
  bcast_S1x50_S32x50_0_1 : S1x50.BroadcastsInDim S32x50 (![0, 1] : Fin 2 → Fin S32x50.rank)
  bcast_S_S32x50 : S_.BroadcastsInDim S32x50 (![] : Fin 0 → Fin S32x50.rank)
  shapeCasts_S262144x1_S32x8192 : S262144x1.ShapeCasts S32x8192
  bcast_S350_S1x350_1 : S350.BroadcastsInDim S1x350 (![1] : Fin 1 → Fin S1x350.rank)
  bcast_S1x350_S32x350_0_1 : S1x350.BroadcastsInDim S32x350 (![0, 1] : Fin 2 → Fin S32x350.rank)
  bcast_S_S32x350 : S_.BroadcastsInDim S32x350 (![] : Fin 0 → Fin S32x350.rank)
  concatenates_S32x50_S32x50_S32x100_d1 : Shape.Concatenates [S32x50, S32x50] S32x100 1
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  bcast_S_S32 : S_.BroadcastsInDim S32 (![] : Fin 0 → Fin S32.rank)
  scatter_S262144_S8388608x1_S8388608_n_0_0_1_wf : ScatterDims.WF S262144 S8388608x1 S8388608 [] [0] [0] 1
  gather_S262144_S8388608x1_S8388608_n_0_n_n_0_1_1_wf : GatherDims.WF S262144 S8388608x1 S8388608 [] [0] [] [0] [] 1 ![1]
  dot_S262144x1_S1x8_S262144x8_1_0_0_1_n_n_wf : DotDims.WF S262144x1 S1x8 S262144x8 [1] [0] [0] [1] [] []
  gather_S262144x1_S8388608x1_S8388608x1_1_0_n_n_0_1_11_wf : GatherDims.WF S262144x1 S8388608x1 S8388608x1 [1] [0] [] [0] [] 1 ![1, 1]
  scatter_S262144x1_S8388608x1_S8388608x1_1_0_0_1_wf : ScatterDims.WF S262144x1 S8388608x1 S8388608x1 [1] [0] [0] 1
  dot_S262144x8_S8x8_S262144x8_1_0_0_1_n_n_wf : DotDims.WF S262144x8 S8x8 S262144x8 [1] [0] [0] [1] [] []
  gather_S262144x8_S8388608x1_S8388608x8_1_0_n_n_0_1_18_wf : GatherDims.WF S262144x8 S8388608x1 S8388608x8 [1] [0] [] [0] [] 1 ![1, 8]
  scatter_S262144x8_S8388608x1_S8388608x8_1_0_0_1_wf : ScatterDims.WF S262144x8 S8388608x1 S8388608x8 [1] [0] [0] 1
  dot_S32x65536_S65536x1000_S32x1000_1_0_0_1_n_n_wf : DotDims.WF S32x65536 S65536x1000 S32x1000 [1] [0] [0] [1] [] []
  dot_S32x1000_S1000x50_S32x50_1_0_0_1_n_n_wf : DotDims.WF S32x1000 S1000x50 S32x50 [1] [0] [0] [1] [] []
  dot_S32x8192_S8192x350_S32x350_1_0_0_1_n_n_wf : DotDims.WF S32x8192 S8192x350 S32x350 [1] [0] [0] [1] [] []
  dot_S32x350_S350x350_S32x350_1_0_0_1_n_n_wf : DotDims.WF S32x350 S350x350 S32x350 [1] [0] [0] [1] [] []
  dot_S32x350_S350x50_S32x50_1_0_0_1_n_n_wf : DotDims.WF S32x350 S350x50 S32x50 [1] [0] [0] [1] [] []
  dot_S32x100_S100x1_S32x1_1_0_0_1_n_n_wf : DotDims.WF S32x100 S100x1 S32x1 [1] [0] [0] [1] [] []

variable [Facts₀]

def scatter_S262144_S8388608x1_S8388608_n_0_0_1 : ScatterDims S262144 S8388608x1 S8388608 where
  updateWindowDims := []
  insertedWindowDims := [0]
  scatterDimsToOperandDims := [0]
  indexVectorDim := 1
  wf := scatter_S262144_S8388608x1_S8388608_n_0_0_1_wf
def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf
def dot_S262144x1_S1x8_S262144x8_1_0_0_1_n_n : DotDims S262144x1 S1x8 S262144x8 where
  lhsContracting := [1]
  rhsContracting := [0]
  lhsNonContracting := [0]
  rhsNonContracting := [1]
  lhsBatch := []
  rhsBatch := []
  wf := dot_S262144x1_S1x8_S262144x8_1_0_0_1_n_n_wf
def gather_S262144x1_S8388608x1_S8388608x1_1_0_n_n_0_1_11 : GatherDims S262144x1 S8388608x1 S8388608x1 where
  offsetDims := [1]
  collapsedSliceDims := [0]
  operandBatchingDims := []
  startIndicesBatchingDims := []
  startIndexMap := [0]
  indexVectorDim := 1
  sliceSizes := ![1, 1]
  wf := gather_S262144x1_S8388608x1_S8388608x1_1_0_n_n_0_1_11_wf
def scatter_S262144x1_S8388608x1_S8388608x1_1_0_0_1 : ScatterDims S262144x1 S8388608x1 S8388608x1 where
  updateWindowDims := [1]
  insertedWindowDims := [0]
  scatterDimsToOperandDims := [0]
  indexVectorDim := 1
  wf := scatter_S262144x1_S8388608x1_S8388608x1_1_0_0_1_wf
def dot_S262144x8_S8x8_S262144x8_1_0_0_1_n_n : DotDims S262144x8 S8x8 S262144x8 where
  lhsContracting := [1]
  rhsContracting := [0]
  lhsNonContracting := [0]
  rhsNonContracting := [1]
  lhsBatch := []
  rhsBatch := []
  wf := dot_S262144x8_S8x8_S262144x8_1_0_0_1_n_n_wf
def gather_S262144x8_S8388608x1_S8388608x8_1_0_n_n_0_1_18 : GatherDims S262144x8 S8388608x1 S8388608x8 where
  offsetDims := [1]
  collapsedSliceDims := [0]
  operandBatchingDims := []
  startIndicesBatchingDims := []
  startIndexMap := [0]
  indexVectorDim := 1
  sliceSizes := ![1, 8]
  wf := gather_S262144x8_S8388608x1_S8388608x8_1_0_n_n_0_1_18_wf
def scatter_S262144x8_S8388608x1_S8388608x8_1_0_0_1 : ScatterDims S262144x8 S8388608x1 S8388608x8 where
  updateWindowDims := [1]
  insertedWindowDims := [0]
  scatterDimsToOperandDims := [0]
  indexVectorDim := 1
  wf := scatter_S262144x8_S8388608x1_S8388608x8_1_0_0_1_wf
def dot_S32x65536_S65536x1000_S32x1000_1_0_0_1_n_n : DotDims S32x65536 S65536x1000 S32x1000 where
  lhsContracting := [1]
  rhsContracting := [0]
  lhsNonContracting := [0]
  rhsNonContracting := [1]
  lhsBatch := []
  rhsBatch := []
  wf := dot_S32x65536_S65536x1000_S32x1000_1_0_0_1_n_n_wf
def dot_S32x1000_S1000x50_S32x50_1_0_0_1_n_n : DotDims S32x1000 S1000x50 S32x50 where
  lhsContracting := [1]
  rhsContracting := [0]
  lhsNonContracting := [0]
  rhsNonContracting := [1]
  lhsBatch := []
  rhsBatch := []
  wf := dot_S32x1000_S1000x50_S32x50_1_0_0_1_n_n_wf
def dot_S32x8192_S8192x350_S32x350_1_0_0_1_n_n : DotDims S32x8192 S8192x350 S32x350 where
  lhsContracting := [1]
  rhsContracting := [0]
  lhsNonContracting := [0]
  rhsNonContracting := [1]
  lhsBatch := []
  rhsBatch := []
  wf := dot_S32x8192_S8192x350_S32x350_1_0_0_1_n_n_wf
def dot_S32x350_S350x350_S32x350_1_0_0_1_n_n : DotDims S32x350 S350x350 S32x350 where
  lhsContracting := [1]
  rhsContracting := [0]
  lhsNonContracting := [0]
  rhsNonContracting := [1]
  lhsBatch := []
  rhsBatch := []
  wf := dot_S32x350_S350x350_S32x350_1_0_0_1_n_n_wf
def dot_S32x350_S350x50_S32x50_1_0_0_1_n_n : DotDims S32x350 S350x50 S32x50 where
  lhsContracting := [1]
  rhsContracting := [0]
  lhsNonContracting := [0]
  rhsNonContracting := [1]
  lhsBatch := []
  rhsBatch := []
  wf := dot_S32x350_S350x50_S32x50_1_0_0_1_n_n_wf
def dot_S32x100_S100x1_S32x1_1_0_0_1_n_n : DotDims S32x100 S100x1 S32x1 where
  lhsContracting := [1]
  rhsContracting := [0]
  lhsNonContracting := [0]
  rhsNonContracting := [1]
  lhsBatch := []
  rhsBatch := []
  wf := dot_S32x100_S100x1_S32x1_1_0_0_1_n_n_wf

class Facts : Prop extends Facts₀ where

variable [Facts]
-- ==== Proof.KSpec.lean ====
/-
  What the fused kernel computes, as one function of the pooled features `h` ([32, 65536]) and the weights, spelt over the
  kernel body's own pure terms: the accumulator after point `n` is the body's update applied to column block `n` of the
  features, row block `n` of the first weight matrix and the accumulator before; the output block is the body's last-point
  term at the accumulator after point 31.
-/
import proofs.«141686_j65317862637683_1_alg».proof.Proof.Gen.KernelIdeal.Skeleton
import Idealize.ShloMosaic.Lib.ValueIdx

noncomputable section

namespace Cert.KernelIdeal.KSpec

open Cert.KernelIdeal Cert.KernelIdeal.Gen Idealize.ShloMosaic Idealize.ShloMosaic.ValueIdx

variable {F : FTy → Type} [FloatOps F]

/-- Columns `2048 n … 2048 n + 2047` of a [32, 65536] array, as a [32, 2048] block. -/
def colBlock (g : Vec F S32x65536 .bf16) (n : ℕ) : Vec F S32x2048 .bf16 :=
  fun y => g (ix2 ⟨(y 0).val % 32, Nat.mod_lt _ (by decide)⟩ ⟨(2048 * n + (y 1).val) % 65536, Nat.mod_lt _ (by decide)⟩)

/-- Rows `2048 n … 2048 n + 2047` of a [65536, 1000] array, as a [2048, 1000] block. -/
def rowBlock (W : Vec F S65536x1000 .f32) (n : ℕ) : Vec F S2048x1000 .f32 :=
  fun y => W (ix2 ⟨(2048 * n + (y 0).val) % 65536, Nat.mod_lt _ (by decide)⟩ ⟨(y 1).val % 1000, Nat.mod_lt _ (by decide)⟩)

/-- The accumulator after point `n`: zero, then one update per point. -/
def acc (g : Vec F S32x65536 .bf16) (W : Vec F S65536x1000 .f32) : ℕ → FVec F S32x1000 .f32
  | 0 => k0_pay2 (colBlock g 0) (rowBlock W 0) k0_pay1
  | n + 1 => k0_pay2 (colBlock g (n + 1)) (rowBlock W (n + 1)) (acc g W n)

/-- The output block the last point stores, from the arrays the region finds (in the order of the call's operands). -/
def kOut (g : Vec F S32x65536 .bf16) (W : Vec F S65536x1000 .f32) (b1 : Vec F S1x1000 .f32) (W2 : Vec F S1000x50 .bf16) (b2 : Vec F S1x50 .f32)
    (x2 : Vec F S32x8192 .bf16) (Wm1 : Vec F S8192x350 .bf16) (bm1 : Vec F S1x350 .f32) (Wm2 : Vec F S350x350 .bf16) (bm2 : Vec F S1x350 .f32)
    (Wm3 : Vec F S350x350 .bf16) (bm3 : Vec F S1x350 .f32) (Wm4 : Vec F S350x50 .bf16) (bm4 : Vec F S1x50 .f32) (Wo : Vec F S100x1 .bf16)
    (bo : Vec F S1x1 .f32) : FVec F S32x1 .f32 :=
  k0_pay3 (k0_pay6 (k0_pay4 (acc g W 31) b1 W2 b2) (k0_pay5 x2 Wm1 bm1 Wm2) bm2 Wm3 bm3 Wm4 bm4 Wo) (k0_pay7 bo)

/-- The kernel program's result as a function of the pooled features and the weights: the host's casts and reshapes before the
    call, the call, the reshape after it. -/
def kRes (h : FVec F S32x65536 .f32) (x : FVec F S262144x1 .f32) (Wg1 : FVec F S65536x1000 .f32) (bg1 : FVec F S1000 .f32)
    (Wg2 : FVec F S1000x50 .f32) (bg2 : FVec F S50 .f32) (Wm1 : FVec F S8192x350 .f32) (bm1 : FVec F S350 .f32)
    (Wm2 : FVec F S350x350 .f32) (bm2 : FVec F S350 .f32) (Wm3 : FVec F S350x350 .f32) (bm3 : FVec F S350 .f32)
    (Wm4 : FVec F S350x50 .f32) (bm4 : FVec F S50 .f32) (Wo : FVec F S100x1 .f32) (bo : FVec F S1 .f32) : FVec F S32 .f32 :=
  shapeCast S32 (kOut (truncf .bf16 h bitsLt_bf16_f32) Wg1 (shapeCast S1x1000 bg1 shapeCasts_S1000_S1x1000)
    (truncf .bf16 Wg2 bitsLt_bf16_f32) (shapeCast S1x50 bg2 shapeCasts_S50_S1x50)
    (truncf .bf16 (shapeCast S32x8192 x shapeCasts_S262144x1_S32x8192) bitsLt_bf16_f32)
    (truncf .bf16 Wm1 bitsLt_bf16_f32) (shapeCast S1x350 bm1 shapeCasts_S350_S1x350)
    (truncf .bf16 Wm2 bitsLt_bf16_f32) (shapeCast S1x350 bm2 shapeCasts_S350_S1x350)
    (truncf .bf16 Wm3 bitsLt_bf16_f32) (shapeCast S1x350 bm3 shapeCasts_S350_S1x350)
    (truncf .bf16 Wm4 bitsLt_bf16_f32) (shapeCast S1x50 bm4 shapeCasts_S50_S1x50)
    (truncf .bf16 Wo bitsLt_bf16_f32) (shapeCast S1x1 bo shapeCasts_S1_S1x1)) shapeCasts_S32x1_S32

end Cert.KernelIdeal.KSpec

end
-- ==== Proof.KAcc.lean ====
/-
  The accumulator the fused kernel carries across its 32 grid points, and the output block its last point stores, read off
  the frame's point-by-point contents: after point `n` the scratch holds the body's update folded over the blocks of
  points `0 … n`; the last point's output block is the body's closing term at that accumulator and the resident blocks.
-/
import proofs.«141686_j65317862637683_1_alg».proof.Proof.Gen.KernelIdeal.Frame
import proofs.«141686_j65317862637683_1_alg».proof.Proof.KSpec
import Idealize.ShloMosaic.Lib.Pipeline.Value

set_option maxRecDepth 16384

noncomputable section

namespace Cert.KernelIdeal.KAcc

open Cert.KernelIdeal Cert.KernelIdeal.Gen Idealize.ShloMosaic Idealize.ShloMosaic.TcCoe Idealize.SL.Sem

section Pieces
variable {F : FTy → Type} [FloatOps F]

/-- The zero offsets of a whole-block rectangle. -/
private theorem hz : (![0, 0] : Fin 2 → Nat) = fun _ => 0 := funext fun a => by fin_cases a <;> rfl

/-- A first point leaves in the scratch the update of the zero block by the point's two blocks: its reset store, read
    back, then its covering update store. -/
private theorem sA (c : Dev nD) (i : grid0.Coords) (arg1 : Memref sig .tc .vmem S32x2048 .bf16) (harg1 : arg1.IsWhole) (arg2 : Memref sig .tc .vmem S2048x1000 .f32) (harg2 : arg2.IsWhole) (arg3 : Memref sig .tc .vmem S1x1000 .f32) (harg3 : arg3.IsWhole) (arg4 : Memref sig .tc .vmem S1000x50 .bf16) (harg4 : arg4.IsWhole) (arg5 : Memref sig .tc .vmem S1x50 .f32) (harg5 : arg5.IsWhole) (arg6 : Memref sig .tc .vmem S32x8192 .bf16) (harg6 : arg6.IsWhole) (arg7 : Memref sig .tc .vmem S8192x350 .bf16) (harg7 : arg7.IsWhole) (arg8 : Memref sig .tc .vmem S1x350 .f32) (harg8 : arg8.IsWhole) (arg9 : Memref sig .tc .vmem S350x350 .bf16) (harg9 : arg9.IsWhole) (arg10 : Memref sig .tc .vmem S1x350 .f32) (harg10 : arg10.IsWhole) (arg11 : Memref sig .tc .vmem S350x350 .bf16) (harg11 : arg11.IsWhole) (arg12 : Memref sig .tc .vmem S1x350 .f32) (harg12 : arg12.IsWhole) (arg13 : Memref sig .tc .vmem S350x50 .bf16) (harg13 : arg13.IsWhole) (arg14 : Memref sig .tc .vmem S1x50 .f32) (harg14 : arg14.IsWhole) (arg15 : Memref sig .tc .vmem S100x1 .bf16) (harg15 : arg15.IsWhole) (arg16 : Memref sig .tc .vmem S1x1 .f32) (harg16 : arg16.IsWhole) (arg17 : Memref sig .tc .vmem S32x1 .f32) (harg17 : arg17.IsWhole) (arg18 : Memref sig .tc .vmem S32x1000 .f32) (harg18 : arg18.IsWhole) (hc0 : cond0_0 i) (hc1 : ¬cond0_1 i) (x0 : Vec F S32x2048 .bf16) (x1 : Vec F S2048x1000 .f32) (x2 : Vec F S1x1000 .f32) (x3 : Vec F S1000x50 .bf16) (x4 : Vec F S1x50 .f32) (x5 : Vec F S32x8192 .bf16) (x6 : Vec F S8192x350 .bf16) (x7 : Vec F S1x350 .f32) (x8 : Vec F S350x350 .bf16) (x9 : Vec F S1x350 .f32) (x10 : Vec F S350x350 .bf16) (x11 : Vec F S1x350 .f32) (x12 : Vec F S350x50 .bf16) (x13 : Vec F S1x50 .f32) (x14 : Vec F S100x1 .bf16) (x15 : Vec F S1x1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 = k0_pay2 x0 x1 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15)]
  unfold kernelRun0_A
  dsimp only
  sl_unfold_words
  rw [View.canon_cons_unit_zero (S := S32x1000) hz, View.readCov_unit_zero (S := S32x1000) _ hz]
  simp only [View.readAt_eq_ld, harg1.read_unread, harg2.read_unread, harg18.read_unread,
    View.ld_unit_zero (S := S32x2048) hz, View.ld_unit_zero (S := S2048x1000) hz, View.ld_unit_zero (S := S32x1000) hz]

/-- A middle point leaves in the scratch the update, by its two blocks, of what the scratch held: one covering store. -/
private theorem sB (c : Dev nD) (i : grid0.Coords) (arg1 : Memref sig .tc .vmem S32x2048 .bf16) (harg1 : arg1.IsWhole) (arg2 : Memref sig .tc .vmem S2048x1000 .f32) (harg2 : arg2.IsWhole) (arg3 : Memref sig .tc .vmem S1x1000 .f32) (harg3 : arg3.IsWhole) (arg4 : Memref sig .tc .vmem S1000x50 .bf16) (harg4 : arg4.IsWhole) (arg5 : Memref sig .tc .vmem S1x50 .f32) (harg5 : arg5.IsWhole) (arg6 : Memref sig .tc .vmem S32x8192 .bf16) (harg6 : arg6.IsWhole) (arg7 : Memref sig .tc .vmem S8192x350 .bf16) (harg7 : arg7.IsWhole) (arg8 : Memref sig .tc .vmem S1x350 .f32) (harg8 : arg8.IsWhole) (arg9 : Memref sig .tc .vmem S350x350 .bf16) (harg9 : arg9.IsWhole) (arg10 : Memref sig .tc .vmem S1x350 .f32) (harg10 : arg10.IsWhole) (arg11 : Memref sig .tc .vmem S350x350 .bf16) (harg11 : arg11.IsWhole) (arg12 : Memref sig .tc .vmem S1x350 .f32) (harg12 : arg12.IsWhole) (arg13 : Memref sig .tc .vmem S350x50 .bf16) (harg13 : arg13.IsWhole) (arg14 : Memref sig .tc .vmem S1x50 .f32) (harg14 : arg14.IsWhole) (arg15 : Memref sig .tc .vmem S100x1 .bf16) (harg15 : arg15.IsWhole) (arg16 : Memref sig .tc .vmem S1x1 .f32) (harg16 : arg16.IsWhole) (arg17 : Memref sig .tc .vmem S32x1 .f32) (harg17 : arg17.IsWhole) (arg18 : Memref sig .tc .vmem S32x1000 .f32) (harg18 : arg18.IsWhole) (hc0 : ¬cond0_0 i) (hc1 : ¬cond0_1 i) (x0 : Vec F S32x2048 .bf16) (x1 : Vec F S2048x1000 .f32) (x2 : Vec F S1x1000 .f32) (x3 : Vec F S1000x50 .bf16) (x4 : Vec F S1x50 .f32) (x5 : Vec F S32x8192 .bf16) (x6 : Vec F S8192x350 .bf16) (x7 : Vec F S1x350 .f32) (x8 : Vec F S350x350 .bf16) (x9 : Vec F S1x350 .f32) (x10 : Vec F S350x350 .bf16) (x11 : Vec F S1x350 .f32) (x12 : Vec F S350x50 .bf16) (x13 : Vec F S1x50 .f32) (x14 : Vec F S100x1 .bf16) (x15 : Vec F S1x1 .f32) (xs0 : Vec F S32x1000 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0 = k0_pay2 x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0)]
  unfold kernelRun0_B
  dsimp only
  sl_unfold_words
  rw [View.canon_unit_zero hz]
  simp only [View.readAt_eq_ld, harg1.read_unread, harg2.read_unread, harg18.read_unread,
    View.ld_unit_zero (S := S32x2048) hz, View.ld_unit_zero (S := S2048x1000) hz, View.ld_unit_zero (S := S32x1000) hz]

/-- The last point leaves in the scratch the same update. -/
private theorem sC (c : Dev nD) (i : grid0.Coords) (arg1 : Memref sig .tc .vmem S32x2048 .bf16) (harg1 : arg1.IsWhole) (arg2 : Memref sig .tc .vmem S2048x1000 .f32) (harg2 : arg2.IsWhole) (arg3 : Memref sig .tc .vmem S1x1000 .f32) (harg3 : arg3.IsWhole) (arg4 : Memref sig .tc .vmem S1000x50 .bf16) (harg4 : arg4.IsWhole) (arg5 : Memref sig .tc .vmem S1x50 .f32) (harg5 : arg5.IsWhole) (arg6 : Memref sig .tc .vmem S32x8192 .bf16) (harg6 : arg6.IsWhole) (arg7 : Memref sig .tc .vmem S8192x350 .bf16) (harg7 : arg7.IsWhole) (arg8 : Memref sig .tc .vmem S1x350 .f32) (harg8 : arg8.IsWhole) (arg9 : Memref sig .tc .vmem S350x350 .bf16) (harg9 : arg9.IsWhole) (arg10 : Memref sig .tc .vmem S1x350 .f32) (harg10 : arg10.IsWhole) (arg11 : Memref sig .tc .vmem S350x350 .bf16) (harg11 : arg11.IsWhole) (arg12 : Memref sig .tc .vmem S1x350 .f32) (harg12 : arg12.IsWhole) (arg13 : Memref sig .tc .vmem S350x50 .bf16) (harg13 : arg13.IsWhole) (arg14 : Memref sig .tc .vmem S1x50 .f32) (harg14 : arg14.IsWhole) (arg15 : Memref sig .tc .vmem S100x1 .bf16) (harg15 : arg15.IsWhole) (arg16 : Memref sig .tc .vmem S1x1 .f32) (harg16 : arg16.IsWhole) (arg17 : Memref sig .tc .vmem S32x1 .f32) (harg17 : arg17.IsWhole) (arg18 : Memref sig .tc .vmem S32x1000 .f32) (harg18 : arg18.IsWhole) (hc0 : ¬cond0_0 i) (hc1 : cond0_1 i) (x0 : Vec F S32x2048 .bf16) (x1 : Vec F S2048x1000 .f32) (x2 : Vec F S1x1000 .f32) (x3 : Vec F S1000x50 .bf16) (x4 : Vec F S1x50 .f32) (x5 : Vec F S32x8192 .bf16) (x6 : Vec F S8192x350 .bf16) (x7 : Vec F S1x350 .f32) (x8 : Vec F S350x350 .bf16) (x9 : Vec F S1x350 .f32) (x10 : Vec F S350x350 .bf16) (x11 : Vec F S1x350 .f32) (x12 : Vec F S350x50 .bf16) (x13 : Vec F S1x50 .f32) (x14 : Vec F S100x1 .bf16) (x15 : Vec F S1x1 .f32) (xs0 : Vec F S32x1000 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0 = k0_pay2 x0 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0)]
  unfold kernelRun0_C
  dsimp only
  sl_unfold_words
  rw [View.canon_unit_zero hz]
  simp only [View.readAt_eq_ld, harg1.read_unread, harg2.read_unread, harg18.read_unread,
    View.ld_unit_zero (S := S32x2048) hz, View.ld_unit_zero (S := S2048x1000) hz, View.ld_unit_zero (S := S32x1000) hz]

/-- The last point's output block: the closing term at the updated scratch (the load after the update store reads the
    stored value back) and the resident blocks, one covering store. -/
private theorem oC (c : Dev nD) (i : grid0.Coords) (arg1 : Memref sig .tc .vmem S32x2048 .bf16) (harg1 : arg1.IsWhole) (arg2 : Memref sig .tc .vmem S2048x1000 .f32) (harg2 : arg2.IsWhole) (arg3 : Memref sig .tc .vmem S1x1000 .f32) (harg3 : arg3.IsWhole) (arg4 : Memref sig .tc .vmem S1000x50 .bf16) (harg4 : arg4.IsWhole) (arg5 : Memref sig .tc .vmem S1x50 .f32) (harg5 : arg5.IsWhole) (arg6 : Memref sig .tc .vmem S32x8192 .bf16) (harg6 : arg6.IsWhole) (arg7 : Memref sig .tc .vmem S8192x350 .bf16) (harg7 : arg7.IsWhole) (arg8 : Memref sig .tc .vmem S1x350 .f32) (harg8 : arg8.IsWhole) (arg9 : Memref sig .tc .vmem S350x350 .bf16) (harg9 : arg9.IsWhole) (arg10 : Memref sig .tc .vmem S1x350 .f32) (harg10 : arg10.IsWhole) (arg11 : Memref sig .tc .vmem S350x350 .bf16) (harg11 : arg11.IsWhole) (arg12 : Memref sig .tc .vmem S1x350 .f32) (harg12 : arg12.IsWhole) (arg13 : Memref sig .tc .vmem S350x50 .bf16) (harg13 : arg13.IsWhole) (arg14 : Memref sig .tc .vmem S1x50 .f32) (harg14 : arg14.IsWhole) (arg15 : Memref sig .tc .vmem S100x1 .bf16) (harg15 : arg15.IsWhole) (arg16 : Memref sig .tc .vmem S1x1 .f32) (harg16 : arg16.IsWhole) (arg17 : Memref sig .tc .vmem S32x1 .f32) (harg17 : arg17.IsWhole) (arg18 : Memref sig .tc .vmem S32x1000 .f32) (harg18 : arg18.IsWhole) (hc0 : ¬cond0_0 i) (hc1 : cond0_1 i) (x0 : Vec F S32x2048 .bf16) (x1 : Vec F S2048x1000 .f32) (x2 : Vec F S1x1000 .f32) (x3 : Vec F S1000x50 .bf16) (x4 : Vec F S1x50 .f32) (x5 : Vec F S32x8192 .bf16) (x6 : Vec F S8192x350 .bf16) (x7 : Vec F S1x350 .f32) (x8 : Vec F S350x350 .bf16) (x9 : Vec F S1x350 .f32) (x10 : Vec F S350x350 .bf16) (x11 : Vec F S1x350 .f32) (x12 : Vec F S350x50 .bf16) (x13 : Vec F S1x50 .f32) (x14 : Vec F S100x1 .bf16) (x15 : Vec F S1x1 .f32) (xs0 : Vec F S32x1000 .f32) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0 = k0_pay3 (k0_pay6 (k0_pay4 (k0_pay2 x0 x1 xs0) x2 x3 x4) (k0_pay5 x5 x6 x7 x8) x9 x10 x11 x12 x13 x14) (k0_pay7 x15) := by
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread,
    View.readCov_unit_zero (S := S32x1000) _ hz,
    View.ld_unit_zero (S := S32x2048) hz, View.ld_unit_zero (S := S2048x1000) hz, View.ld_unit_zero (S := S32x1000) hz, View.ld_unit_zero (S := S1x1000) hz, View.ld_unit_zero (S := S1000x50) hz, View.ld_unit_zero (S := S1x50) hz, View.ld_unit_zero (S := S32x8192) hz, View.ld_unit_zero (S := S8192x350) hz, View.ld_unit_zero (S := S1x350) hz, View.ld_unit_zero (S := S350x350) hz, View.ld_unit_zero (S := S350x50) hz, View.ld_unit_zero (S := S100x1) hz, View.ld_unit_zero (S := S1x1) hz]

end Pieces

variable (m : (ℓ : Loc nD τ sig) → Buf (Elt Ideal) ℓ)

/-- The accumulator after point `n`, over the frame's input blocks. -/
def accI (c : Dev nD) : (n : ℕ) → n < cfg0.N → FVec Ideal S32x1000 .f32
  | 0, hn => k0_pay2 (iblk m c 0 ⟨0, hn⟩) (iblk m c 1 ⟨0, hn⟩) (k0_pay1 (F := Ideal))
  | n + 1, hn => k0_pay2 (iblk m c 0 ⟨n + 1, hn⟩) (iblk m c 1 ⟨n + 1, hn⟩) (accI c n (Nat.lt_of_succ_lt hn))

private theorem accI_zero (c : Dev nD) (hn : 0 < cfg0.N) :
    accI m c 0 hn = k0_pay2 (iblk m c 0 ⟨0, hn⟩) (iblk m c 1 ⟨0, hn⟩) (k0_pay1 (F := Ideal)) := rfl

private theorem accI_succ (c : Dev nD) (n : ℕ) (hn : n + 1 < cfg0.N) :
    accI m c (n + 1) hn
      = k0_pay2 (iblk m c 0 ⟨n + 1, hn⟩) (iblk m c 1 ⟨n + 1, hn⟩) (accI m c n (Nat.lt_of_succ_lt hn)) := rfl

/-- After every point the carried scratch holds the accumulator. -/
theorem scratch_eq (c : Dev nD) (n : ℕ) (hn : n < cfg0.N) : (outsAt0 m c n hn).2 = accI m c n hn := by
  induction n with
  | zero =>
    have h0 : (⟨0, hn⟩ : Fin cfg0.N).val % 32 = 0 := Nat.zero_mod _
    have h1 : ¬(⟨0, hn⟩ : Fin cfg0.N).val % 32 = 31 := by show ¬(0 % 32 = 31); decide
    rw [outsAt0_A m c ⟨0, hn⟩ h0 h1]
    dsimp only
    exact (sA (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩)).trans
      (accI_zero m c hn).symm
  | succ n ih =>
    have hN : cfg0.N = 32 := N_0
    have hn' : n + 1 < 32 := lt_of_lt_of_eq hn hN
    have h0 : ¬(⟨n + 1, hn⟩ : Fin cfg0.N).val % 32 = 0 := by dsimp only; omega
    by_cases h1 : (⟨n + 1, hn⟩ : Fin cfg0.N).val % 32 = 31
    · rw [outsAt0_C m c ⟨n + 1, hn⟩ h0 h1]
      dsimp only
      exact (sC (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 m c ((⟨n + 1, hn⟩ : Fin cfg0.N).val - 1) (Nat.lt_of_le_of_lt (Nat.sub_le _ _) (⟨n + 1, hn⟩ : Fin cfg0.N).isLt)).2).trans
        ((congrArg (k0_pay2 (iblk m c 0 ⟨n + 1, hn⟩) (iblk m c 1 ⟨n + 1, hn⟩)) (ih (Nat.lt_of_succ_lt hn))).trans
          (accI_succ m c n hn).symm)
    · rw [outsAt0_B m c ⟨n + 1, hn⟩ h0 h1]
      dsimp only
      exact (sB (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 m c ((⟨n + 1, hn⟩ : Fin cfg0.N).val - 1) (Nat.lt_of_le_of_lt (Nat.sub_le _ _) (⟨n + 1, hn⟩ : Fin cfg0.N).isLt)).2).trans
        ((congrArg (k0_pay2 (iblk m c 0 ⟨n + 1, hn⟩) (iblk m c 1 ⟨n + 1, hn⟩)) (ih (Nat.lt_of_succ_lt hn))).trans
          (accI_succ m c n hn).symm)

/-- The last point. -/
abbrev tL : Fin cfg0.N := ⟨31, by decide⟩
theorem h31 : 31 < cfg0.N := by decide

/-- The output block the last point stores. -/
theorem out_eq (c : Dev nD) :
    (outsAt0 m c 31 h31).1
      = k0_pay3 (k0_pay6 (k0_pay4 (accI m c 31 h31) (iblk m c 2 tL) (iblk m c 3 tL) (iblk m c 4 tL))
          (k0_pay5 (iblk m c 5 tL) (iblk m c 6 tL) (iblk m c 7 tL) (iblk m c 8 tL))
          (iblk m c 9 tL) (iblk m c 10 tL) (iblk m c 11 tL) (iblk m c 12 tL) (iblk m c 13 tL) (iblk m c 14 tL))
        (k0_pay7 (iblk m c 15 tL)) := by
  have h0 : ¬(tL : Fin cfg0.N).val % 32 = 0 := by decide
  have h1 : (tL : Fin cfg0.N).val % 32 = 31 := by decide
  have h30 : 30 < cfg0.N := by decide
  have e : k0_pay2 (iblk m c 0 tL) (iblk m c 1 tL) (outsAt0 m c 30 h30).2 = accI m c 31 h31 :=
    (congrArg (k0_pay2 (iblk m c 0 tL) (iblk m c 1 tL)) (scratch_eq m c 30 h30)).trans (accI_succ m c 30 h31).symm
  rw [outsAt0_C m c tL h0 h1]
  dsimp only
  exact (oC (F := Ideal) c (grid0.coords tL) (ms0_0 tL) (hs0_0 tL) (ms0_1 tL) (hs0_1 tL) (ms0_2 tL) (hs0_2 tL) (ms0_3 tL) (hs0_3 tL) (ms0_4 tL) (hs0_4 tL) (ms0_5 tL) (hs0_5 tL) (ms0_6 tL) (hs0_6 tL) (ms0_7 tL) (hs0_7 tL) (ms0_8 tL) (hs0_8 tL) (ms0_9 tL) (hs0_9 tL) (ms0_10 tL) (hs0_10 tL) (ms0_11 tL) (hs0_11 tL) (ms0_12 tL) (hs0_12 tL) (ms0_13 tL) (hs0_13 tL) (ms0_14 tL) (hs0_14 tL) (ms0_15 tL) (hs0_15 tL) (ms0_16 tL) (hs0_16 tL) scM0_0 (Memref.isWhole_whole _) (fun h => h0 ((hcond0_0 tL).mp h)) ((hcond0_1 tL).mpr h1) (iblk m c 0 tL) (iblk m c 1 tL) (iblk m c 2 tL) (iblk m c 3 tL) (iblk m c 4 tL) (iblk m c 5 tL) (iblk m c 6 tL) (iblk m c 7 tL) (iblk m c 8 tL) (iblk m c 9 tL) (iblk m c 10 tL) (iblk m c 11 tL) (iblk m c 12 tL) (iblk m c 13 tL) (iblk m c 14 tL) (iblk m c 15 tL) (outsAt0 m c ((tL : Fin cfg0.N).val - 1) (Nat.lt_of_le_of_lt (Nat.sub_le _ _) (tL : Fin cfg0.N).isLt)).2).trans
    (congrArg (fun a => k0_pay3 (k0_pay6 (k0_pay4 a (iblk m c 2 tL) (iblk m c 3 tL) (iblk m c 4 tL))
          (k0_pay5 (iblk m c 5 tL) (iblk m c 6 tL) (iblk m c 7 tL) (iblk m c 8 tL))
          (iblk m c 9 tL) (iblk m c 10 tL) (iblk m c 11 tL) (iblk m c 12 tL) (iblk m c 13 tL) (iblk m c 14 tL))
        (k0_pay7 (iblk m c 15 tL))) e)

end Cert.KernelIdeal.KAcc

end
-- ==== Proof.KBlocks.lean ====
/-
  The arrays the fused call finds, as the host's casts and reshapes of the pooled features and the weights, and each
  window's block at a grid point read off its array: window 0 walks the columns of the features in blocks of 2048,
  window 1 the rows of the first weight matrix; every other window's block is its whole array at every point.
-/
import proofs.«141686_j65317862637683_1_alg».proof.Proof.Gen.KernelIdeal.Frame
import proofs.«141686_j65317862637683_1_alg».proof.Proof.KSpec
import Idealize.ShloMosaic.Lib.Pipeline.Value
import Idealize.ShloMosaic.Lib.StableHlo.Run

set_option maxRecDepth 16384

noncomputable section

namespace Cert.KernelIdeal.KBlocks

open Cert.KernelIdeal Cert.KernelIdeal.Gen Idealize.ShloMosaic Idealize.ShloMosaic.TcCoe Idealize.SL.Sem

variable (m : (ℓ : Loc nD τ sig) → Buf (Elt Ideal) ℓ)

/-! ## The last stretch of host operations split off -/

/-- Running one line after another is running the second from where the first ends. -/
private theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

/-- The contents before the last stretch of host operations (the casts and reshapes): after the graph convolutions. -/
private def Vpre (c : Dev nD) : Valuation τ sig (Elt Ideal) :=
  StableHlo.after (List.flatten [hostOps0, hostOps0_1, hostOps0_2, hostOps0_3, hostOps0_4, hostOps0_5]) (fun b => m (c, b))

/-- What the call finds is what the casts and reshapes leave, run from the contents after the graph convolutions. -/
private theorem V_eq (c : Dev nD) (b : Ref sig .tc) :
    V m c b = StableHlo.after hostOps0_6 (Vpre m c) (Proc.devRef .tc b) := by
  show StableHlo.after (List.flatten [hostOps0, hostOps0_1, hostOps0_2, hostOps0_3, hostOps0_4, hostOps0_5, hostOps0_6]) (fun b => m (c, b)) (Proc.devRef .tc b) = _
  have e : List.flatten [hostOps0, hostOps0_1, hostOps0_2, hostOps0_3, hostOps0_4, hostOps0_5, (hostOps0_6 : List (HloOp τ sig (Elt Ideal)))]
      = List.flatten [hostOps0, hostOps0_1, hostOps0_2, hostOps0_3, hostOps0_4, hostOps0_5] ++ hostOps0_6 := by
    simp only [List.flatten_cons, List.flatten_nil, List.append_nil, List.append_assoc]
  rw [e, after_append]; rfl

/-- The grid has 32 points. -/
private theorem t_lt (t : Fin cfg0.N) : t.val < 32 := lt_of_lt_of_eq t.isLt N_0

/-! ## The arrays -/

theorem V_v198 (c : Dev nD) : (V m c main_v198 : Vec Ideal S32x65536 .bf16) = truncf (F := Ideal) .bf16 (V m c main_v196 : Vec Ideal S32x65536 .f32) bitsLt_bf16_f32 := by
  rw [V_eq m c main_v198, V_eq m c main_v196]
  after_results <;> rfl
theorem V_v199 (c : Dev nD) : (V m c main_v199 : Vec Ideal S32x8192 .bf16) = truncf (F := Ideal) .bf16 (shapeCast S32x8192 (V m c main_arg0 : Vec Ideal S262144x1 .f32) shapeCasts_S262144x1_S32x8192) bitsLt_bf16_f32 := by
  rw [V_eq m c main_v199, V_eq m c main_arg0]
  after_results <;> rfl
theorem V_v200 (c : Dev nD) : (V m c main_v200 : Vec Ideal S1000x50 .bf16) = truncf (F := Ideal) .bf16 (V m c main_arg10 : Vec Ideal S1000x50 .f32) bitsLt_bf16_f32 := by
  rw [V_eq m c main_v200, V_eq m c main_arg10]
  after_results <;> rfl
theorem V_v201 (c : Dev nD) : (V m c main_v201 : Vec Ideal S8192x350 .bf16) = truncf (F := Ideal) .bf16 (V m c main_arg12 : Vec Ideal S8192x350 .f32) bitsLt_bf16_f32 := by
  rw [V_eq m c main_v201, V_eq m c main_arg12]
  after_results <;> rfl
theorem V_v202 (c : Dev nD) : (V m c main_v202 : Vec Ideal S350x350 .bf16) = truncf (F := Ideal) .bf16 (V m c main_arg14 : Vec Ideal S350x350 .f32) bitsLt_bf16_f32 := by
  rw [V_eq m c main_v202, V_eq m c main_arg14]
  after_results <;> rfl
theorem V_v203 (c : Dev nD) : (V m c main_v203 : Vec Ideal S350x350 .bf16) = truncf (F := Ideal) .bf16 (V m c main_arg16 : Vec Ideal S350x350 .f32) bitsLt_bf16_f32 := by
  rw [V_eq m c main_v203, V_eq m c main_arg16]
  after_results <;> rfl
theorem V_v204 (c : Dev nD) : (V m c main_v204 : Vec Ideal S350x50 .bf16) = truncf (F := Ideal) .bf16 (V m c main_arg18 : Vec Ideal S350x50 .f32) bitsLt_bf16_f32 := by
  rw [V_eq m c main_v204, V_eq m c main_arg18]
  after_results <;> rfl
theorem V_v205 (c : Dev nD) : (V m c main_v205 : Vec Ideal S100x1 .bf16) = truncf (F := Ideal) .bf16 (V m c main_arg20 : Vec Ideal S100x1 .f32) bitsLt_bf16_f32 := by
  rw [V_eq m c main_v205, V_eq m c main_arg20]
  after_results <;> rfl
theorem V_v206 (c : Dev nD) : (V m c main_v206 : Vec Ideal S1x1000 .f32) = shapeCast S1x1000 (V m c main_arg9 : Vec Ideal S1000 .f32) shapeCasts_S1000_S1x1000 := by
  rw [V_eq m c main_v206, V_eq m c main_arg9]
  after_results <;> rfl
theorem V_v207 (c : Dev nD) : (V m c main_v207 : Vec Ideal S1x50 .f32) = shapeCast S1x50 (V m c main_arg11 : Vec Ideal S50 .f32) shapeCasts_S50_S1x50 := by
  rw [V_eq m c main_v207, V_eq m c main_arg11]
  after_results <;> rfl
theorem V_v208 (c : Dev nD) : (V m c main_v208 : Vec Ideal S1x350 .f32) = shapeCast S1x350 (V m c main_arg13 : Vec Ideal S350 .f32) shapeCasts_S350_S1x350 := by
  rw [V_eq m c main_v208, V_eq m c main_arg13]
  after_results <;> rfl
theorem V_v209 (c : Dev nD) : (V m c main_v209 : Vec Ideal S1x350 .f32) = shapeCast S1x350 (V m c main_arg15 : Vec Ideal S350 .f32) shapeCasts_S350_S1x350 := by
  rw [V_eq m c main_v209, V_eq m c main_arg15]
  after_results <;> rfl
theorem V_v210 (c : Dev nD) : (V m c main_v210 : Vec Ideal S1x350 .f32) = shapeCast S1x350 (V m c main_arg17 : Vec Ideal S350 .f32) shapeCasts_S350_S1x350 := by
  rw [V_eq m c main_v210, V_eq m c main_arg17]
  after_results <;> rfl
theorem V_v211 (c : Dev nD) : (V m c main_v211 : Vec Ideal S1x50 .f32) = shapeCast S1x50 (V m c main_arg19 : Vec Ideal S50 .f32) shapeCasts_S50_S1x50 := by
  rw [V_eq m c main_v211, V_eq m c main_arg19]
  after_results <;> rfl
theorem V_v212 (c : Dev nD) : (V m c main_v212 : Vec Ideal S1x1 .f32) = shapeCast S1x1 (V m c main_arg21 : Vec Ideal S1 .f32) shapeCasts_S1_S1x1 := by
  rw [V_eq m c main_v212, V_eq m c main_arg21]
  after_results <;> rfl

/-! ## The blocks -/

theorem iblk0 (c : Dev nD) (t : Fin cfg0.N) : (iblk m c 0 t : Vec Ideal S32x2048 .bf16) = KSpec.colBlock (V m c main_v198 : Vec Ideal S32x65536 .bf16) t.val := by
  have hi : ∀ t : Fin cfg0.N, win0_0.index t (0 : Fin 2) = 0 ∧ win0_0.index t (1 : Fin 2) = t.val :=
    (by decide +kernel : ∀ t : Fin grid0.N, _)
  have ht : t.val < 32 := t_lt t
  funext y
  have h0 : (y 0).val < 32 := (y 0).isLt
  have h1 : (y 1).val < 2048 := (y 1).isLt
  unfold iblk KSpec.colBlock
  rw [View.read_apply]
  show V m c main_v198 _ = V m c main_v198 _
  congr 1
  funext a
  apply Fin.ext
  match a with
  | ⟨0, _⟩ => show win0_0.index t (0 : Fin 2) * 32 + 1 * (y 0).val = (y 0).val % 32; rw [(hi t).1]; omega
  | ⟨1, _⟩ => show win0_0.index t (1 : Fin 2) * 2048 + 1 * (y 1).val = (2048 * t.val + (y 1).val) % 65536; rw [(hi t).2]; omega
theorem iblk1 (c : Dev nD) (t : Fin cfg0.N) : (iblk m c 1 t : Vec Ideal S2048x1000 .f32) = KSpec.rowBlock (V m c main_arg8 : Vec Ideal S65536x1000 .f32) t.val := by
  have hi : ∀ t : Fin cfg0.N, win0_1.index t (0 : Fin 2) = t.val ∧ win0_1.index t (1 : Fin 2) = 0 :=
    (by decide +kernel : ∀ t : Fin grid0.N, _)
  have ht : t.val < 32 := t_lt t
  funext y
  have h0 : (y 0).val < 2048 := (y 0).isLt
  have h1 : (y 1).val < 1000 := (y 1).isLt
  unfold iblk KSpec.rowBlock
  rw [View.read_apply]
  show V m c main_arg8 _ = V m c main_arg8 _
  congr 1
  funext a
  apply Fin.ext
  match a with
  | ⟨0, _⟩ => show win0_1.index t (0 : Fin 2) * 2048 + 1 * (y 0).val = (2048 * t.val + (y 0).val) % 65536; rw [(hi t).1]; omega
  | ⟨1, _⟩ => show win0_1.index t (1 : Fin 2) * 1000 + 1 * (y 1).val = (y 1).val % 1000; rw [(hi t).2]; omega
theorem iblk2 (c : Dev nD) (t : Fin cfg0.N) : (iblk m c 2 t : Vec Ideal S1x1000 .f32) = (V m c main_v206 : Vec Ideal S1x1000 .f32) := by
  have hi : ∀ t : Fin cfg0.N, win0_2.index t (0 : Fin 2) = 0 ∧ win0_2.index t (1 : Fin 2) = 0 :=
    (by decide +kernel : ∀ t : Fin grid0.N, _)
  funext x
  unfold iblk
  rw [View.read_apply]
  show V m c main_v206 _ = V m c main_v206 x
  congr 1
  funext a
  apply Fin.ext
  match a with
  | ⟨0, _⟩ => show win0_2.index t (0 : Fin 2) * 1 + 1 * (x 0).val = (x 0).val; rw [(hi t).1]; omega
  | ⟨1, _⟩ => show win0_2.index t (1 : Fin 2) * 1000 + 1 * (x 1).val = (x 1).val; rw [(hi t).2]; omega
theorem iblk3 (c : Dev nD) (t : Fin cfg0.N) : (iblk m c 3 t : Vec Ideal S1000x50 .bf16) = (V m c main_v200 : Vec Ideal S1000x50 .bf16) := by
  have hi : ∀ t : Fin cfg0.N, win0_3.index t (0 : Fin 2) = 0 ∧ win0_3.index t (1 : Fin 2) = 0 :=
    (by decide +kernel : ∀ t : Fin grid0.N, _)
  funext x
  unfold iblk
  rw [View.read_apply]
  show V m c main_v200 _ = V m c main_v200 x
  congr 1
  funext a
  apply Fin.ext
  match a with
  | ⟨0, _⟩ => show win0_3.index t (0 : Fin 2) * 1000 + 1 * (x 0).val = (x 0).val; rw [(hi t).1]; omega
  | ⟨1, _⟩ => show win0_3.index t (1 : Fin 2) * 50 + 1 * (x 1).val = (x 1).val; rw [(hi t).2]; omega
theorem iblk4 (c : Dev nD) (t : Fin cfg0.N) : (iblk m c 4 t : Vec Ideal S1x50 .f32) = (V m c main_v207 : Vec Ideal S1x50 .f32) := by
  have hi : ∀ t : Fin cfg0.N, win0_4.index t (0 : Fin 2) = 0 ∧ win0_4.index t (1 : Fin 2) = 0 :=
    (by decide +kernel : ∀ t : Fin grid0.N, _)
  funext x
  unfold iblk
  rw [View.read_apply]
  show V m c main_v207 _ = V m c main_v207 x
  congr 1
  funext a
  apply Fin.ext
  match a with
  | ⟨0, _⟩ => show win0_4.index t (0 : Fin 2) * 1 + 1 * (x 0).val = (x 0).val; rw [(hi t).1]; omega
  | ⟨1, _⟩ => show win0_4.index t (1 : Fin 2) * 50 + 1 * (x 1).val = (x 1).val; rw [(hi t).2]; omega
theorem iblk5 (c : Dev nD) (t : Fin cfg0.N) : (iblk m c 5 t : Vec Ideal S32x8192 .bf16) = (V m c main_v199 : Vec Ideal S32x8192 .bf16) := by
  have hi : ∀ t : Fin cfg0.N, win0_5.index t (0 : Fin 2) = 0 ∧ win0_5.index t (1 : Fin 2) = 0 :=
    (by decide +kernel : ∀ t : Fin grid0.N, _)
  funext x
  unfold iblk
  rw [View.read_apply]
  show V m c main_v199 _ = V m c main_v199 x
  congr 1
  funext a
  apply Fin.ext
  match a with
  | ⟨0, _⟩ => show win0_5.index t (0 : Fin 2) * 32 + 1 * (x 0).val = (x 0).val; rw [(hi t).1]; omega
  | ⟨1, _⟩ => show win0_5.index t (1 : Fin 2) * 8192 + 1 * (x 1).val = (x 1).val; rw [(hi t).2]; omega
theorem iblk6 (c : Dev nD) (t : Fin cfg0.N) : (iblk m c 6 t : Vec Ideal S8192x350 .bf16) = (V m c main_v201 : Vec Ideal S8192x350 .bf16) := by
  have hi : ∀ t : Fin cfg0.N, win0_6.index t (0 : Fin 2) = 0 ∧ win0_6.index t (1 : Fin 2) = 0 :=
    (by decide +kernel : ∀ t : Fin grid0.N, _)
  funext x
  unfold iblk
  rw [View.read_apply]
  show V m c main_v201 _ = V m c main_v201 x
  congr 1
  funext a
  apply Fin.ext
  match a with
  | ⟨0, _⟩ => show win0_6.index t (0 : Fin 2) * 8192 + 1 * (x 0).val = (x 0).val; rw [(hi t).1]; omega
  | ⟨1, _⟩ => show win0_6.index t (1 : Fin 2) * 350 + 1 * (x 1).val = (x 1).val; rw [(hi t).2]; omega
theorem iblk7 (c : Dev nD) (t : Fin cfg0.N) : (iblk m c 7 t : Vec Ideal S1x350 .f32) = (V m c main_v208 : Vec Ideal S1x350 .f32) := by
  have hi : ∀ t : Fin cfg0.N, win0_7.index t (0 : Fin 2) = 0 ∧ win0_7.index t (1 : Fin 2) = 0 :=
    (by decide +kernel : ∀ t : Fin grid0.N, _)
  funext x
  unfold iblk
  rw [View.read_apply]
  show V m c main_v208 _ = V m c main_v208 x
  congr 1
  funext a
  apply Fin.ext
  match a with
  | ⟨0, _⟩ => show win0_7.index t (0 : Fin 2) * 1 + 1 * (x 0).val = (x 0).val; rw [(hi t).1]; omega
  | ⟨1, _⟩ => show win0_7.index t (1 : Fin 2) * 350 + 1 * (x 1).val = (x 1).val; rw [(hi t).2]; omega
theorem iblk8 (c : Dev nD) (t : Fin cfg0.N) : (iblk m c 8 t : Vec Ideal S350x350 .bf16) = (V m c main_v202 : Vec Ideal S350x350 .bf16) := by
  have hi : ∀ t : Fin cfg0.N, win0_8.index t (0 : Fin 2) = 0 ∧ win0_8.index t (1 : Fin 2) = 0 :=
    (by decide +kernel : ∀ t : Fin grid0.N, _)
  funext x
  unfold iblk
  rw [View.read_apply]
  show V m c main_v202 _ = V m c main_v202 x
  congr 1
  funext a
  apply Fin.ext
  match a with
  | ⟨0, _⟩ => show win0_8.index t (0 : Fin 2) * 350 + 1 * (x 0).val = (x 0).val; rw [(hi t).1]; omega
  | ⟨1, _⟩ => show win0_8.index t (1 : Fin 2) * 350 + 1 * (x 1).val = (x 1).val; rw [(hi t).2]; omega
theorem iblk9 (c : Dev nD) (t : Fin cfg0.N) : (iblk m c 9 t : Vec Ideal S1x350 .f32) = (V m c main_v209 : Vec Ideal S1x350 .f32) := by
  have hi : ∀ t : Fin cfg0.N, win0_9.index t (0 : Fin 2) = 0 ∧ win0_9.index t (1 : Fin 2) = 0 :=
    (by decide +kernel : ∀ t : Fin grid0.N, _)
  funext x
  unfold iblk
  rw [View.read_apply]
  show V m c main_v209 _ = V m c main_v209 x
  congr 1
  funext a
  apply Fin.ext
  match a with
  | ⟨0, _⟩ => show win0_9.index t (0 : Fin 2) * 1 + 1 * (x 0).val = (x 0).val; rw [(hi t).1]; omega
  | ⟨1, _⟩ => show win0_9.index t (1 : Fin 2) * 350 + 1 * (x 1).val = (x 1).val; rw [(hi t).2]; omega
theorem iblk10 (c : Dev nD) (t : Fin cfg0.N) : (iblk m c 10 t : Vec Ideal S350x350 .bf16) = (V m c main_v203 : Vec Ideal S350x350 .bf16) := by
  have hi : ∀ t : Fin cfg0.N, win0_10.index t (0 : Fin 2) = 0 ∧ win0_10.index t (1 : Fin 2) = 0 :=
    (by decide +kernel : ∀ t : Fin grid0.N, _)
  funext x
  unfold iblk
  rw [View.read_apply]
  show V m c main_v203 _ = V m c main_v203 x
  congr 1
  funext a
  apply Fin.ext
  match a with
  | ⟨0, _⟩ => show win0_10.index t (0 : Fin 2) * 350 + 1 * (x 0).val = (x 0).val; rw [(hi t).1]; omega
  | ⟨1, _⟩ => show win0_10.index t (1 : Fin 2) * 350 + 1 * (x 1).val = (x 1).val; rw [(hi t).2]; omega
theorem iblk11 (c : Dev nD) (t : Fin cfg0.N) : (iblk m c 11 t : Vec Ideal S1x350 .f32) = (V m c main_v210 : Vec Ideal S1x350 .f32) := by
  have hi : ∀ t : Fin cfg0.N, win0_11.index t (0 : Fin 2) = 0 ∧ win0_11.index t (1 : Fin 2) = 0 :=
    (by decide +kernel : ∀ t : Fin grid0.N, _)
  funext x
  unfold iblk
  rw [View.read_apply]
  show V m c main_v210 _ = V m c main_v210 x
  congr 1
  funext a
  apply Fin.ext
  match a with
  | ⟨0, _⟩ => show win0_11.index t (0 : Fin 2) * 1 + 1 * (x 0).val = (x 0).val; rw [(hi t).1]; omega
  | ⟨1, _⟩ => show win0_11.index t (1 : Fin 2) * 350 + 1 * (x 1).val = (x 1).val; rw [(hi t).2]; omega
theorem iblk12 (c : Dev nD) (t : Fin cfg0.N) : (iblk m c 12 t : Vec Ideal S350x50 .bf16) = (V m c main_v204 : Vec Ideal S350x50 .bf16) := by
  have hi : ∀ t : Fin cfg0.N, win0_12.index t (0 : Fin 2) = 0 ∧ win0_12.index t (1 : Fin 2) = 0 :=
    (by decide +kernel : ∀ t : Fin grid0.N, _)
  funext x
  unfold iblk
  rw [View.read_apply]
  show V m c main_v204 _ = V m c main_v204 x
  congr 1
  funext a
  apply Fin.ext
  match a with
  | ⟨0, _⟩ => show win0_12.index t (0 : Fin 2) * 350 + 1 * (x 0).val = (x 0).val; rw [(hi t).1]; omega
  | ⟨1, _⟩ => show win0_12.index t (1 : Fin 2) * 50 + 1 * (x 1).val = (x 1).val; rw [(hi t).2]; omega
theorem iblk13 (c : Dev nD) (t : Fin cfg0.N) : (iblk m c 13 t : Vec Ideal S1x50 .f32) = (V m c main_v211 : Vec Ideal S1x50 .f32) := by
  have hi : ∀ t : Fin cfg0.N, win0_13.index t (0 : Fin 2) = 0 ∧ win0_13.index t (1 : Fin 2) = 0 :=
    (by decide +kernel : ∀ t : Fin grid0.N, _)
  funext x
  unfold iblk
  rw [View.read_apply]
  show V m c main_v211 _ = V m c main_v211 x
  congr 1
  funext a
  apply Fin.ext
  match a with
  | ⟨0, _⟩ => show win0_13.index t (0 : Fin 2) * 1 + 1 * (x 0).val = (x 0).val; rw [(hi t).1]; omega
  | ⟨1, _⟩ => show win0_13.index t (1 : Fin 2) * 50 + 1 * (x 1).val = (x 1).val; rw [(hi t).2]; omega
theorem iblk14 (c : Dev nD) (t : Fin cfg0.N) : (iblk m c 14 t : Vec Ideal S100x1 .bf16) = (V m c main_v205 : Vec Ideal S100x1 .bf16) := by
  have hi : ∀ t : Fin cfg0.N, win0_14.index t (0 : Fin 2) = 0 ∧ win0_14.index t (1 : Fin 2) = 0 :=
    (by decide +kernel : ∀ t : Fin grid0.N, _)
  funext x
  unfold iblk
  rw [View.read_apply]
  show V m c main_v205 _ = V m c main_v205 x
  congr 1
  funext a
  apply Fin.ext
  match a with
  | ⟨0, _⟩ => show win0_14.index t (0 : Fin 2) * 100 + 1 * (x 0).val = (x 0).val; rw [(hi t).1]; omega
  | ⟨1, _⟩ => show win0_14.index t (1 : Fin 2) * 1 + 1 * (x 1).val = (x 1).val; rw [(hi t).2]; omega
theorem iblk15 (c : Dev nD) (t : Fin cfg0.N) : (iblk m c 15 t : Vec Ideal S1x1 .f32) = (V m c main_v212 : Vec Ideal S1x1 .f32) := by
  have hi : ∀ t : Fin cfg0.N, win0_15.index t (0 : Fin 2) = 0 ∧ win0_15.index t (1 : Fin 2) = 0 :=
    (by decide +kernel : ∀ t : Fin grid0.N, _)
  funext x
  unfold iblk
  rw [View.read_apply]
  show V m c main_v212 _ = V m c main_v212 x
  congr 1
  funext a
  apply Fin.ext
  match a with
  | ⟨0, _⟩ => show win0_15.index t (0 : Fin 2) * 1 + 1 * (x 0).val = (x 0).val; rw [(hi t).1]; omega
  | ⟨1, _⟩ => show win0_15.index t (1 : Fin 2) * 1 + 1 * (x 1).val = (x 1).val; rw [(hi t).2]; omega

end Cert.KernelIdeal.KBlocks

end
-- ==== Proof.KRun.lean ====
/-
  The idealized kernel program's run with its result named: every weakly fair execution terminates with the result
  buffer at `kRes` of the pooled features (the host prefix's value of `%196`) and the weights, the arguments unchanged.
-/
import proofs.«141686_j65317862637683_1_alg».proof.Proof.KAcc
import proofs.«141686_j65317862637683_1_alg».proof.Proof.KBlocks
import Idealize.ShloMosaic.Lib.Pipeline.Value
import Idealize.ShloMosaic.Lib.StableHlo.Run
import Idealize.ShloMosaic.Lib.Tactic

set_option maxRecDepth 16384

noncomputable section

namespace Cert.KernelIdeal.KRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The frame's accumulator is the specification's, over the arrays the region finds. -/
theorem accI_eq (c : Dev nD) (n : ℕ) (hn : n < cfg0.N) :
    KAcc.accI m c n hn = KSpec.acc (V m c main_v198) (V m c main_arg8) n := by
  induction n with
  | zero =>
    rw [KAcc.accI, KSpec.acc, KBlocks.iblk0, KBlocks.iblk1]
  | succ n ih =>
    rw [KAcc.accI, KSpec.acc, ih (Nat.lt_of_succ_lt hn), KBlocks.iblk0, KBlocks.iblk1]

/-- The output window is written back at the last point only, and its one block, at offsets zero, is the whole [32, 1] array:
    what that write-back writes is the block the last point stored, read as the array. -/
private theorem flushed16 (c : Dev nD) (t : Fin cfg0.N) (hf : (cfg0.win 16).flush t = true) :
    (dats m 0 c).flushed 16 t = ((cfg0.win 16).blk t).view.read (Elt Ideal) (outsAt0 m c 31 KAcc.h31).1 := by
  have hN : cfg0.N = 32 := N_0
  have h31 : t.val = 31 := by have := (flush0_16 t).mp hf; have := t.isLt; omega
  obtain rfl : t = KAcc.tL := Fin.ext h31
  show (cfg0.win 16).cut (grid0.coords KAcc.tL) ((dats m 0 c).after 16 KAcc.tL) = _
  rw [after0_16]
  have hz' : (fun a => win0_16.index KAcc.tL a * main_v213.ty.shape.size a) = fun _ => 0 := funext fun a => by fin_cases a <;> decide
  exact (Memref.read_access_unit_zero (Elt Ideal) main_v213 hz' (fun a => by rw [congrFun hz' a]; simp) (outsAt0 m c 31 KAcc.h31).1).symm

/-- The output array after the run is the block the last point stored. -/
theorem arr16 (c : Dev nD) : (dats m 0 c).arrAt 16 cfg0.N = (outsAt0 m c 31 KAcc.h31).1 :=
  (dats m 0 c).arrAt_eq_of_cover 16 (outsAt0 m c 31 KAcc.h31).1 (flushed16 m c) fun i =>
    ⟨KAcc.tL, (flush0_16 KAcc.tL).mpr rfl, by
      show i ∈ ((View.whole main_v213).slice (win0_16.rect KAcc.tL)).set
      rw [View.set_slice_whole, Rect.mem_set_unit]
      intro a
      have h0 : (i 0 : Nat) < 32 := (i 0).isLt
      have h1 : (i 1 : Nat) < 1 := (i 1).isLt
      match a with
      | ⟨0, _⟩ => show win0_16.index KAcc.tL 0 * win0_16.size 0 ≤ (i 0 : Nat) ∧ (i 0 : Nat) < win0_16.index KAcc.tL 0 * win0_16.size 0 + win0_16.xsize (grid0.coords KAcc.tL) 0
                  rw [show win0_16.index KAcc.tL 0 * win0_16.size 0 = 0 from by decide +kernel, show win0_16.xsize (grid0.coords KAcc.tL) 0 = 32 from by decide +kernel]; omega
      | ⟨1, _⟩ => show win0_16.index KAcc.tL 1 * win0_16.size 1 ≤ (i 1 : Nat) ∧ (i 1 : Nat) < win0_16.index KAcc.tL 1 * win0_16.size 1 + win0_16.xsize (grid0.coords KAcc.tL) 1
                  rw [show win0_16.index KAcc.tL 1 * win0_16.size 1 = 0 from by decide +kernel, show win0_16.xsize (grid0.coords KAcc.tL) 1 = 1 from by decide +kernel]; omega⟩

/-- The host's tail after the call reshapes the output array [32, 1] to [32]: the result buffer is that reshape of the block the
    last point stored, which is the body's closing term over the accumulator after point 31 and the resident blocks: the
    kernel program's result as a function of the pooled features and the weights. -/
private theorem res_eq (c : Dev nD) :
    Pipeline.afterTail₀ cfgs (dats m) 0 (V0 m) [hostOps1] c main_v214
      = KSpec.kRes (F := Ideal) (V0 m c (Proc.devRef .tc main_v196)) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold Pipeline.afterTail₀
  show StableHlo.after hostOps1 _ (Proc.devRef .tc main_v214) = _
  after_results
  have e : Pipeline.withArrays (cfgs 0).spec c (V0 m c) (fun w => (dats m 0 c).arrAt w (cfgs 0).N) (Proc.devRef .tc main_v213)
      = (outsAt0 m c 31 KAcc.h31).1 :=
    (Pipeline.withArrays_arr spec0 launch0.win.arr_inj c _ _ 16).trans (arr16 m c)
  rw [e]
  show shapeCast S32 (outsAt0 m c 31 KAcc.h31).1 shapeCasts_S32x1_S32 = _
  unfold KSpec.kRes KSpec.kOut
  rw [KAcc.out_eq, accI_eq, KBlocks.iblk2, KBlocks.iblk3, KBlocks.iblk4, KBlocks.iblk5, KBlocks.iblk6, KBlocks.iblk7,
    KBlocks.iblk8, KBlocks.iblk9, KBlocks.iblk10, KBlocks.iblk11, KBlocks.iblk12, KBlocks.iblk13, KBlocks.iblk14, KBlocks.iblk15,
    KBlocks.V_v198, KBlocks.V_v199, KBlocks.V_v200, KBlocks.V_v201, KBlocks.V_v202, KBlocks.V_v203, KBlocks.V_v204, KBlocks.V_v205,
    KBlocks.V_v206, KBlocks.V_v207, KBlocks.V_v208, KBlocks.V_v209, KBlocks.V_v210, KBlocks.V_v211, KBlocks.V_v212,
    V_main_arg0, V_main_arg8, V_main_arg9, V_main_arg10, V_main_arg11, V_main_arg12, V_main_arg13, V_main_arg14, V_main_arg15,
    V_main_arg16, V_main_arg17, V_main_arg18, V_main_arg19, V_main_arg20, V_main_arg21]

set_option maxHeartbeats 1320000 in
/-- Every weakly fair execution of the kernel program terminates with the result buffer at `kRes` of the pooled features and the
    weights, and the arguments as launched: the result is read off the host's tail after the region, each argument off the
    frame run's post (an array no window stages is untouched by the region and by the host operations around it; the staged
    first weight matrix is an input the region never writes). -/
theorem run : θ_run defs (onTc (τ := τ) (main (F := Ideal))) ⟨m, fun _ => 0, ρ⟩ fun r => ∀ c : Dev nD,
      r.2.mem ((c.tc : Thread nD τ).loc main_v214)
        = KSpec.kRes (F := Ideal) (V0 m c (Proc.devRef .tc main_v196)) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c =>
    ⟨((h c).2 main_v214 (Pipeline.mem_restRefs_of main_v214 (by decide) (by decide))).trans (res_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 1).trans (((dats m 0 c).arrAt_in 1 rfl _).trans ((A_eq m c 1).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c)⟩)
    (run_main m ρ)

end Cert.KernelIdeal.KRun

end
-- ==== Proof.RefSpec.lean ====
/-
  The dense tail of the reference as one function of the pooled features `h` ([32, 65536]) and the weights:
  two rectified dense layers on `h`, three ELU dense layers and a plain one on the raw input viewed as [32, 8192],
  the two [32, 50] results side by side, one more dense layer to [32, 1], read as a length-32 vector and
  clamped to [0, 110].  Each stage is named; the operations are spelt exactly as the reference's host program
  applies them, so that its run reads back as this term.
-/
import proofs.«141686_j65317862637683_1_alg».proof.Proof.Gen.ReferenceIdeal

noncomputable section

namespace Cert.ReferenceIdeal.RefSpec

open Cert.ReferenceIdeal Cert.ReferenceIdeal.Gen Idealize.ShloMosaic

variable {F : FTy → Type} [FloatOps F]

/-- ELU as jax spells it: `v` where `v > 0`, else `1 · expm1 (v')` with `v'` the value `v` masked to `0` where `v > 0`. -/
def elu (v : FVec F S32x350 .f32) : FVec F S32x350 .f32 :=
  select (cmpf .ogt v (broadcastInDim S32x350 ![] bcast_S_S32x350 (constant S_ .f32 0x00000000#32))) v
    (mulf (broadcastInDim S32x350 ![] bcast_S_S32x350 (constant S_ .f32 0x3F800000#32))
      (Host.expm1 (select (cmpf .ogt v (broadcastInDim S32x350 ![] bcast_S_S32x350 (constant S_ .f32 0x00000000#32)))
        (broadcastInDim S32x350 ![] bcast_S_S32x350 (id (constant S_ .f32 0x00000000#32))) v)))

/-- `relu (h · Wg1 + bg1)`, [32, 1000]. -/
def g1 (h : FVec F S32x65536 .f32) (Wg1 : FVec F S65536x1000 .f32) (bg1 : FVec F S1000 .f32) : FVec F S32x1000 .f32 :=
  maximumf (addf (Host.dotGeneral dot_S32x65536_S65536x1000_S32x1000_1_0_0_1_n_n none h Wg1)
      (broadcastInDim S32x1000 ![0, 1] bcast_S1x1000_S32x1000_0_1 (broadcastInDim S1x1000 ![1] bcast_S1000_S1x1000_1 bg1)))
    (broadcastInDim S32x1000 ![] bcast_S_S32x1000 (constant S_ .f32 0x00000000#32))

/-- `relu (g · Wg2 + bg2)`, [32, 50]. -/
def g2 (g : FVec F S32x1000 .f32) (Wg2 : FVec F S1000x50 .f32) (bg2 : FVec F S50 .f32) : FVec F S32x50 .f32 :=
  maximumf (addf (Host.dotGeneral dot_S32x1000_S1000x50_S32x50_1_0_0_1_n_n none g Wg2)
      (broadcastInDim S32x50 ![0, 1] bcast_S1x50_S32x50_0_1 (broadcastInDim S1x50 ![1] bcast_S50_S1x50_1 bg2)))
    (broadcastInDim S32x50 ![] bcast_S_S32x50 (constant S_ .f32 0x00000000#32))

/-- `elu (x · Wm1 + bm1)` on the raw input viewed as [32, 8192]. -/
def m1 (x : FVec F S262144x1 .f32) (Wm1 : FVec F S8192x350 .f32) (bm1 : FVec F S350 .f32) : FVec F S32x350 .f32 :=
  elu (addf (Host.dotGeneral dot_S32x8192_S8192x350_S32x350_1_0_0_1_n_n none (shapeCast S32x8192 x shapeCasts_S262144x1_S32x8192) Wm1)
    (broadcastInDim S32x350 ![0, 1] bcast_S1x350_S32x350_0_1 (broadcastInDim S1x350 ![1] bcast_S350_S1x350_1 bm1)))

/-- `elu (m · W + b)`, [32, 350] to [32, 350]. -/
def mm (m : FVec F S32x350 .f32) (W : FVec F S350x350 .f32) (b : FVec F S350 .f32) : FVec F S32x350 .f32 :=
  elu (addf (Host.dotGeneral dot_S32x350_S350x350_S32x350_1_0_0_1_n_n none m W)
    (broadcastInDim S32x350 ![0, 1] bcast_S1x350_S32x350_0_1 (broadcastInDim S1x350 ![1] bcast_S350_S1x350_1 b)))

/-- `m · Wm4 + bm4`, [32, 50]. -/
def m4 (m : FVec F S32x350 .f32) (Wm4 : FVec F S350x50 .f32) (bm4 : FVec F S50 .f32) : FVec F S32x50 .f32 :=
  addf (Host.dotGeneral dot_S32x350_S350x50_S32x50_1_0_0_1_n_n none m Wm4)
    (broadcastInDim S32x50 ![0, 1] bcast_S1x50_S32x50_0_1 (broadcastInDim S1x50 ![1] bcast_S50_S1x50_1 bm4))

/-- `[g | m] · Wo + bo`, [32, 1]. -/
def out (g : FVec F S32x50 .f32) (m : FVec F S32x50 .f32) (Wo : FVec F S100x1 .f32) (bo : FVec F S1 .f32) : FVec F S32x1 .f32 :=
  addf (Host.dotGeneral dot_S32x100_S100x1_S32x1_1_0_0_1_n_n none
      (concatenate S32x100 1 [⟨S32x50, g⟩, ⟨S32x50, m⟩] concatenates_S32x50_S32x50_S32x100_d1) Wo)
    (broadcastInDim S32x1 ![0, 1] bcast_S1x1_S32x1_0_1 (broadcastInDim S1x1 ![1] bcast_S1_S1x1_1 bo))

/-- The clamp to [0, 110] of a length-32 vector: `min 110 (max 0 v)`. -/
def clip (v : FVec F S32 .f32) : FVec F S32 .f32 :=
  minimumf (broadcastInDim S32 ![] bcast_S_S32 (id (constant S_ .f32 0x42DC0000#32)))
    (maximumf (broadcastInDim S32 ![] bcast_S_S32 (id (constant S_ .f32 0x00000000#32))) v)

/-- The reference's result as a function of the pooled features and the weights. -/
def refTail (h : FVec F S32x65536 .f32) (x : FVec F S262144x1 .f32) (Wg1 : FVec F S65536x1000 .f32) (bg1 : FVec F S1000 .f32)
    (Wg2 : FVec F S1000x50 .f32) (bg2 : FVec F S50 .f32) (Wm1 : FVec F S8192x350 .f32) (bm1 : FVec F S350 .f32)
    (Wm2 : FVec F S350x350 .f32) (bm2 : FVec F S350 .f32) (Wm3 : FVec F S350x350 .f32) (bm3 : FVec F S350 .f32)
    (Wm4 : FVec F S350x50 .f32) (bm4 : FVec F S50 .f32) (Wo : FVec F S100x1 .f32) (bo : FVec F S1 .f32) : FVec F S32 .f32 :=
  clip (shapeCast S32 (out (g2 (g1 h Wg1 bg1) Wg2 bg2) (m4 (mm (mm (m1 x Wm1 bm1) Wm2 bm2) Wm3 bm3) Wm4 bm4) Wo bo) shapeCasts_S32x1_S32)

end Cert.ReferenceIdeal.RefSpec

end
-- ==== Proof.RefOps.lean ====
/-
  The reference's host program as a list of its operations, in order: the graph convolutions (the shared prefix, up
  to the pooled features `%196`) and the dense tail; that @main is that list run in sequence; and its run.
-/
import proofs.«141686_j65317862637683_1_alg».proof.Proof.Gen.ReferenceIdeal
import proofs.«141686_j65317862637683_1_alg».proof.Proof.RefSpec
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The graph convolutions: the operations up to the pooled features -/

abbrev pre0 : List (HloOp τ sig (Elt F)) :=
  [ StableHlo.unary main_arg1 main_v0 ((extractStridedSlice S1x8388608 ![0, 0] · slices_S2x8388608_S1x8388608_0_0) : (⟨S2x8388608, .i32⟩ : BufTy).Contents (Elt F) → (⟨S1x8388608, .i32⟩ : BufTy).Contents (Elt F)),
    StableHlo.reshape main_v0 main_v1 rfl shapeCasts_S1x8388608_S8388608,
    StableHlo.unary main_arg1 main_v2 ((extractStridedSlice S1x8388608 ![1, 0] · slices_S2x8388608_S1x8388608_1_0) : (⟨S2x8388608, .i32⟩ : BufTy).Contents (Elt F) → (⟨S1x8388608, .i32⟩ : BufTy).Contents (Elt F)),
    StableHlo.reshape main_v2 main_v3 rfl shapeCasts_S1x8388608_S8388608,
    StableHlo.binary main_v1 main_v3 main_v4 (cmpi .ne : (⟨S8388608, .i32⟩ : BufTy).Contents (Elt F) → (⟨S8388608, .i32⟩ : BufTy).Contents (Elt F) → (⟨S8388608, .i1⟩ : BufTy).Contents (Elt F)),
    StableHlo.unary main_v4 main_v5 (uitofp .f32 : (⟨S8388608, .i1⟩ : BufTy).Contents (Elt F) → (⟨S8388608, .f32⟩ : BufTy).Contents (Elt F)),
    StableHlo.nullary main_cst (constant S_ .f32 0x00000000#32),
    StableHlo.unary main_cst main_v6 (broadcastInDim S262144 ![] bcast_S_S262144 : (⟨S_, .f32⟩ : BufTy).Contents (Elt F) → (⟨S262144, .f32⟩ : BufTy).Contents (Elt F)),
    StableHlo.unary main_v1 main_v7 (broadcastInDim S8388608x1 ![0] bcast_S8388608_S8388608x1_0 : (⟨S8388608, .i32⟩ : BufTy).Contents (Elt F) → (⟨S8388608x1, .i32⟩ : BufTy).Contents (Elt F)),
    StableHlo.ternary main_v6 main_v7 main_v5 main_v8 ((fun x i u => Host.scatterAdd scatter_S262144_S8388608x1_S8388608_n_0_0_1 x i u) : (⟨S262144, .f32⟩ : BufTy).Contents (Elt F) → (⟨S8388608x1, .i32⟩ : BufTy).Contents (Elt F) → (⟨S8388608, .f32⟩ : BufTy).Contents (Elt F) → (⟨S262144, .f32⟩ : BufTy).Contents (Elt F)),
    StableHlo.nullary main_cst_0 (constant S_ .f32 0x00000000#32),
    StableHlo.unary main_cst_0 main_v9 (broadcastInDim S262144 ![] bcast_S_S262144 : (⟨S_, .f32⟩ : BufTy).Contents (Elt F) → (⟨S262144, .f32⟩ : BufTy).Contents (Elt F)),
    StableHlo.binary main_v8 main_v9 main_v10 (cmpf .ogt : (⟨S262144, .f32⟩ : BufTy).Contents (Elt F) → (⟨S262144, .f32⟩ : BufTy).Contents (Elt F) → (⟨S262144, .i1⟩ : BufTy).Contents (Elt F)),
    StableHlo.nullary main_cst_1 (constant S_ .f32 0x3F800000#32),
    StableHlo.unary main_cst_1 main_v11 (broadcastInDim S262144 ![] bcast_S_S262144 : (⟨S_, .f32⟩ : BufTy).Contents (Elt F) → (⟨S262144, .f32⟩ : BufTy).Contents (Elt F)),
    StableHlo.binary main_v8 main_v11 main_v12 (maximumf : (⟨S262144, .f32⟩ : BufTy).Contents (Elt F) → (⟨S262144, .f32⟩ : BufTy).Contents (Elt F) → (⟨S262144, .f32⟩ : BufTy).Contents (Elt F)),
    StableHlo.unary main_v12 main_v13 (Host.rsqrt : (⟨S262144, .f32⟩ : BufTy).Contents (Elt F) → (⟨S262144, .f32⟩ : BufTy).Contents (Elt F)),
    StableHlo.nullary main_cst_2 (constant S_ .f32 0x00000000#32) ]

abbrev pre1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S262144, .f32⟩) (broadcastInDim S262144 ![] bcast_S_S262144),
    StableHlo.TRef.ternary (.of main_v10 : StableHlo.TRef sig ⟨S262144, .i1⟩) (.of main_v13 : StableHlo.TRef sig ⟨S262144, .f32⟩) (.of main_call0_v1 : StableHlo.TRef sig ⟨S262144, .f32⟩) (.of main_v14 : StableHlo.TRef sig ⟨S262144, .f32⟩) select ]

set_option maxHeartbeats 40000000 in
abbrev pre2 : List (HloOp τ sig (Elt F)) :=
  ( StableHlo.nullary main_c (constantI S_ 32 0#32)
  :: StableHlo.unary main_c main_v15 (broadcastInDim S8388608 ![] bcast_S_S8388608 : (⟨S_, .i32⟩ : BufTy).Contents (Elt F) → (⟨S8388608, .i32⟩ : BufTy).Contents (Elt F))
  :: StableHlo.binary main_v1 main_v15 main_v16 (cmpi .slt : (⟨S8388608, .i32⟩ : BufTy).Contents (Elt F) → (⟨S8388608, .i32⟩ : BufTy).Contents (Elt F) → (⟨S8388608, .i1⟩ : BufTy).Contents (Elt F))
  :: StableHlo.nullary main_c_3 (constantI S_ 32 262144#32)
  :: StableHlo.unary main_c_3 main_v17 (broadcastInDim S8388608 ![] bcast_S_S8388608 : (⟨S_, .i32⟩ : BufTy).Contents (Elt F) → (⟨S8388608, .i32⟩ : BufTy).Contents (Elt F))
  :: StableHlo.binary main_v1 main_v17 main_v18 (addi : (⟨S8388608, .i32⟩ : BufTy).Contents (Elt F) → (⟨S8388608, .i32⟩ : BufTy).Contents (Elt F) → (⟨S8388608, .i32⟩ : BufTy).Contents (Elt F))
  :: StableHlo.ternary main_v16 main_v18 main_v1 main_v19 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v19 main_v20 (broadcastInDim S8388608x1 ![0] bcast_S8388608_S8388608x1_0 : (⟨S8388608, .i32⟩ : BufTy).Contents (Elt F) → (⟨S8388608x1, .i32⟩ : BufTy).Contents (Elt F))
  :: StableHlo.binary main_v14 main_v20 main_v21 ((fun x i => Host.gather gather_S262144_S8388608x1_S8388608_n_0_n_n_0_1_1 x i) : (⟨S262144, .f32⟩ : BufTy).Contents (Elt F) → (⟨S8388608x1, .i32⟩ : BufTy).Contents (Elt F) → (⟨S8388608, .f32⟩ : BufTy).Contents (Elt F))
  :: StableHlo.binary main_v5 main_v21 main_v22 (mulf : (⟨S8388608, .f32⟩ : BufTy).Contents (Elt F) → (⟨S8388608, .f32⟩ : BufTy).Contents (Elt F) → (⟨S8388608, .f32⟩ : BufTy).Contents (Elt F))
  :: StableHlo.nullary main_c_4 (constantI S_ 32 0#32)
  :: StableHlo.unary main_c_4 main_v23 (broadcastInDim S8388608 ![] bcast_S_S8388608 : (⟨S_, .i32⟩ : BufTy).Contents (Elt F) → (⟨S8388608, .i32⟩ : BufTy).Contents (Elt F))
  :: StableHlo.binary main_v3 main_v23 main_v24 (cmpi .slt : (⟨S8388608, .i32⟩ : BufTy).Contents (Elt F) → (⟨S8388608, .i32⟩ : BufTy).Contents (Elt F) → (⟨S8388608, .i1⟩ : BufTy).Contents (Elt F))
  :: StableHlo.nullary main_c_5 (constantI S_ 32 262144#32)
  :: StableHlo.unary main_c_5 main_v25 (broadcastInDim S8388608 ![] bcast_S_S8388608 : (⟨S_, .i32⟩ : BufTy).Contents (Elt F) → (⟨S8388608, .i32⟩ : BufTy).Contents (Elt F))
  :: StableHlo.binary main_v3 main_v25 main_v26 (addi : (⟨S8388608, .i32⟩ : BufTy).Contents (Elt F) → (⟨S8388608, .i32⟩ : BufTy).Contents (Elt F) → (⟨S8388608, .i32⟩ : BufTy).Contents (Elt F))
  :: StableHlo.ternary main_v24 main_v26 main_v3 main_v27 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v27 main_v28 (broadcastInDim S8388608x1 ![0] bcast_S8388608_S8388608x1_0 : (⟨S8388608, .i32⟩ : BufTy).Contents (Elt F) → (⟨S8388608x1, .i32⟩ : BufTy).Contents (Elt F))
  :: StableHlo.binary main_v14 main_v28 main_v29 ((fun x i => Host.gather gather_S262144_S8388608x1_S8388608_n_0_n_n_0_1_1 x i) : (⟨S262144, .f32⟩ : BufTy).Contents (Elt F) → (⟨S8388608x1, .i32⟩ : BufTy).Contents (Elt F) → (⟨S8388608, .f32⟩ : BufTy).Contents (Elt F))
  :: StableHlo.binary main_v22 main_v29 main_v30 (mulf : (⟨S8388608, .f32⟩ : BufTy).Contents (Elt F) → (⟨S8388608, .f32⟩ : BufTy).Contents (Elt F) → (⟨S8388608, .f32⟩ : BufTy).Contents (Elt F))
  :: StableHlo.unary main_v30 main_v31 (Host.negf : (⟨S8388608, .f32⟩ : BufTy).Contents (Elt F) → (⟨S8388608, .f32⟩ : BufTy).Contents (Elt F))
  :: StableHlo.unary main_arg4 main_v32 ((extractStridedSlice S1x1x8 ![0, 0, 0] · slices_S5x1x8_S1x1x8_0_0_0) : (⟨S5x1x8, .f32⟩ : BufTy).Contents (Elt F) → (⟨S1x1x8, .f32⟩ : BufTy).Contents (Elt F))
  :: StableHlo.reshape main_v32 main_v33 rfl shapeCasts_S1x1x8_S1x8
  :: StableHlo.binary main_arg0 main_v33 main_v34 ((fun l r => Host.dotGeneral dot_S262144x1_S1x8_S262144x8_1_0_0_1_n_n none l r) : (⟨S262144x1, .f32⟩ : BufTy).Contents (Elt F) → (⟨S1x8, .f32⟩ : BufTy).Contents (Elt F) → (⟨S262144x8, .f32⟩ : BufTy).Contents (Elt F))
  :: StableHlo.unary main_v31 main_v35 (broadcastInDim S8388608x1 ![0] bcast_S8388608_S8388608x1_0 : (⟨S8388608, .f32⟩ : BufTy).Contents (Elt F) → (⟨S8388608x1, .f32⟩ : BufTy).Contents (Elt F))
  :: StableHlo.nullary main_c_6 (constantI S_ 32 0#32)
  :: StableHlo.unary main_c_6 main_v36 (broadcastInDim S8388608 ![] bcast_S_S8388608 : (⟨S_, .i32⟩ : BufTy).Contents (Elt F) → (⟨S8388608, .i32⟩ : BufTy).Contents (Elt F))
  :: StableHlo.binary main_v1 main_v36 main_v37 (cmpi .slt : (⟨S8388608, .i32⟩ : BufTy).Contents (Elt F) → (⟨S8388608, .i32⟩ : BufTy).Contents (Elt F) → (⟨S8388608, .i1⟩ : BufTy).Contents (Elt F))
  :: StableHlo.nullary main_c_7 (constantI S_ 32 262144#32)
  :: StableHlo.unary main_c_7 main_v38 (broadcastInDim S8388608 ![] bcast_S_S8388608 : (⟨S_, .i32⟩ : BufTy).Contents (Elt F) → (⟨S8388608, .i32⟩ : BufTy).Contents (Elt F))
  :: StableHlo.binary main_v1 main_v38 main_v39 (addi : (⟨S8388608, .i32⟩ : BufTy).Contents (Elt F) → (⟨S8388608, .i32⟩ : BufTy).Contents (Elt F) → (⟨S8388608, .i32⟩ : BufTy).Contents (Elt F))
  :: StableHlo.ternary main_v37 main_v39 main_v1 main_v40 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v40 main_v41 (broadcastInDim S8388608x1 ![0] bcast_S8388608_S8388608x1_0 : (⟨S8388608, .i32⟩ : BufTy).Contents (Elt F) → (⟨S8388608x1, .i32⟩ : BufTy).Contents (Elt F))
  :: StableHlo.binary main_arg0 main_v41 main_v42 ((fun x i => Host.gather gather_S262144x1_S8388608x1_S8388608x1_1_0_n_n_0_1_11 x i) : (⟨S262144x1, .f32⟩ : BufTy).Contents (Elt F) → (⟨S8388608x1, .i32⟩ : BufTy).Contents (Elt F) → (⟨S8388608x1, .f32⟩ : BufTy).Contents (Elt F))
  :: StableHlo.binary main_v35 main_v42 main_v43 (mulf : (⟨S8388608x1, .f32⟩ : BufTy).Contents (Elt F) → (⟨S8388608x1, .f32⟩ : BufTy).Contents (Elt F) → (⟨S8388608x1, .f32⟩ : BufTy).Contents (Elt F))
  :: StableHlo.nullary main_cst_8 (constant S_ .f32 0x00000000#32)
  :: StableHlo.unary main_cst_8 main_v44 (broadcastInDim S262144x1 ![] bcast_S_S262144x1 : (⟨S_, .f32⟩ : BufTy).Contents (Elt F) → (⟨S262144x1, .f32⟩ : BufTy).Contents (Elt F))
  :: StableHlo.unary main_v3 main_v45 (broadcastInDim S8388608x1 ![0] bcast_S8388608_S8388608x1_0 : (⟨S8388608, .i32⟩ : BufTy).Contents (Elt F) → (⟨S8388608x1, .i32⟩ : BufTy).Contents (Elt F))
  :: StableHlo.ternary main_v44 main_v45 main_v43 main_v46 ((fun x i u => Host.scatterAdd scatter_S262144x1_S8388608x1_S8388608x1_1_0_0_1 x i u) : (⟨S262144x1, .f32⟩ : BufTy).Contents (Elt F) → (⟨S8388608x1, .i32⟩ : BufTy).Contents (Elt F) → (⟨S8388608x1, .f32⟩ : BufTy).Contents (Elt F) → (⟨S262144x1, .f32⟩ : BufTy).Contents (Elt F))
  :: StableHlo.unary main_arg4 main_v47 ((extractStridedSlice S1x1x8 ![1, 0, 0] · slices_S5x1x8_S1x1x8_1_0_0) : (⟨S5x1x8, .f32⟩ : BufTy).Contents (Elt F) → (⟨S1x1x8, .f32⟩ : BufTy).Contents (Elt F))
  :: StableHlo.reshape main_v47 main_v48 rfl shapeCasts_S1x1x8_S1x8
  :: StableHlo.binary main_v46 main_v48 main_v49 ((fun l r => Host.dotGeneral dot_S262144x1_S1x8_S262144x8_1_0_0_1_n_n none l r) : (⟨S262144x1, .f32⟩ : BufTy).Contents (Elt F) → (⟨S1x8, .f32⟩ : BufTy).Contents (Elt F) → (⟨S262144x8, .f32⟩ : BufTy).Contents (Elt F))
  :: StableHlo.binary main_v34 main_v49 main_v50 (addf : (⟨S262144x8, .f32⟩ : BufTy).Contents (Elt F) → (⟨S262144x8, .f32⟩ : BufTy).Contents (Elt F) → (⟨S262144x8, .f32⟩ : BufTy).Contents (Elt F))
  :: StableHlo.unary main_v31 main_v51 (broadcastInDim S8388608x1 ![0] bcast_S8388608_S8388608x1_0 : (⟨S8388608, .f32⟩ : BufTy).Contents (Elt F) → (⟨S8388608x1, .f32⟩ : BufTy).Contents (Elt F))
  :: StableHlo.nullary main_c_9 (constantI S_ 32 0#32)
  :: StableHlo.unary main_c_9 main_v52 (broadcastInDim S8388608 ![] bcast_S_S8388608 : (⟨S_, .i32⟩ : BufTy).Contents (Elt F) → (⟨S8388608, .i32⟩ : BufTy).Contents (Elt F))
  :: StableHlo.binary main_v1 main_v52 main_v53 (cmpi .slt : (⟨S8388608, .i32⟩ : BufTy).Contents (Elt F) → (⟨S8388608, .i32⟩ : BufTy).Contents (Elt F) → (⟨S8388608, .i1⟩ : BufTy).Contents (Elt F))
  :: StableHlo.nullary main_c_10 (constantI S_ 32 262144#32)
  :: StableHlo.unary main_c_10 main_v54 (broadcastInDim S8388608 ![] bcast_S_S8388608 : (⟨S_, .i32⟩ : BufTy).Contents (Elt F) → (⟨S8388608, .i32⟩ : BufTy).Contents (Elt F))
  :: StableHlo.binary main_v1 main_v54 main_v55 (addi : (⟨S8388608, .i32⟩ : BufTy).Contents (Elt F) → (⟨S8388608, .i32⟩ : BufTy).Contents (Elt F) → (⟨S8388608, .i32⟩ : BufTy).Contents (Elt F))
  :: StableHlo.ternary main_v53 main_v55 main_v1 main_v56 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v56 main_v57 (broadcastInDim S8388608x1 ![0] bcast_S8388608_S8388608x1_0 : (⟨S8388608, .i32⟩ : BufTy).Contents (Elt F) → (⟨S8388608x1, .i32⟩ : BufTy).Contents (Elt F))
  :: StableHlo.binary main_v46 main_v57 main_v58 ((fun x i => Host.gather gather_S262144x1_S8388608x1_S8388608x1_1_0_n_n_0_1_11 x i) : (⟨S262144x1, .f32⟩ : BufTy).Contents (Elt F) → (⟨S8388608x1, .i32⟩ : BufTy).Contents (Elt F) → (⟨S8388608x1, .f32⟩ : BufTy).Contents (Elt F))
  :: StableHlo.binary main_v51 main_v58 main_v59 (mulf : (⟨S8388608x1, .f32⟩ : BufTy).Contents (Elt F) → (⟨S8388608x1, .f32⟩ : BufTy).Contents (Elt F) → (⟨S8388608x1, .f32⟩ : BufTy).Contents (Elt F))
  :: StableHlo.nullary main_cst_11 (constant S_ .f32 0x00000000#32)
  :: StableHlo.unary main_cst_11 main_v60 (broadcastInDim S262144x1 ![] bcast_S_S262144x1 : (⟨S_, .f32⟩ : BufTy).Contents (Elt F) → (⟨S262144x1, .f32⟩ : BufTy).Contents (Elt F))
  :: StableHlo.unary main_v3 main_v61 (broadcastInDim S8388608x1 ![0] bcast_S8388608_S8388608x1_0 : (⟨S8388608, .i32⟩ : BufTy).Contents (Elt F) → (⟨S8388608x1, .i32⟩ : BufTy).Contents (Elt F))
  :: StableHlo.ternary main_v60 main_v61 main_v59 main_v62 ((fun x i u => Host.scatterAdd scatter_S262144x1_S8388608x1_S8388608x1_1_0_0_1 x i u) : (⟨S262144x1, .f32⟩ : BufTy).Contents (Elt F) → (⟨S8388608x1, .i32⟩ : BufTy).Contents (Elt F) → (⟨S8388608x1, .f32⟩ : BufTy).Contents (Elt F) → (⟨S262144x1, .f32⟩ : BufTy).Contents (Elt F))
  :: StableHlo.nullary main_cst_12 (constant S_ .f32 0x40000000#32)
  :: StableHlo.unary main_cst_12 main_v63 (broadcastInDim S262144x1 ![] bcast_S_S262144x1 : (⟨S_, .f32⟩ : BufTy).Contents (Elt F) → (⟨S262144x1, .f32⟩ : BufTy).Contents (Elt F))
  :: StableHlo.binary main_v63 main_v62 main_v64 (mulf : (⟨S262144x1, .f32⟩ : BufTy).Contents (Elt F) → (⟨S262144x1, .f32⟩ : BufTy).Contents (Elt F) → (⟨S262144x1, .f32⟩ : BufTy).Contents (Elt F))
  :: StableHlo.binary main_v64 main_arg0 main_v65 (subf : (⟨S262144x1, .f32⟩ : BufTy).Contents (Elt F) → (⟨S262144x1, .f32⟩ : BufTy).Contents (Elt F) → (⟨S262144x1, .f32⟩ : BufTy).Contents (Elt F))
  :: StableHlo.unary main_arg4 main_v66 ((extractStridedSlice S1x1x8 ![2, 0, 0] · slices_S5x1x8_S1x1x8_2_0_0) : (⟨S5x1x8, .f32⟩ : BufTy).Contents (Elt F) → (⟨S1x1x8, .f32⟩ : BufTy).Contents (Elt F))
  :: StableHlo.reshape main_v66 main_v67 rfl shapeCasts_S1x1x8_S1x8
  :: StableHlo.binary main_v65 main_v67 main_v68 ((fun l r => Host.dotGeneral dot_S262144x1_S1x8_S262144x8_1_0_0_1_n_n none l r) : (⟨S262144x1, .f32⟩ : BufTy).Contents (Elt F) → (⟨S1x8, .f32⟩ : BufTy).Contents (Elt F) → (⟨S262144x8, .f32⟩ : BufTy).Contents (Elt F))
  :: StableHlo.binary main_v50 main_v68 main_v69 (addf : (⟨S262144x8, .f32⟩ : BufTy).Contents (Elt F) → (⟨S262144x8, .f32⟩ : BufTy).Contents (Elt F) → (⟨S262144x8, .f32⟩ : BufTy).Contents (Elt F))
  :: StableHlo.unary main_v31 main_v70 (broadcastInDim S8388608x1 ![0] bcast_S8388608_S8388608x1_0 : (⟨S8388608, .f32⟩ : BufTy).Contents (Elt F) → (⟨S8388608x1, .f32⟩ : BufTy).Contents (Elt F))
  :: StableHlo.nullary main_c_13 (constantI S_ 32 0#32)
  :: StableHlo.unary main_c_13 main_v71 (broadcastInDim S8388608 ![] bcast_S_S8388608 : (⟨S_, .i32⟩ : BufTy).Contents (Elt F) → (⟨S8388608, .i32⟩ : BufTy).Contents (Elt F))
  :: StableHlo.binary main_v1 main_v71 main_v72 (cmpi .slt : (⟨S8388608, .i32⟩ : BufTy).Contents (Elt F) → (⟨S8388608, .i32⟩ : BufTy).Contents (Elt F) → (⟨S8388608, .i1⟩ : BufTy).Contents (Elt F))
  :: StableHlo.nullary main_c_14 (constantI S_ 32 262144#32)
  :: StableHlo.unary main_c_14 main_v73 (broadcastInDim S8388608 ![] bcast_S_S8388608 : (⟨S_, .i32⟩ : BufTy).Contents (Elt F) → (⟨S8388608, .i32⟩ : BufTy).Contents (Elt F))
  :: StableHlo.binary main_v1 main_v73 main_v74 (addi : (⟨S8388608, .i32⟩ : BufTy).Contents (Elt F) → (⟨S8388608, .i32⟩ : BufTy).Contents (Elt F) → (⟨S8388608, .i32⟩ : BufTy).Contents (Elt F))
  :: StableHlo.ternary main_v72 main_v74 main_v1 main_v75 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v75 main_v76 (broadcastInDim S8388608x1 ![0] bcast_S8388608_S8388608x1_0 : (⟨S8388608, .i32⟩ : BufTy).Contents (Elt F) → (⟨S8388608x1, .i32⟩ : BufTy).Contents (Elt F))
  :: StableHlo.binary main_v65 main_v76 main_v77 ((fun x i => Host.gather gather_S262144x1_S8388608x1_S8388608x1_1_0_n_n_0_1_11 x i) : (⟨S262144x1, .f32⟩ : BufTy).Contents (Elt F) → (⟨S8388608x1, .i32⟩ : BufTy).Contents (Elt F) → (⟨S8388608x1, .f32⟩ : BufTy).Contents (Elt F))
  :: StableHlo.binary main_v70 main_v77 main_v78 (mulf : (⟨S8388608x1, .f32⟩ : BufTy).Contents (Elt F) → (⟨S8388608x1, .f32⟩ : BufTy).Contents (Elt F) → (⟨S8388608x1, .f32⟩ : BufTy).Contents (Elt F))
  :: StableHlo.nullary main_cst_15 (constant S_ .f32 0x00000000#32)
  :: StableHlo.unary main_cst_15 main_v79 (broadcastInDim S262144x1 ![] bcast_S_S262144x1 : (⟨S_, .f32⟩ : BufTy).Contents (Elt F) → (⟨S262144x1, .f32⟩ : BufTy).Contents (Elt F))
  :: StableHlo.unary main_v3 main_v80 (broadcastInDim S8388608x1 ![0] bcast_S8388608_S8388608x1_0 : (⟨S8388608, .i32⟩ : BufTy).Contents (Elt F) → (⟨S8388608x1, .i32⟩ : BufTy).Contents (Elt F))
  :: StableHlo.ternary main_v79 main_v80 main_v78 main_v81 ((fun x i u => Host.scatterAdd scatter_S262144x1_S8388608x1_S8388608x1_1_0_0_1 x i u) : (⟨S262144x1, .f32⟩ : BufTy).Contents (Elt F) → (⟨S8388608x1, .i32⟩ : BufTy).Contents (Elt F) → (⟨S8388608x1, .f32⟩ : BufTy).Contents (Elt F) → (⟨S262144x1, .f32⟩ : BufTy).Contents (Elt F))
  :: StableHlo.nullary main_cst_16 (constant S_ .f32 0x40000000#32)
  :: StableHlo.unary main_cst_16 main_v82 (broadcastInDim S262144x1 ![] bcast_S_S262144x1 : (⟨S_, .f32⟩ : BufTy).Contents (Elt F) → (⟨S262144x1, .f32⟩ : BufTy).Contents (Elt F))
  :: StableHlo.binary main_v82 main_v81 main_v83 (mulf : (⟨S262144x1, .f32⟩ : BufTy).Contents (Elt F) → (⟨S262144x1, .f32⟩ : BufTy).Contents (Elt F) → (⟨S262144x1, .f32⟩ : BufTy).Contents (Elt F))
  :: StableHlo.binary main_v83 main_v46 main_v84 (subf : (⟨S262144x1, .f32⟩ : BufTy).Contents (Elt F) → (⟨S262144x1, .f32⟩ : BufTy).Contents (Elt F) → (⟨S262144x1, .f32⟩ : BufTy).Contents (Elt F))
  :: StableHlo.unary main_arg4 main_v85 ((extractStridedSlice S1x1x8 ![3, 0, 0] · slices_S5x1x8_S1x1x8_3_0_0) : (⟨S5x1x8, .f32⟩ : BufTy).Contents (Elt F) → (⟨S1x1x8, .f32⟩ : BufTy).Contents (Elt F))
  :: StableHlo.reshape main_v85 main_v86 rfl shapeCasts_S1x1x8_S1x8
  :: StableHlo.binary main_v84 main_v86 main_v87 ((fun l r => Host.dotGeneral dot_S262144x1_S1x8_S262144x8_1_0_0_1_n_n none l r) : (⟨S262144x1, .f32⟩ : BufTy).Contents (Elt F) → (⟨S1x8, .f32⟩ : BufTy).Contents (Elt F) → (⟨S262144x8, .f32⟩ : BufTy).Contents (Elt F))
  :: StableHlo.binary main_v69 main_v87 main_v88 (addf : (⟨S262144x8, .f32⟩ : BufTy).Contents (Elt F) → (⟨S262144x8, .f32⟩ : BufTy).Contents (Elt F) → (⟨S262144x8, .f32⟩ : BufTy).Contents (Elt F))
  :: StableHlo.unary main_v31 main_v89 (broadcastInDim S8388608x1 ![0] bcast_S8388608_S8388608x1_0 : (⟨S8388608, .f32⟩ : BufTy).Contents (Elt F) → (⟨S8388608x1, .f32⟩ : BufTy).Contents (Elt F))
  :: StableHlo.nullary main_c_17 (constantI S_ 32 0#32)
  :: StableHlo.unary main_c_17 main_v90 (broadcastInDim S8388608 ![] bcast_S_S8388608 : (⟨S_, .i32⟩ : BufTy).Contents (Elt F) → (⟨S8388608, .i32⟩ : BufTy).Contents (Elt F))
  :: StableHlo.binary main_v1 main_v90 main_v91 (cmpi .slt : (⟨S8388608, .i32⟩ : BufTy).Contents (Elt F) → (⟨S8388608, .i32⟩ : BufTy).Contents (Elt F) → (⟨S8388608, .i1⟩ : BufTy).Contents (Elt F))
  :: StableHlo.nullary main_c_18 (constantI S_ 32 262144#32)
  :: StableHlo.unary main_c_18 main_v92 (broadcastInDim S8388608 ![] bcast_S_S8388608 : (⟨S_, .i32⟩ : BufTy).Contents (Elt F) → (⟨S8388608, .i32⟩ : BufTy).Contents (Elt F))
  :: StableHlo.binary main_v1 main_v92 main_v93 (addi : (⟨S8388608, .i32⟩ : BufTy).Contents (Elt F) → (⟨S8388608, .i32⟩ : BufTy).Contents (Elt F) → (⟨S8388608, .i32⟩ : BufTy).Contents (Elt F))
  :: StableHlo.ternary main_v91 main_v93 main_v1 main_v94 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v94 main_v95 (broadcastInDim S8388608x1 ![0] bcast_S8388608_S8388608x1_0 : (⟨S8388608, .i32⟩ : BufTy).Contents (Elt F) → (⟨S8388608x1, .i32⟩ : BufTy).Contents (Elt F))
  :: StableHlo.binary main_v84 main_v95 main_v96 ((fun x i => Host.gather gather_S262144x1_S8388608x1_S8388608x1_1_0_n_n_0_1_11 x i) : (⟨S262144x1, .f32⟩ : BufTy).Contents (Elt F) → (⟨S8388608x1, .i32⟩ : BufTy).Contents (Elt F) → (⟨S8388608x1, .f32⟩ : BufTy).Contents (Elt F))
  :: StableHlo.binary main_v89 main_v96 main_v97 (mulf : (⟨S8388608x1, .f32⟩ : BufTy).Contents (Elt F) → (⟨S8388608x1, .f32⟩ : BufTy).Contents (Elt F) → (⟨S8388608x1, .f32⟩ : BufTy).Contents (Elt F))
  :: StableHlo.nullary main_cst_19 (constant S_ .f32 0x00000000#32)
  :: StableHlo.unary main_cst_19 main_v98 (broadcastInDim S262144x1 ![] bcast_S_S262144x1 : (⟨S_, .f32⟩ : BufTy).Contents (Elt F) → (⟨S262144x1, .f32⟩ : BufTy).Contents (Elt F))
  :: StableHlo.unary main_v3 main_v99 (broadcastInDim S8388608x1 ![0] bcast_S8388608_S8388608x1_0 : (⟨S8388608, .i32⟩ : BufTy).Contents (Elt F) → (⟨S8388608x1, .i32⟩ : BufTy).Contents (Elt F))
  :: StableHlo.ternary main_v98 main_v99 main_v97 main_v100 ((fun x i u => Host.scatterAdd scatter_S262144x1_S8388608x1_S8388608x1_1_0_0_1 x i u) : (⟨S262144x1, .f32⟩ : BufTy).Contents (Elt F) → (⟨S8388608x1, .i32⟩ : BufTy).Contents (Elt F) → (⟨S8388608x1, .f32⟩ : BufTy).Contents (Elt F) → (⟨S262144x1, .f32⟩ : BufTy).Contents (Elt F))
  :: StableHlo.nullary main_cst_20 (constant S_ .f32 0x40000000#32)
  :: StableHlo.unary main_cst_20 main_v101 (broadcastInDim S262144x1 ![] bcast_S_S262144x1 : (⟨S_, .f32⟩ : BufTy).Contents (Elt F) → (⟨S262144x1, .f32⟩ : BufTy).Contents (Elt F))
  :: StableHlo.binary main_v101 main_v100 main_v102 (mulf : (⟨S262144x1, .f32⟩ : BufTy).Contents (Elt F) → (⟨S262144x1, .f32⟩ : BufTy).Contents (Elt F) → (⟨S262144x1, .f32⟩ : BufTy).Contents (Elt F))
  :: StableHlo.binary main_v102 main_v65 main_v103 (subf : (⟨S262144x1, .f32⟩ : BufTy).Contents (Elt F) → (⟨S262144x1, .f32⟩ : BufTy).Contents (Elt F) → (⟨S262144x1, .f32⟩ : BufTy).Contents (Elt F))
  :: StableHlo.unary main_arg4 main_v104 ((extractStridedSlice S1x1x8 ![4, 0, 0] · slices_S5x1x8_S1x1x8_4_0_0) : (⟨S5x1x8, .f32⟩ : BufTy).Contents (Elt F) → (⟨S1x1x8, .f32⟩ : BufTy).Contents (Elt F))
  :: StableHlo.reshape main_v104 main_v105 rfl shapeCasts_S1x1x8_S1x8
  :: StableHlo.binary main_v103 main_v105 main_v106 ((fun l r => Host.dotGeneral dot_S262144x1_S1x8_S262144x8_1_0_0_1_n_n none l r) : (⟨S262144x1, .f32⟩ : BufTy).Contents (Elt F) → (⟨S1x8, .f32⟩ : BufTy).Contents (Elt F) → (⟨S262144x8, .f32⟩ : BufTy).Contents (Elt F))
  :: StableHlo.binary main_v88 main_v106 main_v107 (addf : (⟨S262144x8, .f32⟩ : BufTy).Contents (Elt F) → (⟨S262144x8, .f32⟩ : BufTy).Contents (Elt F) → (⟨S262144x8, .f32⟩ : BufTy).Contents (Elt F))
  :: StableHlo.unary main_arg5 main_v108 (broadcastInDim S1x8 ![1] bcast_S8_S1x8_1 : (⟨S8, .f32⟩ : BufTy).Contents (Elt F) → (⟨S1x8, .f32⟩ : BufTy).Contents (Elt F))
  :: StableHlo.unary main_v108 main_v109 (broadcastInDim S262144x8 ![0, 1] bcast_S1x8_S262144x8_0_1 : (⟨S1x8, .f32⟩ : BufTy).Contents (Elt F) → (⟨S262144x8, .f32⟩ : BufTy).Contents (Elt F))
  :: StableHlo.binary main_v107 main_v109 main_v110 (addf : (⟨S262144x8, .f32⟩ : BufTy).Contents (Elt F) → (⟨S262144x8, .f32⟩ : BufTy).Contents (Elt F) → (⟨S262144x8, .f32⟩ : BufTy).Contents (Elt F))
  :: [] )

abbrev pre3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S262144x8, .f32⟩) (broadcastInDim S262144x8 ![] bcast_S_S262144x8),
    StableHlo.TRef.binary (.of main_v110 : StableHlo.TRef sig ⟨S262144x8, .f32⟩) (.of main_call1_v0 : StableHlo.TRef sig ⟨S262144x8, .f32⟩) (.of main_v111 : StableHlo.TRef sig ⟨S262144x8, .f32⟩) maximumf ]

set_option maxHeartbeats 40000000 in
abbrev pre4 : List (HloOp τ sig (Elt F)) :=
  ( StableHlo.unary main_arg6 main_v112 ((extractStridedSlice S1x8x8 ![0, 0, 0] · slices_S5x8x8_S1x8x8_0_0_0) : (⟨S5x8x8, .f32⟩ : BufTy).Contents (Elt F) → (⟨S1x8x8, .f32⟩ : BufTy).Contents (Elt F))
  :: StableHlo.reshape main_v112 main_v113 rfl shapeCasts_S1x8x8_S8x8
  :: StableHlo.binary main_v111 main_v113 main_v114 ((fun l r => Host.dotGeneral dot_S262144x8_S8x8_S262144x8_1_0_0_1_n_n none l r) : (⟨S262144x8, .f32⟩ : BufTy).Contents (Elt F) → (⟨S8x8, .f32⟩ : BufTy).Contents (Elt F) → (⟨S262144x8, .f32⟩ : BufTy).Contents (Elt F))
  :: StableHlo.unary main_v31 main_v115 (broadcastInDim S8388608x1 ![0] bcast_S8388608_S8388608x1_0 : (⟨S8388608, .f32⟩ : BufTy).Contents (Elt F) → (⟨S8388608x1, .f32⟩ : BufTy).Contents (Elt F))
  :: StableHlo.nullary main_c_21 (constantI S_ 32 0#32)
  :: StableHlo.unary main_c_21 main_v116 (broadcastInDim S8388608 ![] bcast_S_S8388608 : (⟨S_, .i32⟩ : BufTy).Contents (Elt F) → (⟨S8388608, .i32⟩ : BufTy).Contents (Elt F))
  :: StableHlo.binary main_v1 main_v116 main_v117 (cmpi .slt : (⟨S8388608, .i32⟩ : BufTy).Contents (Elt F) → (⟨S8388608, .i32⟩ : BufTy).Contents (Elt F) → (⟨S8388608, .i1⟩ : BufTy).Contents (Elt F))
  :: StableHlo.nullary main_c_22 (constantI S_ 32 262144#32)
  :: StableHlo.unary main_c_22 main_v118 (broadcastInDim S8388608 ![] bcast_S_S8388608 : (⟨S_, .i32⟩ : BufTy).Contents (Elt F) → (⟨S8388608, .i32⟩ : BufTy).Contents (Elt F))
  :: StableHlo.binary main_v1 main_v118 main_v119 (addi : (⟨S8388608, .i32⟩ : BufTy).Contents (Elt F) → (⟨S8388608, .i32⟩ : BufTy).Contents (Elt F) → (⟨S8388608, .i32⟩ : BufTy).Contents (Elt F))
  :: StableHlo.ternary main_v117 main_v119 main_v1 main_v120 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v120 main_v121 (broadcastInDim S8388608x1 ![0] bcast_S8388608_S8388608x1_0 : (⟨S8388608, .i32⟩ : BufTy).Contents (Elt F) → (⟨S8388608x1, .i32⟩ : BufTy).Contents (Elt F))
  :: StableHlo.binary main_v111 main_v121 main_v122 ((fun x i => Host.gather gather_S262144x8_S8388608x1_S8388608x8_1_0_n_n_0_1_18 x i) : (⟨S262144x8, .f32⟩ : BufTy).Contents (Elt F) → (⟨S8388608x1, .i32⟩ : BufTy).Contents (Elt F) → (⟨S8388608x8, .f32⟩ : BufTy).Contents (Elt F))
  :: StableHlo.unary main_v115 main_v123 (broadcastInDim S8388608x8 ![0, 1] bcast_S8388608x1_S8388608x8_0_1 : (⟨S8388608x1, .f32⟩ : BufTy).Contents (Elt F) → (⟨S8388608x8, .f32⟩ : BufTy).Contents (Elt F))
  :: StableHlo.binary main_v123 main_v122 main_v124 (mulf : (⟨S8388608x8, .f32⟩ : BufTy).Contents (Elt F) → (⟨S8388608x8, .f32⟩ : BufTy).Contents (Elt F) → (⟨S8388608x8, .f32⟩ : BufTy).Contents (Elt F))
  :: StableHlo.nullary main_cst_23 (constant S_ .f32 0x00000000#32)
  :: StableHlo.unary main_cst_23 main_v125 (broadcastInDim S262144x8 ![] bcast_S_S262144x8 : (⟨S_, .f32⟩ : BufTy).Contents (Elt F) → (⟨S262144x8, .f32⟩ : BufTy).Contents (Elt F))
  :: StableHlo.unary main_v3 main_v126 (broadcastInDim S8388608x1 ![0] bcast_S8388608_S8388608x1_0 : (⟨S8388608, .i32⟩ : BufTy).Contents (Elt F) → (⟨S8388608x1, .i32⟩ : BufTy).Contents (Elt F))
  :: StableHlo.ternary main_v125 main_v126 main_v124 main_v127 ((fun x i u => Host.scatterAdd scatter_S262144x8_S8388608x1_S8388608x8_1_0_0_1 x i u) : (⟨S262144x8, .f32⟩ : BufTy).Contents (Elt F) → (⟨S8388608x1, .i32⟩ : BufTy).Contents (Elt F) → (⟨S8388608x8, .f32⟩ : BufTy).Contents (Elt F) → (⟨S262144x8, .f32⟩ : BufTy).Contents (Elt F))
  :: StableHlo.unary main_arg6 main_v128 ((extractStridedSlice S1x8x8 ![1, 0, 0] · slices_S5x8x8_S1x8x8_1_0_0) : (⟨S5x8x8, .f32⟩ : BufTy).Contents (Elt F) → (⟨S1x8x8, .f32⟩ : BufTy).Contents (Elt F))
  :: StableHlo.reshape main_v128 main_v129 rfl shapeCasts_S1x8x8_S8x8
  :: StableHlo.binary main_v127 main_v129 main_v130 ((fun l r => Host.dotGeneral dot_S262144x8_S8x8_S262144x8_1_0_0_1_n_n none l r) : (⟨S262144x8, .f32⟩ : BufTy).Contents (Elt F) → (⟨S8x8, .f32⟩ : BufTy).Contents (Elt F) → (⟨S262144x8, .f32⟩ : BufTy).Contents (Elt F))
  :: StableHlo.binary main_v114 main_v130 main_v131 (addf : (⟨S262144x8, .f32⟩ : BufTy).Contents (Elt F) → (⟨S262144x8, .f32⟩ : BufTy).Contents (Elt F) → (⟨S262144x8, .f32⟩ : BufTy).Contents (Elt F))
  :: StableHlo.unary main_v31 main_v132 (broadcastInDim S8388608x1 ![0] bcast_S8388608_S8388608x1_0 : (⟨S8388608, .f32⟩ : BufTy).Contents (Elt F) → (⟨S8388608x1, .f32⟩ : BufTy).Contents (Elt F))
  :: StableHlo.nullary main_c_24 (constantI S_ 32 0#32)
  :: StableHlo.unary main_c_24 main_v133 (broadcastInDim S8388608 ![] bcast_S_S8388608 : (⟨S_, .i32⟩ : BufTy).Contents (Elt F) → (⟨S8388608, .i32⟩ : BufTy).Contents (Elt F))
  :: StableHlo.binary main_v1 main_v133 main_v134 (cmpi .slt : (⟨S8388608, .i32⟩ : BufTy).Contents (Elt F) → (⟨S8388608, .i32⟩ : BufTy).Contents (Elt F) → (⟨S8388608, .i1⟩ : BufTy).Contents (Elt F))
  :: StableHlo.nullary main_c_25 (constantI S_ 32 262144#32)
  :: StableHlo.unary main_c_25 main_v135 (broadcastInDim S8388608 ![] bcast_S_S8388608 : (⟨S_, .i32⟩ : BufTy).Contents (Elt F) → (⟨S8388608, .i32⟩ : BufTy).Contents (Elt F))
  :: StableHlo.binary main_v1 main_v135 main_v136 (addi : (⟨S8388608, .i32⟩ : BufTy).Contents (Elt F) → (⟨S8388608, .i32⟩ : BufTy).Contents (Elt F) → (⟨S8388608, .i32⟩ : BufTy).Contents (Elt F))
  :: StableHlo.ternary main_v134 main_v136 main_v1 main_v137 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v137 main_v138 (broadcastInDim S8388608x1 ![0] bcast_S8388608_S8388608x1_0 : (⟨S8388608, .i32⟩ : BufTy).Contents (Elt F) → (⟨S8388608x1, .i32⟩ : BufTy).Contents (Elt F))
  :: StableHlo.binary main_v127 main_v138 main_v139 ((fun x i => Host.gather gather_S262144x8_S8388608x1_S8388608x8_1_0_n_n_0_1_18 x i) : (⟨S262144x8, .f32⟩ : BufTy).Contents (Elt F) → (⟨S8388608x1, .i32⟩ : BufTy).Contents (Elt F) → (⟨S8388608x8, .f32⟩ : BufTy).Contents (Elt F))
  :: StableHlo.unary main_v132 main_v140 (broadcastInDim S8388608x8 ![0, 1] bcast_S8388608x1_S8388608x8_0_1 : (⟨S8388608x1, .f32⟩ : BufTy).Contents (Elt F) → (⟨S8388608x8, .f32⟩ : BufTy).Contents (Elt F))
  :: StableHlo.binary main_v140 main_v139 main_v141 (mulf : (⟨S8388608x8, .f32⟩ : BufTy).Contents (Elt F) → (⟨S8388608x8, .f32⟩ : BufTy).Contents (Elt F) → (⟨S8388608x8, .f32⟩ : BufTy).Contents (Elt F))
  :: StableHlo.nullary main_cst_26 (constant S_ .f32 0x00000000#32)
  :: StableHlo.unary main_cst_26 main_v142 (broadcastInDim S262144x8 ![] bcast_S_S262144x8 : (⟨S_, .f32⟩ : BufTy).Contents (Elt F) → (⟨S262144x8, .f32⟩ : BufTy).Contents (Elt F))
  :: StableHlo.unary main_v3 main_v143 (broadcastInDim S8388608x1 ![0] bcast_S8388608_S8388608x1_0 : (⟨S8388608, .i32⟩ : BufTy).Contents (Elt F) → (⟨S8388608x1, .i32⟩ : BufTy).Contents (Elt F))
  :: StableHlo.ternary main_v142 main_v143 main_v141 main_v144 ((fun x i u => Host.scatterAdd scatter_S262144x8_S8388608x1_S8388608x8_1_0_0_1 x i u) : (⟨S262144x8, .f32⟩ : BufTy).Contents (Elt F) → (⟨S8388608x1, .i32⟩ : BufTy).Contents (Elt F) → (⟨S8388608x8, .f32⟩ : BufTy).Contents (Elt F) → (⟨S262144x8, .f32⟩ : BufTy).Contents (Elt F))
  :: StableHlo.nullary main_cst_27 (constant S_ .f32 0x40000000#32)
  :: StableHlo.unary main_cst_27 main_v145 (broadcastInDim S262144x8 ![] bcast_S_S262144x8 : (⟨S_, .f32⟩ : BufTy).Contents (Elt F) → (⟨S262144x8, .f32⟩ : BufTy).Contents (Elt F))
  :: StableHlo.binary main_v145 main_v144 main_v146 (mulf : (⟨S262144x8, .f32⟩ : BufTy).Contents (Elt F) → (⟨S262144x8, .f32⟩ : BufTy).Contents (Elt F) → (⟨S262144x8, .f32⟩ : BufTy).Contents (Elt F))
  :: StableHlo.binary main_v146 main_v111 main_v147 (subf : (⟨S262144x8, .f32⟩ : BufTy).Contents (Elt F) → (⟨S262144x8, .f32⟩ : BufTy).Contents (Elt F) → (⟨S262144x8, .f32⟩ : BufTy).Contents (Elt F))
  :: StableHlo.unary main_arg6 main_v148 ((extractStridedSlice S1x8x8 ![2, 0, 0] · slices_S5x8x8_S1x8x8_2_0_0) : (⟨S5x8x8, .f32⟩ : BufTy).Contents (Elt F) → (⟨S1x8x8, .f32⟩ : BufTy).Contents (Elt F))
  :: StableHlo.reshape main_v148 main_v149 rfl shapeCasts_S1x8x8_S8x8
  :: StableHlo.binary main_v147 main_v149 main_v150 ((fun l r => Host.dotGeneral dot_S262144x8_S8x8_S262144x8_1_0_0_1_n_n none l r) : (⟨S262144x8, .f32⟩ : BufTy).Contents (Elt F) → (⟨S8x8, .f32⟩ : BufTy).Contents (Elt F) → (⟨S262144x8, .f32⟩ : BufTy).Contents (Elt F))
  :: StableHlo.binary main_v131 main_v150 main_v151 (addf : (⟨S262144x8, .f32⟩ : BufTy).Contents (Elt F) → (⟨S262144x8, .f32⟩ : BufTy).Contents (Elt F) → (⟨S262144x8, .f32⟩ : BufTy).Contents (Elt F))
  :: StableHlo.unary main_v31 main_v152 (broadcastInDim S8388608x1 ![0] bcast_S8388608_S8388608x1_0 : (⟨S8388608, .f32⟩ : BufTy).Contents (Elt F) → (⟨S8388608x1, .f32⟩ : BufTy).Contents (Elt F))
  :: StableHlo.nullary main_c_28 (constantI S_ 32 0#32)
  :: StableHlo.unary main_c_28 main_v153 (broadcastInDim S8388608 ![] bcast_S_S8388608 : (⟨S_, .i32⟩ : BufTy).Contents (Elt F) → (⟨S8388608, .i32⟩ : BufTy).Contents (Elt F))
  :: StableHlo.binary main_v1 main_v153 main_v154 (cmpi .slt : (⟨S8388608, .i32⟩ : BufTy).Contents (Elt F) → (⟨S8388608, .i32⟩ : BufTy).Contents (Elt F) → (⟨S8388608, .i1⟩ : BufTy).Contents (Elt F))
  :: StableHlo.nullary main_c_29 (constantI S_ 32 262144#32)
  :: StableHlo.unary main_c_29 main_v155 (broadcastInDim S8388608 ![] bcast_S_S8388608 : (⟨S_, .i32⟩ : BufTy).Contents (Elt F) → (⟨S8388608, .i32⟩ : BufTy).Contents (Elt F))
  :: StableHlo.binary main_v1 main_v155 main_v156 (addi : (⟨S8388608, .i32⟩ : BufTy).Contents (Elt F) → (⟨S8388608, .i32⟩ : BufTy).Contents (Elt F) → (⟨S8388608, .i32⟩ : BufTy).Contents (Elt F))
  :: StableHlo.ternary main_v154 main_v156 main_v1 main_v157 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v157 main_v158 (broadcastInDim S8388608x1 ![0] bcast_S8388608_S8388608x1_0 : (⟨S8388608, .i32⟩ : BufTy).Contents (Elt F) → (⟨S8388608x1, .i32⟩ : BufTy).Contents (Elt F))
  :: StableHlo.binary main_v147 main_v158 main_v159 ((fun x i => Host.gather gather_S262144x8_S8388608x1_S8388608x8_1_0_n_n_0_1_18 x i) : (⟨S262144x8, .f32⟩ : BufTy).Contents (Elt F) → (⟨S8388608x1, .i32⟩ : BufTy).Contents (Elt F) → (⟨S8388608x8, .f32⟩ : BufTy).Contents (Elt F))
  :: StableHlo.unary main_v152 main_v160 (broadcastInDim S8388608x8 ![0, 1] bcast_S8388608x1_S8388608x8_0_1 : (⟨S8388608x1, .f32⟩ : BufTy).Contents (Elt F) → (⟨S8388608x8, .f32⟩ : BufTy).Contents (Elt F))
  :: StableHlo.binary main_v160 main_v159 main_v161 (mulf : (⟨S8388608x8, .f32⟩ : BufTy).Contents (Elt F) → (⟨S8388608x8, .f32⟩ : BufTy).Contents (Elt F) → (⟨S8388608x8, .f32⟩ : BufTy).Contents (Elt F))
  :: StableHlo.nullary main_cst_30 (constant S_ .f32 0x00000000#32)
  :: StableHlo.unary main_cst_30 main_v162 (broadcastInDim S262144x8 ![] bcast_S_S262144x8 : (⟨S_, .f32⟩ : BufTy).Contents (Elt F) → (⟨S262144x8, .f32⟩ : BufTy).Contents (Elt F))
  :: StableHlo.unary main_v3 main_v163 (broadcastInDim S8388608x1 ![0] bcast_S8388608_S8388608x1_0 : (⟨S8388608, .i32⟩ : BufTy).Contents (Elt F) → (⟨S8388608x1, .i32⟩ : BufTy).Contents (Elt F))
  :: StableHlo.ternary main_v162 main_v163 main_v161 main_v164 ((fun x i u => Host.scatterAdd scatter_S262144x8_S8388608x1_S8388608x8_1_0_0_1 x i u) : (⟨S262144x8, .f32⟩ : BufTy).Contents (Elt F) → (⟨S8388608x1, .i32⟩ : BufTy).Contents (Elt F) → (⟨S8388608x8, .f32⟩ : BufTy).Contents (Elt F) → (⟨S262144x8, .f32⟩ : BufTy).Contents (Elt F))
  :: StableHlo.nullary main_cst_31 (constant S_ .f32 0x40000000#32)
  :: StableHlo.unary main_cst_31 main_v165 (broadcastInDim S262144x8 ![] bcast_S_S262144x8 : (⟨S_, .f32⟩ : BufTy).Contents (Elt F) → (⟨S262144x8, .f32⟩ : BufTy).Contents (Elt F))
  :: StableHlo.binary main_v165 main_v164 main_v166 (mulf : (⟨S262144x8, .f32⟩ : BufTy).Contents (Elt F) → (⟨S262144x8, .f32⟩ : BufTy).Contents (Elt F) → (⟨S262144x8, .f32⟩ : BufTy).Contents (Elt F))
  :: StableHlo.binary main_v166 main_v127 main_v167 (subf : (⟨S262144x8, .f32⟩ : BufTy).Contents (Elt F) → (⟨S262144x8, .f32⟩ : BufTy).Contents (Elt F) → (⟨S262144x8, .f32⟩ : BufTy).Contents (Elt F))
  :: StableHlo.unary main_arg6 main_v168 ((extractStridedSlice S1x8x8 ![3, 0, 0] · slices_S5x8x8_S1x8x8_3_0_0) : (⟨S5x8x8, .f32⟩ : BufTy).Contents (Elt F) → (⟨S1x8x8, .f32⟩ : BufTy).Contents (Elt F))
  :: StableHlo.reshape main_v168 main_v169 rfl shapeCasts_S1x8x8_S8x8
  :: StableHlo.binary main_v167 main_v169 main_v170 ((fun l r => Host.dotGeneral dot_S262144x8_S8x8_S262144x8_1_0_0_1_n_n none l r) : (⟨S262144x8, .f32⟩ : BufTy).Contents (Elt F) → (⟨S8x8, .f32⟩ : BufTy).Contents (Elt F) → (⟨S262144x8, .f32⟩ : BufTy).Contents (Elt F))
  :: StableHlo.binary main_v151 main_v170 main_v171 (addf : (⟨S262144x8, .f32⟩ : BufTy).Contents (Elt F) → (⟨S262144x8, .f32⟩ : BufTy).Contents (Elt F) → (⟨S262144x8, .f32⟩ : BufTy).Contents (Elt F))
  :: StableHlo.unary main_v31 main_v172 (broadcastInDim S8388608x1 ![0] bcast_S8388608_S8388608x1_0 : (⟨S8388608, .f32⟩ : BufTy).Contents (Elt F) → (⟨S8388608x1, .f32⟩ : BufTy).Contents (Elt F))
  :: StableHlo.nullary main_c_32 (constantI S_ 32 0#32)
  :: StableHlo.unary main_c_32 main_v173 (broadcastInDim S8388608 ![] bcast_S_S8388608 : (⟨S_, .i32⟩ : BufTy).Contents (Elt F) → (⟨S8388608, .i32⟩ : BufTy).Contents (Elt F))
  :: StableHlo.binary main_v1 main_v173 main_v174 (cmpi .slt : (⟨S8388608, .i32⟩ : BufTy).Contents (Elt F) → (⟨S8388608, .i32⟩ : BufTy).Contents (Elt F) → (⟨S8388608, .i1⟩ : BufTy).Contents (Elt F))
  :: StableHlo.nullary main_c_33 (constantI S_ 32 262144#32)
  :: StableHlo.unary main_c_33 main_v175 (broadcastInDim S8388608 ![] bcast_S_S8388608 : (⟨S_, .i32⟩ : BufTy).Contents (Elt F) → (⟨S8388608, .i32⟩ : BufTy).Contents (Elt F))
  :: StableHlo.binary main_v1 main_v175 main_v176 (addi : (⟨S8388608, .i32⟩ : BufTy).Contents (Elt F) → (⟨S8388608, .i32⟩ : BufTy).Contents (Elt F) → (⟨S8388608, .i32⟩ : BufTy).Contents (Elt F))
  :: StableHlo.ternary main_v174 main_v176 main_v1 main_v177 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))
  :: StableHlo.unary main_v177 main_v178 (broadcastInDim S8388608x1 ![0] bcast_S8388608_S8388608x1_0 : (⟨S8388608, .i32⟩ : BufTy).Contents (Elt F) → (⟨S8388608x1, .i32⟩ : BufTy).Contents (Elt F))
  :: StableHlo.binary main_v167 main_v178 main_v179 ((fun x i => Host.gather gather_S262144x8_S8388608x1_S8388608x8_1_0_n_n_0_1_18 x i) : (⟨S262144x8, .f32⟩ : BufTy).Contents (Elt F) → (⟨S8388608x1, .i32⟩ : BufTy).Contents (Elt F) → (⟨S8388608x8, .f32⟩ : BufTy).Contents (Elt F))
  :: StableHlo.unary main_v172 main_v180 (broadcastInDim S8388608x8 ![0, 1] bcast_S8388608x1_S8388608x8_0_1 : (⟨S8388608x1, .f32⟩ : BufTy).Contents (Elt F) → (⟨S8388608x8, .f32⟩ : BufTy).Contents (Elt F))
  :: StableHlo.binary main_v180 main_v179 main_v181 (mulf : (⟨S8388608x8, .f32⟩ : BufTy).Contents (Elt F) → (⟨S8388608x8, .f32⟩ : BufTy).Contents (Elt F) → (⟨S8388608x8, .f32⟩ : BufTy).Contents (Elt F))
  :: StableHlo.nullary main_cst_34 (constant S_ .f32 0x00000000#32)
  :: StableHlo.unary main_cst_34 main_v182 (broadcastInDim S262144x8 ![] bcast_S_S262144x8 : (⟨S_, .f32⟩ : BufTy).Contents (Elt F) → (⟨S262144x8, .f32⟩ : BufTy).Contents (Elt F))
  :: StableHlo.unary main_v3 main_v183 (broadcastInDim S8388608x1 ![0] bcast_S8388608_S8388608x1_0 : (⟨S8388608, .i32⟩ : BufTy).Contents (Elt F) → (⟨S8388608x1, .i32⟩ : BufTy).Contents (Elt F))
  :: StableHlo.ternary main_v182 main_v183 main_v181 main_v184 ((fun x i u => Host.scatterAdd scatter_S262144x8_S8388608x1_S8388608x8_1_0_0_1 x i u) : (⟨S262144x8, .f32⟩ : BufTy).Contents (Elt F) → (⟨S8388608x1, .i32⟩ : BufTy).Contents (Elt F) → (⟨S8388608x8, .f32⟩ : BufTy).Contents (Elt F) → (⟨S262144x8, .f32⟩ : BufTy).Contents (Elt F))
  :: StableHlo.nullary main_cst_35 (constant S_ .f32 0x40000000#32)
  :: StableHlo.unary main_cst_35 main_v185 (broadcastInDim S262144x8 ![] bcast_S_S262144x8 : (⟨S_, .f32⟩ : BufTy).Contents (Elt F) → (⟨S262144x8, .f32⟩ : BufTy).Contents (Elt F))
  :: StableHlo.binary main_v185 main_v184 main_v186 (mulf : (⟨S262144x8, .f32⟩ : BufTy).Contents (Elt F) → (⟨S262144x8, .f32⟩ : BufTy).Contents (Elt F) → (⟨S262144x8, .f32⟩ : BufTy).Contents (Elt F))
  :: StableHlo.binary main_v186 main_v147 main_v187 (subf : (⟨S262144x8, .f32⟩ : BufTy).Contents (Elt F) → (⟨S262144x8, .f32⟩ : BufTy).Contents (Elt F) → (⟨S262144x8, .f32⟩ : BufTy).Contents (Elt F))
  :: StableHlo.unary main_arg6 main_v188 ((extractStridedSlice S1x8x8 ![4, 0, 0] · slices_S5x8x8_S1x8x8_4_0_0) : (⟨S5x8x8, .f32⟩ : BufTy).Contents (Elt F) → (⟨S1x8x8, .f32⟩ : BufTy).Contents (Elt F))
  :: StableHlo.reshape main_v188 main_v189 rfl shapeCasts_S1x8x8_S8x8
  :: StableHlo.binary main_v187 main_v189 main_v190 ((fun l r => Host.dotGeneral dot_S262144x8_S8x8_S262144x8_1_0_0_1_n_n none l r) : (⟨S262144x8, .f32⟩ : BufTy).Contents (Elt F) → (⟨S8x8, .f32⟩ : BufTy).Contents (Elt F) → (⟨S262144x8, .f32⟩ : BufTy).Contents (Elt F))
  :: StableHlo.binary main_v171 main_v190 main_v191 (addf : (⟨S262144x8, .f32⟩ : BufTy).Contents (Elt F) → (⟨S262144x8, .f32⟩ : BufTy).Contents (Elt F) → (⟨S262144x8, .f32⟩ : BufTy).Contents (Elt F))
  :: StableHlo.unary main_arg7 main_v192 (broadcastInDim S1x8 ![1] bcast_S8_S1x8_1 : (⟨S8, .f32⟩ : BufTy).Contents (Elt F) → (⟨S1x8, .f32⟩ : BufTy).Contents (Elt F))
  :: StableHlo.unary main_v192 main_v193 (broadcastInDim S262144x8 ![0, 1] bcast_S1x8_S262144x8_0_1 : (⟨S1x8, .f32⟩ : BufTy).Contents (Elt F) → (⟨S262144x8, .f32⟩ : BufTy).Contents (Elt F))
  :: StableHlo.binary main_v191 main_v193 main_v194 (addf : (⟨S262144x8, .f32⟩ : BufTy).Contents (Elt F) → (⟨S262144x8, .f32⟩ : BufTy).Contents (Elt F) → (⟨S262144x8, .f32⟩ : BufTy).Contents (Elt F))
  :: [] )

abbrev pre5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S262144x8, .f32⟩) (broadcastInDim S262144x8 ![] bcast_S_S262144x8),
    StableHlo.TRef.binary (.of main_v194 : StableHlo.TRef sig ⟨S262144x8, .f32⟩) (.of main_call2_v0 : StableHlo.TRef sig ⟨S262144x8, .f32⟩) (.of main_v195 : StableHlo.TRef sig ⟨S262144x8, .f32⟩) maximumf ]

abbrev pre6 : List (HloOp τ sig (Elt F)) :=
  [ StableHlo.reshape main_v195 main_v196 rfl shapeCasts_S262144x8_S32x65536 ]

/-- Everything up to the pooled features `%196`. -/
abbrev opsPre : List (HloOp τ sig (Elt F)) := List.flatten [pre0, pre1, pre2, pre3, pre4, pre5, pre6]

/-! ## The dense tail -/

abbrev tail0 : List (HloOp τ sig (Elt F)) :=
  [ StableHlo.binary main_v196 main_arg8 main_v197 ((fun l r => Host.dotGeneral dot_S32x65536_S65536x1000_S32x1000_1_0_0_1_n_n none l r) : (⟨S32x65536, .f32⟩ : BufTy).Contents (Elt F) → (⟨S65536x1000, .f32⟩ : BufTy).Contents (Elt F) → (⟨S32x1000, .f32⟩ : BufTy).Contents (Elt F)),
    StableHlo.unary main_arg9 main_v198 (broadcastInDim S1x1000 ![1] bcast_S1000_S1x1000_1 : (⟨S1000, .f32⟩ : BufTy).Contents (Elt F) → (⟨S1x1000, .f32⟩ : BufTy).Contents (Elt F)),
    StableHlo.unary main_v198 main_v199 (broadcastInDim S32x1000 ![0, 1] bcast_S1x1000_S32x1000_0_1 : (⟨S1x1000, .f32⟩ : BufTy).Contents (Elt F) → (⟨S32x1000, .f32⟩ : BufTy).Contents (Elt F)),
    StableHlo.binary main_v197 main_v199 main_v200 (addf : (⟨S32x1000, .f32⟩ : BufTy).Contents (Elt F) → (⟨S32x1000, .f32⟩ : BufTy).Contents (Elt F) → (⟨S32x1000, .f32⟩ : BufTy).Contents (Elt F)) ]

/-- The body of @relu_0 in line over the record main_call3. -/
abbrev tail1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S32x1000, .f32⟩) (broadcastInDim S32x1000 ![] bcast_S_S32x1000),
    StableHlo.TRef.binary (.of main_v200 : StableHlo.TRef sig ⟨S32x1000, .f32⟩) (.of main_call3_v0 : StableHlo.TRef sig ⟨S32x1000, .f32⟩) (.of main_v201 : StableHlo.TRef sig ⟨S32x1000, .f32⟩) maximumf ]

abbrev tail2 : List (HloOp τ sig (Elt F)) :=
  [ StableHlo.binary main_v201 main_arg10 main_v202 ((fun l r => Host.dotGeneral dot_S32x1000_S1000x50_S32x50_1_0_0_1_n_n none l r) : (⟨S32x1000, .f32⟩ : BufTy).Contents (Elt F) → (⟨S1000x50, .f32⟩ : BufTy).Contents (Elt F) → (⟨S32x50, .f32⟩ : BufTy).Contents (Elt F)),
    StableHlo.unary main_arg11 main_v203 (broadcastInDim S1x50 ![1] bcast_S50_S1x50_1 : (⟨S50, .f32⟩ : BufTy).Contents (Elt F) → (⟨S1x50, .f32⟩ : BufTy).Contents (Elt F)),
    StableHlo.unary main_v203 main_v204 (broadcastInDim S32x50 ![0, 1] bcast_S1x50_S32x50_0_1 : (⟨S1x50, .f32⟩ : BufTy).Contents (Elt F) → (⟨S32x50, .f32⟩ : BufTy).Contents (Elt F)),
    StableHlo.binary main_v202 main_v204 main_v205 (addf : (⟨S32x50, .f32⟩ : BufTy).Contents (Elt F) → (⟨S32x50, .f32⟩ : BufTy).Contents (Elt F) → (⟨S32x50, .f32⟩ : BufTy).Contents (Elt F)) ]

/-- The body of @relu_1 in line over the record main_call4. -/
abbrev tail3 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S32x50, .f32⟩) (broadcastInDim S32x50 ![] bcast_S_S32x50),
    StableHlo.TRef.binary (.of main_v205 : StableHlo.TRef sig ⟨S32x50, .f32⟩) (.of main_call4_v0 : StableHlo.TRef sig ⟨S32x50, .f32⟩) (.of main_v206 : StableHlo.TRef sig ⟨S32x50, .f32⟩) maximumf ]

abbrev tail4 : List (HloOp τ sig (Elt F)) :=
  [ StableHlo.reshape main_arg0 main_v207 rfl shapeCasts_S262144x1_S32x8192,
    StableHlo.binary main_v207 main_arg12 main_v208 ((fun l r => Host.dotGeneral dot_S32x8192_S8192x350_S32x350_1_0_0_1_n_n none l r) : (⟨S32x8192, .f32⟩ : BufTy).Contents (Elt F) → (⟨S8192x350, .f32⟩ : BufTy).Contents (Elt F) → (⟨S32x350, .f32⟩ : BufTy).Contents (Elt F)),
    StableHlo.unary main_arg13 main_v209 (broadcastInDim S1x350 ![1] bcast_S350_S1x350_1 : (⟨S350, .f32⟩ : BufTy).Contents (Elt F) → (⟨S1x350, .f32⟩ : BufTy).Contents (Elt F)),
    StableHlo.unary main_v209 main_v210 (broadcastInDim S32x350 ![0, 1] bcast_S1x350_S32x350_0_1 : (⟨S1x350, .f32⟩ : BufTy).Contents (Elt F) → (⟨S32x350, .f32⟩ : BufTy).Contents (Elt F)),
    StableHlo.binary main_v208 main_v210 main_v211 (addf : (⟨S32x350, .f32⟩ : BufTy).Contents (Elt F) → (⟨S32x350, .f32⟩ : BufTy).Contents (Elt F) → (⟨S32x350, .f32⟩ : BufTy).Contents (Elt F)) ]

/-- The body of @elu in line over the record main_call5. -/
abbrev tail5 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S32x350, .f32⟩) (broadcastInDim S32x350 ![] bcast_S_S32x350),
    StableHlo.TRef.binary (.of main_v211 : StableHlo.TRef sig ⟨S32x350, .f32⟩) (.of main_call5_v0 : StableHlo.TRef sig ⟨S32x350, .f32⟩) (.of main_call5_v1 : StableHlo.TRef sig ⟨S32x350, .i1⟩) (cmpf .ogt),
    StableHlo.TRef.nullary (.of main_call5_cst_0 : StableHlo.TRef sig ⟨S_, .f32⟩) (constant S_ .f32 0x00000000#32),
    StableHlo.TRef.unary (.of main_call5_cst_0 : StableHlo.TRef sig ⟨S_, .f32⟩) (.of main_call5_v2 : StableHlo.TRef sig ⟨S32x350, .f32⟩) (broadcastInDim S32x350 ![] bcast_S_S32x350),
    StableHlo.TRef.binary (.of main_v211 : StableHlo.TRef sig ⟨S32x350, .f32⟩) (.of main_call5_v2 : StableHlo.TRef sig ⟨S32x350, .f32⟩) (.of main_call5_v3 : StableHlo.TRef sig ⟨S32x350, .i1⟩) (cmpf .ogt),
    StableHlo.TRef.nullary (.of main_call5_cst_1 : StableHlo.TRef sig ⟨S_, .f32⟩) (constant S_ .f32 0x00000000#32),
    StableHlo.TRef.unary (.of main_call5_cst_1 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S32x350, .f32⟩) (broadcastInDim S32x350 ![] bcast_S_S32x350),
    StableHlo.TRef.ternary (.of main_call5_v3 : StableHlo.TRef sig ⟨S32x350, .i1⟩) (.of main_call5_call0_v1 : StableHlo.TRef sig ⟨S32x350, .f32⟩) (.of main_v211 : StableHlo.TRef sig ⟨S32x350, .f32⟩) (.of main_call5_v4 : StableHlo.TRef sig ⟨S32x350, .f32⟩) select,
    StableHlo.TRef.unary (.of main_call5_v4 : StableHlo.TRef sig ⟨S32x350, .f32⟩) (.of main_call5_v5 : StableHlo.TRef sig ⟨S32x350, .f32⟩) Host.expm1,
    StableHlo.TRef.nullary (.of main_call5_cst_2 : StableHlo.TRef sig ⟨S_, .f32⟩) (constant S_ .f32 0x3F800000#32),
    StableHlo.TRef.unary (.of main_call5_cst_2 : StableHlo.TRef sig ⟨S_, .f32⟩) (.of main_call5_v6 : StableHlo.TRef sig ⟨S32x350, .f32⟩) (broadcastInDim S32x350 ![] bcast_S_S32x350),
    StableHlo.TRef.binary (.of main_call5_v6 : StableHlo.TRef sig ⟨S32x350, .f32⟩) (.of main_call5_v5 : StableHlo.TRef sig ⟨S32x350, .f32⟩) (.of main_call5_v7 : StableHlo.TRef sig ⟨S32x350, .f32⟩) mulf,
    StableHlo.TRef.ternary (.of main_call5_v1 : StableHlo.TRef sig ⟨S32x350, .i1⟩) (.of main_v211 : StableHlo.TRef sig ⟨S32x350, .f32⟩) (.of main_call5_v7 : StableHlo.TRef sig ⟨S32x350, .f32⟩) (.of main_v212 : StableHlo.TRef sig ⟨S32x350, .f32⟩) select ]

abbrev tail6 : List (HloOp τ sig (Elt F)) :=
  [ StableHlo.binary main_v212 main_arg14 main_v213 ((fun l r => Host.dotGeneral dot_S32x350_S350x350_S32x350_1_0_0_1_n_n none l r) : (⟨S32x350, .f32⟩ : BufTy).Contents (Elt F) → (⟨S350x350, .f32⟩ : BufTy).Contents (Elt F) → (⟨S32x350, .f32⟩ : BufTy).Contents (Elt F)),
    StableHlo.unary main_arg15 main_v214 (broadcastInDim S1x350 ![1] bcast_S350_S1x350_1 : (⟨S350, .f32⟩ : BufTy).Contents (Elt F) → (⟨S1x350, .f32⟩ : BufTy).Contents (Elt F)),
    StableHlo.unary main_v214 main_v215 (broadcastInDim S32x350 ![0, 1] bcast_S1x350_S32x350_0_1 : (⟨S1x350, .f32⟩ : BufTy).Contents (Elt F) → (⟨S32x350, .f32⟩ : BufTy).Contents (Elt F)),
    StableHlo.binary main_v213 main_v215 main_v216 (addf : (⟨S32x350, .f32⟩ : BufTy).Contents (Elt F) → (⟨S32x350, .f32⟩ : BufTy).Contents (Elt F) → (⟨S32x350, .f32⟩ : BufTy).Contents (Elt F)) ]

/-- The body of @elu in line over the record main_call6. -/
abbrev tail7 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S32x350, .f32⟩) (broadcastInDim S32x350 ![] bcast_S_S32x350),
    StableHlo.TRef.binary (.of main_v216 : StableHlo.TRef sig ⟨S32x350, .f32⟩) (.of main_call6_v0 : StableHlo.TRef sig ⟨S32x350, .f32⟩) (.of main_call6_v1 : StableHlo.TRef sig ⟨S32x350, .i1⟩) (cmpf .ogt),
    StableHlo.TRef.nullary (.of main_call6_cst_0 : StableHlo.TRef sig ⟨S_, .f32⟩) (constant S_ .f32 0x00000000#32),
    StableHlo.TRef.unary (.of main_call6_cst_0 : StableHlo.TRef sig ⟨S_, .f32⟩) (.of main_call6_v2 : StableHlo.TRef sig ⟨S32x350, .f32⟩) (broadcastInDim S32x350 ![] bcast_S_S32x350),
    StableHlo.TRef.binary (.of main_v216 : StableHlo.TRef sig ⟨S32x350, .f32⟩) (.of main_call6_v2 : StableHlo.TRef sig ⟨S32x350, .f32⟩) (.of main_call6_v3 : StableHlo.TRef sig ⟨S32x350, .i1⟩) (cmpf .ogt),
    StableHlo.TRef.nullary (.of main_call6_cst_1 : StableHlo.TRef sig ⟨S_, .f32⟩) (constant S_ .f32 0x00000000#32),
    StableHlo.TRef.unary (.of main_call6_cst_1 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S32x350, .f32⟩) (broadcastInDim S32x350 ![] bcast_S_S32x350),
    StableHlo.TRef.ternary (.of main_call6_v3 : StableHlo.TRef sig ⟨S32x350, .i1⟩) (.of main_call6_call0_v1 : StableHlo.TRef sig ⟨S32x350, .f32⟩) (.of main_v216 : StableHlo.TRef sig ⟨S32x350, .f32⟩) (.of main_call6_v4 : StableHlo.TRef sig ⟨S32x350, .f32⟩) select,
    StableHlo.TRef.unary (.of main_call6_v4 : StableHlo.TRef sig ⟨S32x350, .f32⟩) (.of main_call6_v5 : StableHlo.TRef sig ⟨S32x350, .f32⟩) Host.expm1,
    StableHlo.TRef.nullary (.of main_call6_cst_2 : StableHlo.TRef sig ⟨S_, .f32⟩) (constant S_ .f32 0x3F800000#32),
    StableHlo.TRef.unary (.of main_call6_cst_2 : StableHlo.TRef sig ⟨S_, .f32⟩) (.of main_call6_v6 : StableHlo.TRef sig ⟨S32x350, .f32⟩) (broadcastInDim S32x350 ![] bcast_S_S32x350),
    StableHlo.TRef.binary (.of main_call6_v6 : StableHlo.TRef sig ⟨S32x350, .f32⟩) (.of main_call6_v5 : StableHlo.TRef sig ⟨S32x350, .f32⟩) (.of main_call6_v7 : StableHlo.TRef sig ⟨S32x350, .f32⟩) mulf,
    StableHlo.TRef.ternary (.of main_call6_v1 : StableHlo.TRef sig ⟨S32x350, .i1⟩) (.of main_v216 : StableHlo.TRef sig ⟨S32x350, .f32⟩) (.of main_call6_v7 : StableHlo.TRef sig ⟨S32x350, .f32⟩) (.of main_v217 : StableHlo.TRef sig ⟨S32x350, .f32⟩) select ]

abbrev tail8 : List (HloOp τ sig (Elt F)) :=
  [ StableHlo.binary main_v217 main_arg16 main_v218 ((fun l r => Host.dotGeneral dot_S32x350_S350x350_S32x350_1_0_0_1_n_n none l r) : (⟨S32x350, .f32⟩ : BufTy).Contents (Elt F) → (⟨S350x350, .f32⟩ : BufTy).Contents (Elt F) → (⟨S32x350, .f32⟩ : BufTy).Contents (Elt F)),
    StableHlo.unary main_arg17 main_v219 (broadcastInDim S1x350 ![1] bcast_S350_S1x350_1 : (⟨S350, .f32⟩ : BufTy).Contents (Elt F) → (⟨S1x350, .f32⟩ : BufTy).Contents (Elt F)),
    StableHlo.unary main_v219 main_v220 (broadcastInDim S32x350 ![0, 1] bcast_S1x350_S32x350_0_1 : (⟨S1x350, .f32⟩ : BufTy).Contents (Elt F) → (⟨S32x350, .f32⟩ : BufTy).Contents (Elt F)),
    StableHlo.binary main_v218 main_v220 main_v221 (addf : (⟨S32x350, .f32⟩ : BufTy).Contents (Elt F) → (⟨S32x350, .f32⟩ : BufTy).Contents (Elt F) → (⟨S32x350, .f32⟩ : BufTy).Contents (Elt F)) ]

/-- The body of @elu in line over the record main_call7. -/
abbrev tail9 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S32x350, .f32⟩) (broadcastInDim S32x350 ![] bcast_S_S32x350),
    StableHlo.TRef.binary (.of main_v221 : StableHlo.TRef sig ⟨S32x350, .f32⟩) (.of main_call7_v0 : StableHlo.TRef sig ⟨S32x350, .f32⟩) (.of main_call7_v1 : StableHlo.TRef sig ⟨S32x350, .i1⟩) (cmpf .ogt),
    StableHlo.TRef.nullary (.of main_call7_cst_0 : StableHlo.TRef sig ⟨S_, .f32⟩) (constant S_ .f32 0x00000000#32),
    StableHlo.TRef.unary (.of main_call7_cst_0 : StableHlo.TRef sig ⟨S_, .f32⟩) (.of main_call7_v2 : StableHlo.TRef sig ⟨S32x350, .f32⟩) (broadcastInDim S32x350 ![] bcast_S_S32x350),
    StableHlo.TRef.binary (.of main_v221 : StableHlo.TRef sig ⟨S32x350, .f32⟩) (.of main_call7_v2 : StableHlo.TRef sig ⟨S32x350, .f32⟩) (.of main_call7_v3 : StableHlo.TRef sig ⟨S32x350, .i1⟩) (cmpf .ogt),
    StableHlo.TRef.nullary (.of main_call7_cst_1 : StableHlo.TRef sig ⟨S_, .f32⟩) (constant S_ .f32 0x00000000#32),
    StableHlo.TRef.unary (.of main_call7_cst_1 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S32x350, .f32⟩) (broadcastInDim S32x350 ![] bcast_S_S32x350),
    StableHlo.TRef.ternary (.of main_call7_v3 : StableHlo.TRef sig ⟨S32x350, .i1⟩) (.of main_call7_call0_v1 : StableHlo.TRef sig ⟨S32x350, .f32⟩) (.of main_v221 : StableHlo.TRef sig ⟨S32x350, .f32⟩) (.of main_call7_v4 : StableHlo.TRef sig ⟨S32x350, .f32⟩) select,
    StableHlo.TRef.unary (.of main_call7_v4 : StableHlo.TRef sig ⟨S32x350, .f32⟩) (.of main_call7_v5 : StableHlo.TRef sig ⟨S32x350, .f32⟩) Host.expm1,
    StableHlo.TRef.nullary (.of main_call7_cst_2 : StableHlo.TRef sig ⟨S_, .f32⟩) (constant S_ .f32 0x3F800000#32),
    StableHlo.TRef.unary (.of main_call7_cst_2 : StableHlo.TRef sig ⟨S_, .f32⟩) (.of main_call7_v6 : StableHlo.TRef sig ⟨S32x350, .f32⟩) (broadcastInDim S32x350 ![] bcast_S_S32x350),
    StableHlo.TRef.binary (.of main_call7_v6 : StableHlo.TRef sig ⟨S32x350, .f32⟩) (.of main_call7_v5 : StableHlo.TRef sig ⟨S32x350, .f32⟩) (.of main_call7_v7 : StableHlo.TRef sig ⟨S32x350, .f32⟩) mulf,
    StableHlo.TRef.ternary (.of main_call7_v1 : StableHlo.TRef sig ⟨S32x350, .i1⟩) (.of main_v221 : StableHlo.TRef sig ⟨S32x350, .f32⟩) (.of main_call7_v7 : StableHlo.TRef sig ⟨S32x350, .f32⟩) (.of main_v222 : StableHlo.TRef sig ⟨S32x350, .f32⟩) select ]

abbrev tail10 : List (HloOp τ sig (Elt F)) :=
  [ StableHlo.binary main_v222 main_arg18 main_v223 ((fun l r => Host.dotGeneral dot_S32x350_S350x50_S32x50_1_0_0_1_n_n none l r) : (⟨S32x350, .f32⟩ : BufTy).Contents (Elt F) → (⟨S350x50, .f32⟩ : BufTy).Contents (Elt F) → (⟨S32x50, .f32⟩ : BufTy).Contents (Elt F)),
    StableHlo.unary main_arg19 main_v224 (broadcastInDim S1x50 ![1] bcast_S50_S1x50_1 : (⟨S50, .f32⟩ : BufTy).Contents (Elt F) → (⟨S1x50, .f32⟩ : BufTy).Contents (Elt F)),
    StableHlo.unary main_v224 main_v225 (broadcastInDim S32x50 ![0, 1] bcast_S1x50_S32x50_0_1 : (⟨S1x50, .f32⟩ : BufTy).Contents (Elt F) → (⟨S32x50, .f32⟩ : BufTy).Contents (Elt F)),
    StableHlo.binary main_v223 main_v225 main_v226 (addf : (⟨S32x50, .f32⟩ : BufTy).Contents (Elt F) → (⟨S32x50, .f32⟩ : BufTy).Contents (Elt F) → (⟨S32x50, .f32⟩ : BufTy).Contents (Elt F)),
    StableHlo.binary main_v206 main_v226 main_v227 ((fun a b => concatenate S32x100 1 [⟨S32x50, a⟩, ⟨S32x50, b⟩] concatenates_S32x50_S32x50_S32x100_d1) : (⟨S32x50, .f32⟩ : BufTy).Contents (Elt F) → (⟨S32x50, .f32⟩ : BufTy).Contents (Elt F) → (⟨S32x100, .f32⟩ : BufTy).Contents (Elt F)),
    StableHlo.binary main_v227 main_arg20 main_v228 ((fun l r => Host.dotGeneral dot_S32x100_S100x1_S32x1_1_0_0_1_n_n none l r) : (⟨S32x100, .f32⟩ : BufTy).Contents (Elt F) → (⟨S100x1, .f32⟩ : BufTy).Contents (Elt F) → (⟨S32x1, .f32⟩ : BufTy).Contents (Elt F)),
    StableHlo.unary main_arg21 main_v229 (broadcastInDim S1x1 ![1] bcast_S1_S1x1_1 : (⟨S1, .f32⟩ : BufTy).Contents (Elt F) → (⟨S1x1, .f32⟩ : BufTy).Contents (Elt F)),
    StableHlo.unary main_v229 main_v230 (broadcastInDim S32x1 ![0, 1] bcast_S1x1_S32x1_0_1 : (⟨S1x1, .f32⟩ : BufTy).Contents (Elt F) → (⟨S32x1, .f32⟩ : BufTy).Contents (Elt F)),
    StableHlo.binary main_v228 main_v230 main_v231 (addf : (⟨S32x1, .f32⟩ : BufTy).Contents (Elt F) → (⟨S32x1, .f32⟩ : BufTy).Contents (Elt F) → (⟨S32x1, .f32⟩ : BufTy).Contents (Elt F)),
    StableHlo.reshape main_v231 main_v232 rfl shapeCasts_S32x1_S32,
    StableHlo.nullary main_cst_36 (constant S_ .f32 0x00000000#32),
    StableHlo.nullary main_cst_37 (constant S_ .f32 0x42DC0000#32) ]

/-- The body of @clip in line over the record main_call8. -/
abbrev tail11 : List (HloOp τ sig (Elt F)) :=
  [ StableHlo.TRef.unary (.of main_cst_36 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S32, .f32⟩) (broadcastInDim S32 ![] bcast_S_S32),
    StableHlo.TRef.binary (.of main_call8_v1 : StableHlo.TRef sig ⟨S32, .f32⟩) (.of main_v232 : StableHlo.TRef sig ⟨S32, .f32⟩) (.of main_call8_v2 : StableHlo.TRef sig ⟨S32, .f32⟩) maximumf,
    StableHlo.TRef.unary (.of main_cst_37 : StableHlo.TRef sig ⟨S_, .f32⟩) (.of main_call8_v3 : StableHlo.TRef sig ⟨S_, .f32⟩) id,
    StableHlo.TRef.unary (.of main_call8_v3 : StableHlo.TRef sig ⟨S_, .f32⟩) (.of main_call8_v4 : StableHlo.TRef sig ⟨S32, .f32⟩) (broadcastInDim S32 ![] bcast_S_S32),
    StableHlo.TRef.binary (.of main_call8_v4 : StableHlo.TRef sig ⟨S32, .f32⟩) (.of main_call8_v2 : StableHlo.TRef sig ⟨S32, .f32⟩) (.of main_v233 : StableHlo.TRef sig ⟨S32, .f32⟩) minimumf ]

/-- The operations after `%196`, the outlined functions' bodies in line at their calls. -/
abbrev opsTail : List (HloOp τ sig (Elt F)) := List.flatten [tail0, tail1, tail2, tail3, tail4, tail5, tail6, tail7, tail8, tail9, tail10, tail11]

/-- @main is its operations run in order. -/
theorem main_eq (c : Dev nD) : main (F := F) c = StableHlo.seq (opsPre ++ opsTail) := by
  show (main_part0 (F := F) c >>= fun _ => main_part1 (F := F) c >>= fun _ => main_part2 (F := F) c >>= fun _ => main_part3 (F := F) c >>= fun _ => main_part4 (F := F) c) = _
  chain_rfl

/-! ## The run

Each operation reads and writes TensorCore references only and allocates nothing; so @main, being the operations
in sequence, runs to the fold of their results over the launch contents. -/

theorem scopedRefs_eq : (Finset.univ.filter fun b : Ref sig .tc => b.isScoped) = ∅ := by decide
theorem scopedSems_eq : (Finset.univ.filter fun sm : SemLoc sig => sm.isScoped .tc) = ∅ := by decide

/-- A property of every list of a family holds of their concatenation. -/
private theorem forall_flatten {α : Type} {P : α → Prop} :
    ∀ (ls : List (List α)), ls.Forall (fun l => l.Forall P) → ls.flatten.Forall P
  | [], _ => trivial
  | l :: ls, h => by
      rw [List.forall_cons] at h
      rw [List.flatten_cons, List.forall_append]
      exact ⟨h.1, forall_flatten ls h.2⟩

theorem pre0_sub : (pre0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩
theorem pre0_fresh : (pre0 : List (HloOp τ sig (Elt F))).Forall fun op => op.fresh = ∅ := by
  simp only [List.Forall]; repeat' constructor

theorem pre1_sub : (pre1 : List (HloOp τ sig (Elt F))).Forall fun op => op.bufs ⊆ StableHlo.tcRefs τ sig :=
  ⟨StableHlo.unary_bufs_sub .., StableHlo.unary_bufs_sub .., StableHlo.ternary_bufs_sub ..⟩
theorem pre1_fresh : (pre1 : List (HloOp τ sig (Elt F))).Forall fun op => op.fresh = ∅ := by
  simp only [List.Forall]; repeat' constructor

set_option maxHeartbeats 40000000 in
theorem pre2_sub : (pre2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.reshape_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub ..⟩
set_option maxHeartbeats 40000000 in
theorem pre2_fresh : (pre2 : List (HloOp τ sig (Elt F))).Forall fun op => op.fresh = ∅ := by
  simp only [List.Forall]; repeat' constructor

theorem pre3_sub : (pre3 : List (HloOp τ sig (Elt F))).Forall fun op => op.bufs ⊆ StableHlo.tcRefs τ sig :=
  ⟨StableHlo.nullary_bufs_sub .., StableHlo.unary_bufs_sub .., StableHlo.binary_bufs_sub ..⟩
theorem pre3_fresh : (pre3 : List (HloOp τ sig (Elt F))).Forall fun op => op.fresh = ∅ := by
  simp only [List.Forall]; repeat' constructor

set_option maxHeartbeats 40000000 in
theorem pre4_sub : (pre4 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub ..⟩
set_option maxHeartbeats 40000000 in
theorem pre4_fresh : (pre4 : List (HloOp τ sig (Elt F))).Forall fun op => op.fresh = ∅ := by
  simp only [List.Forall]; repeat' constructor

theorem pre5_sub : (pre5 : List (HloOp τ sig (Elt F))).Forall fun op => op.bufs ⊆ StableHlo.tcRefs τ sig :=
  ⟨StableHlo.nullary_bufs_sub .., StableHlo.unary_bufs_sub .., StableHlo.binary_bufs_sub ..⟩
theorem pre5_fresh : (pre5 : List (HloOp τ sig (Elt F))).Forall fun op => op.fresh = ∅ := by
  simp only [List.Forall]; repeat' constructor

theorem pre6_sub : (pre6 : List (HloOp τ sig (Elt F))).Forall fun op => op.bufs ⊆ StableHlo.tcRefs τ sig :=
  StableHlo.reshape_bufs_sub ..
theorem pre6_fresh : (pre6 : List (HloOp τ sig (Elt F))).Forall fun op => op.fresh = ∅ := by
  simp only [List.Forall]; repeat' constructor

theorem tail0_sub : (tail0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem tail0_fresh : (tail0 : List (HloOp τ sig (Elt F))).Forall fun op => op.fresh = ∅ := by
  simp only [List.Forall]; repeat' constructor

theorem tail1_sub : (tail1 : List (HloOp τ sig (Elt F))).Forall fun op => op.bufs ⊆ StableHlo.tcRefs τ sig :=
  ⟨StableHlo.nullary_bufs_sub .., StableHlo.unary_bufs_sub .., StableHlo.binary_bufs_sub ..⟩
theorem tail1_fresh : (tail1 : List (HloOp τ sig (Elt F))).Forall fun op => op.fresh = ∅ := by
  simp only [List.Forall]; repeat' constructor

theorem tail2_sub : (tail2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem tail2_fresh : (tail2 : List (HloOp τ sig (Elt F))).Forall fun op => op.fresh = ∅ := by
  simp only [List.Forall]; repeat' constructor

theorem tail3_sub : (tail3 : List (HloOp τ sig (Elt F))).Forall fun op => op.bufs ⊆ StableHlo.tcRefs τ sig :=
  ⟨StableHlo.nullary_bufs_sub .., StableHlo.unary_bufs_sub .., StableHlo.binary_bufs_sub ..⟩
theorem tail3_fresh : (tail3 : List (HloOp τ sig (Elt F))).Forall fun op => op.fresh = ∅ := by
  simp only [List.Forall]; repeat' constructor

theorem tail4_sub : (tail4 : List (HloOp τ sig (Elt F))).Forall fun op => op.bufs ⊆ StableHlo.tcRefs τ sig :=
  ⟨StableHlo.reshape_bufs_sub .., StableHlo.binary_bufs_sub .., StableHlo.unary_bufs_sub .., StableHlo.unary_bufs_sub .., StableHlo.binary_bufs_sub ..⟩
theorem tail4_fresh : (tail4 : List (HloOp τ sig (Elt F))).Forall fun op => op.fresh = ∅ := by
  simp only [List.Forall]; repeat' constructor

theorem tail5_sub : (tail5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem tail5_fresh : (tail5 : List (HloOp τ sig (Elt F))).Forall fun op => op.fresh = ∅ := by
  simp only [List.Forall]; repeat' constructor

theorem tail6_sub : (tail6 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem tail6_fresh : (tail6 : List (HloOp τ sig (Elt F))).Forall fun op => op.fresh = ∅ := by
  simp only [List.Forall]; repeat' constructor

theorem tail7_sub : (tail7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem tail7_fresh : (tail7 : List (HloOp τ sig (Elt F))).Forall fun op => op.fresh = ∅ := by
  simp only [List.Forall]; repeat' constructor

theorem tail8_sub : (tail8 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem tail8_fresh : (tail8 : List (HloOp τ sig (Elt F))).Forall fun op => op.fresh = ∅ := by
  simp only [List.Forall]; repeat' constructor

theorem tail9_sub : (tail9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem tail9_fresh : (tail9 : List (HloOp τ sig (Elt F))).Forall fun op => op.fresh = ∅ := by
  simp only [List.Forall]; repeat' constructor

theorem tail10_sub : (tail10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.reshape_bufs_sub .., StableHlo.nullary_bufs_sub .., StableHlo.nullary_bufs_sub ..⟩
theorem tail10_fresh : (tail10 : List (HloOp τ sig (Elt F))).Forall fun op => op.fresh = ∅ := by
  simp only [List.Forall]; repeat' constructor

theorem tail11_sub : (tail11 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem tail11_fresh : (tail11 : List (HloOp τ sig (Elt F))).Forall fun op => op.fresh = ∅ := by
  simp only [List.Forall]; repeat' constructor

theorem opsPre_sub : (opsPre : List (HloOp τ sig (Elt F))).Forall fun op => op.bufs ⊆ StableHlo.tcRefs τ sig :=
  forall_flatten _ ⟨pre0_sub, pre1_sub, pre2_sub, pre3_sub, pre4_sub, pre5_sub, pre6_sub⟩
theorem opsPre_fresh : (opsPre : List (HloOp τ sig (Elt F))).Forall fun op => op.fresh = ∅ :=
  forall_flatten _ ⟨pre0_fresh, pre1_fresh, pre2_fresh, pre3_fresh, pre4_fresh, pre5_fresh, pre6_fresh⟩
theorem opsTail_sub : (opsTail : List (HloOp τ sig (Elt F))).Forall fun op => op.bufs ⊆ StableHlo.tcRefs τ sig :=
  forall_flatten _ ⟨tail0_sub, tail1_sub, tail2_sub, tail3_sub, tail4_sub, tail5_sub, tail6_sub, tail7_sub, tail8_sub, tail9_sub, tail10_sub, tail11_sub⟩
theorem opsTail_fresh : (opsTail : List (HloOp τ sig (Elt F))).Forall fun op => op.fresh = ∅ :=
  forall_flatten _ ⟨tail0_fresh, tail1_fresh, tail2_fresh, tail3_fresh, tail4_fresh, tail5_fresh, tail6_fresh, tail7_fresh, tail8_fresh, tail9_fresh, tail10_fresh, tail11_fresh⟩

/-- Every weakly fair execution of @main terminates with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (opsPre ++ opsTail) (StableHlo.launchContents m c) (Proc.devRef .tc b) :=
  StableHlo.run_seq scopedRefs_eq scopedSems_eq defs main (fun _ => opsPre ++ opsTail) main_eq
    (fun _ => List.forall_append.mpr ⟨opsPre_sub, opsTail_sub⟩) m ρ
    (fun _ => List.forall_iff_forall_mem.mp (List.forall_append.mpr ⟨opsPre_fresh, opsTail_fresh⟩))

end Cert.ReferenceIdeal.RefRun

end
-- ==== Proof.RefVal.lean ====
/-
  The reference's run with its result named: the dense tail read back as `refTail` of the pooled features (the value the
  graph-convolution operations leave in `%196`) and the weights, the arguments unchanged.
-/
import proofs.«141686_j65317862637683_1_alg».proof.Proof.RefOps
import Idealize.ShloMosaic.PureOps.Ideal

set_option maxRecDepth 16384

noncomputable section

namespace Cert.ReferenceIdeal.RefVal

open Cert.ReferenceIdeal Cert.ReferenceIdeal.Gen Cert.ReferenceIdeal.RefRun Idealize.ShloMosaic Idealize.ShloMosaic.TcCoe Idealize.SL.Sem

variable {F : FTy → Type} [FloatOps F]

/-- One line after another is the second from what the first leaves. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons]; exact ih _

/-- Two [32, 50] blocks side by side, as [32, 100]. -/
private def cat2 (a b : FVec F S32x50 .f32) : FVec F S32x100 .f32 :=
  concatenate S32x100 1 [⟨S32x50, a⟩, ⟨S32x50, b⟩] concatenates_S32x50_S32x50_S32x100_d1

private theorem cat2_def (a b : FVec F S32x50 .f32) :
    concatenate S32x100 1 [⟨S32x50, a⟩, ⟨S32x50, b⟩] concatenates_S32x50_S32x50_S32x100_d1 = cat2 a b := rfl

set_option maxHeartbeats 4000000 in
/-- The tail read back: from any contents `W`, the result buffer ends at `refTail` of `W` at the pooled features and the weights. -/
theorem tail_val (W : Valuation τ sig (Elt F)) :
    StableHlo.after opsTail W (Proc.devRef .tc main_v233)
      = RefSpec.refTail (W (Proc.devRef .tc main_v196)) (W (Proc.devRef .tc main_arg0)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  simp only [opsTail, tail0, tail1, tail2, tail3, tail4, tail5, tail6, tail7, tail8, tail9, tail10, tail11, List.flatten_cons, List.flatten_nil,
    List.append_nil, List.cons_append, List.nil_append]
  -- each operation's result read back at its own buffer, the side-by-side block named so that its two operands are read back too
  simp (disch := decide) only [StableHlo.after_cons, StableHlo.after_nil, StableHlo.nullary_result', StableHlo.unary_result',
    StableHlo.binary_result', StableHlo.ternary_result', StableHlo.reshape_result', StableHlo.nullary_result_ne', StableHlo.unary_result_ne',
    StableHlo.binary_result_ne', StableHlo.ternary_result_ne', StableHlo.reshape_result_ne', cat2_def]
  rfl

/-- The program's arguments. -/
private def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

set_option maxHeartbeats 4000000 in
/-- No graph-convolution operation writes an argument. -/
private theorem pre_keeps {r : Ref sig .tc} (hr : r ∈ argRefs) (V : Valuation τ sig (Elt F)) :
    StableHlo.after opsPre V (Proc.devRef .tc r) = V (Proc.devRef .tc r) :=
  StableHlo.after_of_forall_not_mem (b := Proc.devRef .tc r) _ _ (List.forall_iff_forall_mem.mp (by
    simp only [opsPre, pre0, pre1, pre2, pre3, pre4, pre5, pre6, List.flatten_cons, List.flatten_nil, List.append_nil, List.cons_append,
      List.nil_append, List.Forall, StableHlo.nullary_writes, StableHlo.unary_writes, StableHlo.binary_writes, StableHlo.ternary_writes,
      StableHlo.reshape_writes, Finset.mem_singleton]
    repeat' apply And.intro
    all_goals exact StableHlo.devRef_ne_of_ne (ne_of_mem_of_not_mem hr (by decide))))

set_option maxHeartbeats 4000000 in
/-- No operation of the dense tail writes an argument. -/
private theorem tail_keeps {r : Ref sig .tc} (hr : r ∈ argRefs) (V : Valuation τ sig (Elt F)) :
    StableHlo.after opsTail V (Proc.devRef .tc r) = V (Proc.devRef .tc r) :=
  StableHlo.after_of_forall_not_mem (b := Proc.devRef .tc r) _ _ (List.forall_iff_forall_mem.mp (by
    simp only [opsTail, tail0, tail1, tail2, tail3, tail4, tail5, tail6, tail7, tail8, tail9, tail10, tail11, List.flatten_cons, List.flatten_nil,
      List.append_nil, List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem hr (by decide))))

/-- The whole line leaves every argument as it found it. -/
private theorem arg_val {r : Ref sig .tc} (hr : r ∈ argRefs) (M : Valuation τ sig (Elt F)) :
    StableHlo.after (opsPre ++ opsTail) M (Proc.devRef .tc r) = M (Proc.devRef .tc r) := by
  rw [after_append, tail_keeps hr, pre_keeps hr]

/-- The whole line's result: the dense tail of what the graph convolutions leave in `%196`, at the weights as found. -/
private theorem out_val (M : Valuation τ sig (Elt F)) :
    StableHlo.after (opsPre ++ opsTail) M (Proc.devRef .tc main_v233)
      = RefSpec.refTail (StableHlo.after opsPre M (Proc.devRef .tc main_v196)) (M (Proc.devRef .tc main_arg0)) (M (Proc.devRef .tc main_arg8)) (M (Proc.devRef .tc main_arg9)) (M (Proc.devRef .tc main_arg10)) (M (Proc.devRef .tc main_arg11)) (M (Proc.devRef .tc main_arg12)) (M (Proc.devRef .tc main_arg13)) (M (Proc.devRef .tc main_arg14)) (M (Proc.devRef .tc main_arg15)) (M (Proc.devRef .tc main_arg16)) (M (Proc.devRef .tc main_arg17)) (M (Proc.devRef .tc main_arg18)) (M (Proc.devRef .tc main_arg19)) (M (Proc.devRef .tc main_arg20)) (M (Proc.devRef .tc main_arg21)) := by
  rw [after_append, tail_val, pre_keeps (r := main_arg0) (by decide), pre_keeps (r := main_arg8) (by decide), pre_keeps (r := main_arg9) (by decide), pre_keeps (r := main_arg10) (by decide), pre_keeps (r := main_arg11) (by decide), pre_keeps (r := main_arg12) (by decide), pre_keeps (r := main_arg13) (by decide), pre_keeps (r := main_arg14) (by decide), pre_keeps (r := main_arg15) (by decide), pre_keeps (r := main_arg16) (by decide), pre_keeps (r := main_arg17) (by decide), pre_keeps (r := main_arg18) (by decide), pre_keeps (r := main_arg19) (by decide), pre_keeps (r := main_arg20) (by decide), pre_keeps (r := main_arg21) (by decide)]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v233)
        = RefSpec.refTail (StableHlo.after opsPre (StableHlo.launchContents m c) (Proc.devRef .tc main_v196)) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v233).trans (out_val _),
      (h c main_arg0).trans (arg_val (by decide) _),
      (h c main_arg1).trans (arg_val (by decide) _),
      (h c main_arg2).trans (arg_val (by decide) _),
      (h c main_arg3).trans (arg_val (by decide) _),
      (h c main_arg4).trans (arg_val (by decide) _),
      (h c main_arg5).trans (arg_val (by decide) _),
      (h c main_arg6).trans (arg_val (by decide) _),
      (h c main_arg7).trans (arg_val (by decide) _),
      (h c main_arg8).trans (arg_val (by decide) _),
      (h c main_arg9).trans (arg_val (by decide) _),
      (h c main_arg10).trans (arg_val (by decide) _),
      (h c main_arg11).trans (arg_val (by decide) _),
      (h c main_arg12).trans (arg_val (by decide) _),
      (h c main_arg13).trans (arg_val (by decide) _),
      (h c main_arg14).trans (arg_val (by decide) _),
      (h c main_arg15).trans (arg_val (by decide) _),
      (h c main_arg16).trans (arg_val (by decide) _),
      (h c main_arg17).trans (arg_val (by decide) _),
      (h c main_arg18).trans (arg_val (by decide) _),
      (h c main_arg19).trans (arg_val (by decide) _),
      (h c main_arg20).trans (arg_val (by decide) _),
      (h c main_arg21).trans (arg_val (by decide) _)⟩)
    (RefRun.run_main m ρ)

end Cert.ReferenceIdeal.RefVal

end
-- ==== Proof.PrefixAgree.lean ====
/-
  The two programs compute the pooled features by the same operations: from contents that agree on the node features, the
  edge list and the two convolutions' weights, the reference's operations up to `%196` and the kernel program's host
  operations before its call leave the same array in `%196`.
-/
import proofs.«141686_j65317862637683_1_alg».proof.Proof.RefOps
import proofs.«141686_j65317862637683_1_alg».proof.Proof.Gen.KernelIdeal.Launch
import Idealize.ShloMosaic.PureOps.Ideal

set_option maxRecDepth 16384

noncomputable section

namespace Cert.Prefix

open Idealize.ShloMosaic Idealize.ShloMosaic.TcCoe Idealize.SL.Sem

/-
  Both lists are written out as literal lists of operations. The contents of `%196` after a list is then the composition
  of the operations that feed it, as one term over the contents of the argument buffers it reads: the node features,
  the edge list, and the weights and biases of the two convolutions (every other buffer met on the way is written by an
  earlier operation of the list, and the kernel program's sixteen further operations write other buffers). The two
  terms are built from the same operations applied in the same order to the same operands, over shapes and dimension
  records that are the same literals under two names; once the six argument arrays are identified by the hypotheses the
  two terms are equal by unfolding those names.
-/
set_option maxHeartbeats 20000000 in
theorem agree (Vk : Valuation Cert.KernelIdeal.τ Cert.KernelIdeal.sig (Elt Ideal))
    (Vr : Valuation Cert.ReferenceIdeal.τ Cert.ReferenceIdeal.sig (Elt Ideal))
    (h0 : Vr (Proc.devRef .tc Cert.ReferenceIdeal.main_arg0) = Vk (Proc.devRef .tc Cert.KernelIdeal.main_arg0))
    (h1 : Vr (Proc.devRef .tc Cert.ReferenceIdeal.main_arg1) = Vk (Proc.devRef .tc Cert.KernelIdeal.main_arg1))
    (h4 : Vr (Proc.devRef .tc Cert.ReferenceIdeal.main_arg4) = Vk (Proc.devRef .tc Cert.KernelIdeal.main_arg4))
    (h5 : Vr (Proc.devRef .tc Cert.ReferenceIdeal.main_arg5) = Vk (Proc.devRef .tc Cert.KernelIdeal.main_arg5))
    (h6 : Vr (Proc.devRef .tc Cert.ReferenceIdeal.main_arg6) = Vk (Proc.devRef .tc Cert.KernelIdeal.main_arg6))
    (h7 : Vr (Proc.devRef .tc Cert.ReferenceIdeal.main_arg7) = Vk (Proc.devRef .tc Cert.KernelIdeal.main_arg7)) :
    StableHlo.after (Cert.ReferenceIdeal.RefRun.opsPre (F := Ideal)) Vr (Proc.devRef .tc Cert.ReferenceIdeal.main_v196)
      = StableHlo.after (List.flatten [Cert.KernelIdeal.Gen.hostOps0 (F := Ideal), Cert.KernelIdeal.Gen.hostOps0_1, Cert.KernelIdeal.Gen.hostOps0_2,
          Cert.KernelIdeal.Gen.hostOps0_3, Cert.KernelIdeal.Gen.hostOps0_4, Cert.KernelIdeal.Gen.hostOps0_5, Cert.KernelIdeal.Gen.hostOps0_6])
          Vk (Proc.devRef .tc Cert.KernelIdeal.main_v196) := by
  -- the two lists, as literal lists of operations
  simp only [Cert.ReferenceIdeal.RefRun.opsPre, Cert.ReferenceIdeal.RefRun.pre0, Cert.ReferenceIdeal.RefRun.pre1, Cert.ReferenceIdeal.RefRun.pre2,
    Cert.ReferenceIdeal.RefRun.pre3, Cert.ReferenceIdeal.RefRun.pre4, Cert.ReferenceIdeal.RefRun.pre5, Cert.ReferenceIdeal.RefRun.pre6,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6,
    List.flatten_cons, List.flatten_nil, List.append_nil, List.cons_append, List.nil_append]
  -- each side's `%196` as the operations' composed term over the argument arrays
  after_results_simp
  -- the same six argument arrays on both sides
  rw [h0, h1, h4, h5, h6, h7]
  rfl

end Cert.Prefix

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.BlockSum.lean ====
/-
  The 32 accumulated block products are the whole product.  The accumulator after the last point is, at `(p, q)`, the sum
  over the 32 blocks `n` and the 2048 columns `j` inside a block of `h (p, 2048 n + j) · W (2048 n + j, q)`; the whole
  product is the sum over all 65536 columns: the same terms, regrouped (addition of extended reals is commutative and
  associative, and the first update adds to zero).
-/
import proofs.«141686_j65317862637683_1_alg».proof.Proof.KSpec
import proofs.«141686_j65317862637683_1_alg».proof.Proof.RefSpec
import proofs.«141686_j65317862637683_1_alg».proof.Proof.LibRowwise
import Idealize.ShloMosaic.PureOps.Ideal.Laws
import Idealize.ShloMosaic.Lib.ValueIdx
import Idealize.ShloMosaic.Lib.Pipeline.Value
import Mathlib.Algebra.BigOperators.Fin
import Mathlib.Data.Fintype.BigOperators
import Mathlib.Logic.Equiv.Fin.Basic

noncomputable section

namespace Cert.BlockSum

open Idealize.ShloMosaic Idealize.ShloMosaic.ValueIdx Cert.KernelIdeal Cert.KernelIdeal.Gen Cert.KernelIdeal.KSpec Cert.Lib.Rowwise

/-! ## The host's plain product at an element -/

/-- The host's plain product `[M, K] × [K, N]`, read at `(p, q)`: the sum over the contracted coordinate. -/
private theorem plain_dotGeneral_apply {M K N : Nat} {φ₁ φ₂ : FTy} (prec : Option ContractPrecision)
    (a : FVec Ideal ⟨2, ![M, K]⟩ φ₁) (b : FVec Ideal ⟨2, ![K, N]⟩ φ₂) (p : Fin M) (q : Fin N) :
    Host.dotGeneral (F := Ideal) (DotDims.plain M K N) prec a b (ix2 p q) = ∑ k : Fin K, a (ix2 p k) * b (ix2 k q) := by
  show FloatOps.dotGeneral (DotDims.plain M K N) prec HostSchedule.single a b (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-! ## One update of the accumulator, at an element -/

/-- The starting accumulator is zero everywhere. -/
private theorem zero_apply (j : S32x1000.Idx) : k0_pay1 (F := Ideal) j = 0 := by
  unfold k0_pay1
  simp only [shapeCast_self]
  show Ideal.ofBits .f32 0x00000000#32 = 0
  exact Ideal.ofBits_zero_f32

/-- One update adds, at `(p, q)`, the block product's element: the sum over the block's 2048 columns. -/
private theorem upd_apply (v3 : FVec Ideal S32x2048 .bf16) (v5 : FVec Ideal S2048x1000 .f32) (v7 : FVec Ideal S32x1000 .f32)
    (p : Fin 32) (q : Fin 1000) :
    k0_pay2 (F := Ideal) v3 v5 v7 (ix2 p q) = v7 (ix2 p q) + ∑ j : Fin 2048, v3 (ix2 p j) * v5 (ix2 j q) := by
  unfold k0_pay2
  simp only [shapeCast_self]
  rw [eq_plain dot_S32x2048_S2048x1000_S32x1000_1_0_0_1_n_n rfl rfl rfl rfl rfl rfl]
  show v7 (ix2 p q) + FloatOps.matmul (DotDims.plain 32 2048 1000) none v3 (truncf .bf16 v5 bitsLt_bf16_f32)
      (constant ⟨2, ![32, 1000]⟩ .f32 0x00000000#32) (ix2 p q) = _
  rw [plain_matmul_zero_apply]
  rfl

/-- Column block `n` at `(p, j)`: the array at column `2048 n + j`. -/
private theorem colBlock_apply (g : FVec Ideal S32x65536 .bf16) (n : ℕ) (p : Fin 32) (j : Fin 2048) :
    colBlock (F := Ideal) g n (ix2 p j) = g (ix2 p ⟨(2048 * n + j.val) % 65536, Nat.mod_lt _ (by decide)⟩) :=
  congrArg (fun a : Fin 32 => g (ix2 a ⟨(2048 * n + j.val) % 65536, Nat.mod_lt _ (by decide)⟩))
    (Fin.ext (Nat.mod_eq_of_lt p.isLt) : (⟨p.val % 32, Nat.mod_lt _ (by decide)⟩ : Fin 32) = p)

/-- Row block `n` at `(j, q)`: the array at row `2048 n + j`. -/
private theorem rowBlock_apply (W : FVec Ideal S65536x1000 .f32) (n : ℕ) (j : Fin 2048) (q : Fin 1000) :
    rowBlock (F := Ideal) W n (ix2 j q) = W (ix2 ⟨(2048 * n + j.val) % 65536, Nat.mod_lt _ (by decide)⟩ q) :=
  congrArg (fun a : Fin 1000 => W (ix2 ⟨(2048 * n + j.val) % 65536, Nat.mod_lt _ (by decide)⟩ a))
    (Fin.ext (Nat.mod_eq_of_lt q.isLt) : (⟨q.val % 1000, Nat.mod_lt _ (by decide)⟩ : Fin 1000) = q)

/-! ## The accumulator after point `n` -/

/-- Block `k`'s contribution at `(p, q)`: the sum over the block's 2048 columns. -/
private def blockTerm (g : FVec Ideal S32x65536 .bf16) (W : FVec Ideal S65536x1000 .f32) (p : Fin 32) (q : Fin 1000) (k : ℕ) : EReal :=
  ∑ j : Fin 2048, g (ix2 p ⟨(2048 * k + j.val) % 65536, Nat.mod_lt _ (by decide)⟩)
    * W (ix2 ⟨(2048 * k + j.val) % 65536, Nat.mod_lt _ (by decide)⟩ q)

/-- The accumulator after point `n`, at `(p, q)`: the contributions of blocks `0 … n` (the first one added to zero). -/
private theorem acc_apply (g : FVec Ideal S32x65536 .bf16) (W : FVec Ideal S65536x1000 .f32) (p : Fin 32) (q : Fin 1000) :
    ∀ n : ℕ, acc (F := Ideal) g W n (ix2 p q) = ∑ k ∈ Finset.range (n + 1), blockTerm g W p q k
  | 0 => by
    show k0_pay2 (F := Ideal) (colBlock g 0) (rowBlock W 0) (k0_pay1 (F := Ideal)) (ix2 p q) = _
    rw [upd_apply, zero_apply, zero_add, Finset.sum_range_one]
    exact Finset.sum_congr rfl fun j _ => by rw [colBlock_apply, rowBlock_apply]
  | n + 1 => by
    show k0_pay2 (F := Ideal) (colBlock g (n + 1)) (rowBlock W (n + 1)) (acc (F := Ideal) g W n) (ix2 p q) = _
    rw [upd_apply, acc_apply g W p q n, Finset.sum_range_succ _ (n + 1)]
    refine congrArg (_ + ·) ?_
    exact Finset.sum_congr rfl fun j _ => by rw [colBlock_apply, rowBlock_apply]

/-! ## Regrouping the 65536 columns into 32 blocks of 2048 -/

/-- A sum over the 65536 columns is the sum over the 32 blocks of the sums over each block's 2048 columns. -/
private theorem sum_blocks (f : Fin 65536 → EReal) :
    ∑ i : Fin 65536, f i
      = ∑ k ∈ Finset.range 32, ∑ j : Fin 2048, f ⟨(2048 * k + j.val) % 65536, Nat.mod_lt _ (by decide)⟩ := by
  have he : ∀ (k : Fin 32) (j : Fin 2048), ((finProdFinEquiv (k, j) : Fin (32 * 2048)) : ℕ) = j.val + 2048 * k.val := fun _ _ => rfl
  calc ∑ i : Fin 65536, f i
      = ∑ x : Fin 32 × Fin 2048, f (finProdFinEquiv x) :=
        (Equiv.sum_comp (finProdFinEquiv : Fin 32 × Fin 2048 ≃ Fin 65536) f).symm
    _ = ∑ k : Fin 32, ∑ j : Fin 2048, f (finProdFinEquiv (k, j)) := Fintype.sum_prod_type _
    _ = ∑ k : Fin 32, ∑ j : Fin 2048, f ⟨(2048 * k.val + j.val) % 65536, Nat.mod_lt _ (by decide)⟩ :=
        Finset.sum_congr rfl fun k _ => Finset.sum_congr rfl fun j _ => congrArg f (Fin.ext (by
          have h1 := k.isLt
          have h2 := j.isLt
          have h3 := he k j
          show ((finProdFinEquiv (k, j) : Fin (32 * 2048)) : ℕ) = (2048 * k.val + j.val) % 65536
          omega))
    _ = ∑ k ∈ Finset.range 32, ∑ j : Fin 2048, f ⟨(2048 * k + j.val) % 65536, Nat.mod_lt _ (by decide)⟩ :=
        Fin.sum_univ_eq_sum_range (fun k : ℕ => ∑ j : Fin 2048, f ⟨(2048 * k + j.val) % 65536, Nat.mod_lt _ (by decide)⟩) 32

/-! ## The whole product -/

/-- The accumulator after point 31 is the reference's product of the pooled features with the first weight matrix. -/
theorem acc_eq (h : FVec Ideal S32x65536 .f32) (Wg1 : FVec Ideal S65536x1000 .f32) :
    Cert.KernelIdeal.KSpec.acc (F := Ideal) (truncf (F := Ideal) .bf16 h Cert.KernelIdeal.Gen.bitsLt_bf16_f32) Wg1 31
      = Host.dotGeneral (F := Ideal) Cert.ReferenceIdeal.dot_S32x65536_S65536x1000_S32x1000_1_0_0_1_n_n none h Wg1 := by
  funext j
  obtain ⟨p, q, rfl⟩ : ∃ p q, j = ix2 p q := ⟨j 0, j 1, eq_ix2 j⟩
  rw [acc_apply, eq_plain Cert.ReferenceIdeal.dot_S32x65536_S65536x1000_S32x1000_1_0_0_1_n_n rfl rfl rfl rfl rfl rfl,
    plain_dotGeneral_apply, sum_blocks]
  exact Finset.sum_congr rfl fun k _ => rfl

end Cert.BlockSum

end
-- ==== Proof.Bridge.lean ====
/-
  At the extended reals the fused kernel's result and the reference's dense tail are one function of the pooled features
  and the weights: the 32 accumulated block products are the whole product (a sum regrouped), a narrowing of format is
  the identity, `exp v - 1` is `1 · expm1 v`, and a bias row broadcast down the rows reads the same either way.
-/
import proofs.«141686_j65317862637683_1_alg».proof.Proof.KSpec
import proofs.«141686_j65317862637683_1_alg».proof.Proof.RefSpec
import proofs.«141686_j65317862637683_1_alg».proof.Proof.LibRowwise
import proofs.«141686_j65317862637683_1_alg».proof.Proof.BlockSum
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

noncomputable section

namespace Cert.Bridge

open Idealize.ShloMosaic Idealize.ShloMosaic.ValueIdx Cert.KernelIdeal

/-! ## Words -/

/-- The word of `1.0` denotes `1`. -/
private theorem ofBits_one_f32 : Ideal.ofBits .f32 0x3F800000#32 = 1 :=
  IdealRules.sign_bit.ideal_onePat .f32

/-! ## A dense layer's product -/

/-- A product into the zero word of two operands narrowed in format is the host's product of the operands: narrowing
    is the identity, and adding to zero adds nothing. -/
private theorem dense {sl sr so : Shape} (d : DotDims sl sr so) (a : FVec Ideal sl .f32) (b : FVec Ideal sr .f32)
    (ha hb : FTy.bits .bf16 < FTy.bits .f32) :
    matmul d none (truncf .bf16 a ha) (truncf .bf16 b hb) (constant so .f32 0x00000000#32) = Host.dotGeneral d none a b :=
  matmul_zero_eq_dotGeneral d none a b

/-! ## A bias row laid along every row -/

section Bias
variable {α : Type} {m n : Nat}

/-- The kernel's way: the length-`n` vector cast to one row, the row broadcast down `m` rows, reads the vector at the column. -/
private theorem biasK (b : (⟨1, ![n]⟩ : Shape).Idx → α) (h1 : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b h1) hb = fun i => b (ix1 (i 1)) := by
  funext i
  obtain ⟨p, q, rfl⟩ : ∃ p q, i = ix2 p q := ⟨i 0, i 1, eq_ix2 i⟩
  rw [broadcastTo_1b_ab_apply, shapeCast_a_1a_apply]
  rfl

/-- The reference's way: the vector broadcast along axis 1 of one row, the row along axes 0 and 1 of `m` rows, reads the same. -/
private theorem biasR (b : (⟨1, ![n]⟩ : Shape).Idx → α) (hd : (⟨1, ![n]⟩ : Shape).BroadcastsInDim ⟨2, ![1, n]⟩ ![1])
    (hbc : (⟨2, ![1, n]⟩ : Shape).BroadcastsInDim ⟨2, ![m, n]⟩ ![0, 1]) :
    broadcastInDim ⟨2, ![m, n]⟩ ![0, 1] hbc (broadcastInDim ⟨2, ![1, n]⟩ ![1] hd b) = fun i => b (ix1 (i 1)) := by
  funext i
  obtain ⟨p, q, rfl⟩ : ∃ p q, i = ix2 p q := ⟨i 0, i 1, eq_ix2 i⟩
  rw [broadcastInDim_oneRow_apply]
  refine broadcastInDim_apply ![1] hd b (ix2 (0 : Fin 1) q) (ix1 q) fun a => ?_
  match a with
  | ⟨0, _⟩ =>
    show q.val = if n = 1 then 0 else q.val
    split
    · have := q.isLt; omega
    · rfl

end Bias

/-! ## ELU -/

/-- The kernel's `v` where `v > 0`, else `exp v - 1`, is the reference's ELU: where `v > 0` both are `v`; elsewhere the
    reference's masked argument is `v` itself, its `expm1` there is `exp v - 1`, and the factor `1` changes nothing. -/
private theorem elu_eq (v : FVec Ideal S32x350 .f32) :
    Cert.ReferenceIdeal.RefSpec.elu (F := Ideal) v
      = select (cmpf .ogt v (broadcast S32x350 (Scalar.ofBits (F := Ideal) .f32 0x00000000#32))) v
          (subf (exp v) (broadcast S32x350 (Scalar.ofBits (F := Ideal) .f32 0x3F800000#32))) := by
  funext i
  unfold Cert.ReferenceIdeal.RefSpec.elu
  simp only [broadcastInDim_constant, id]
  show Scalar.select (FloatOps.cmpf .ogt (v i) (Ideal.ofBits .f32 0x00000000#32)) (v i)
        (Ideal.ofBits .f32 0x3F800000#32 * (Ideal.exp (Scalar.select (FloatOps.cmpf .ogt (v i) (Ideal.ofBits .f32 0x00000000#32))
          (Ideal.ofBits .f32 0x00000000#32) (v i)) - 1))
      = Scalar.select (FloatOps.cmpf .ogt (v i) (Ideal.ofBits .f32 0x00000000#32)) (v i)
        (Ideal.exp (v i) - Ideal.ofBits .f32 0x3F800000#32)
  rw [ofBits_one_f32]
  by_cases hc : FloatOps.cmpf (F := Ideal) .ogt (v i) (Ideal.ofBits .f32 0x00000000#32) = 1#1
  · rw [hc, select_one, select_one]
  · rw [eq_zero_of_ne_one hc, select_zero, select_zero, select_zero, one_mul]

/-- The reference's bias rows at the four widths of this tail, at the reference's own names. -/
private theorem biasR_1000 (b : FVec Ideal ReferenceIdeal.S1000 .f32) :
    broadcastInDim ReferenceIdeal.S32x1000 ![0, 1] ReferenceIdeal.Gen.bcast_S1x1000_S32x1000_0_1
        (broadcastInDim ReferenceIdeal.S1x1000 ![1] ReferenceIdeal.Gen.bcast_S1000_S1x1000_1 b) = fun i => b (ix1 (i 1)) :=
  biasR b _ _
private theorem biasR_50 (b : FVec Ideal ReferenceIdeal.S50 .f32) :
    broadcastInDim ReferenceIdeal.S32x50 ![0, 1] ReferenceIdeal.Gen.bcast_S1x50_S32x50_0_1
        (broadcastInDim ReferenceIdeal.S1x50 ![1] ReferenceIdeal.Gen.bcast_S50_S1x50_1 b) = fun i => b (ix1 (i 1)) :=
  biasR b _ _
private theorem biasR_350 (b : FVec Ideal ReferenceIdeal.S350 .f32) :
    broadcastInDim ReferenceIdeal.S32x350 ![0, 1] ReferenceIdeal.Gen.bcast_S1x350_S32x350_0_1
        (broadcastInDim ReferenceIdeal.S1x350 ![1] ReferenceIdeal.Gen.bcast_S350_S1x350_1 b) = fun i => b (ix1 (i 1)) :=
  biasR b _ _
private theorem biasR_1 (b : FVec Ideal ReferenceIdeal.S1 .f32) :
    broadcastInDim ReferenceIdeal.S32x1 ![0, 1] ReferenceIdeal.Gen.bcast_S1x1_S32x1_0_1
        (broadcastInDim ReferenceIdeal.S1x1 ![1] ReferenceIdeal.Gen.bcast_S1_S1x1_1 b) = fun i => b (ix1 (i 1)) :=
  biasR b _ _

/-! ## Two arrays side by side -/

/-- Two arrays laid side by side depend only on the two arrays. -/
private theorem concat_congr {α : Type} {t s₁ s₂ : Shape} (a : Fin t.rank) {x₁ y₁ : s₁.Idx → α} {x₂ y₂ : s₂.Idx → α}
    (h : Shape.Concatenates (([⟨s₁, x₁⟩, ⟨s₂, x₂⟩] : List ((s : Shape) × (s.Idx → α))).map (·.1)) t a)
    (h' : Shape.Concatenates (([⟨s₁, y₁⟩, ⟨s₂, y₂⟩] : List ((s : Shape) × (s.Idx → α))).map (·.1)) t a)
    (e₁ : x₁ = y₁) (e₂ : x₂ = y₂) :
    concatenate t a [⟨s₁, x₁⟩, ⟨s₂, x₂⟩] h = concatenate t a [⟨s₁, y₁⟩, ⟨s₂, y₂⟩] h' := by
  subst e₁ e₂; rfl

/-! ## The tail, layer by layer -/

/-- The two rectified layers on the pooled features. -/
private theorem tailG (h : FVec Ideal S32x65536 .f32) (Wg1 : FVec Ideal S65536x1000 .f32) (bg1 : FVec Ideal S1000 .f32)
    (Wg2 : FVec Ideal S1000x50 .f32) (bg2 : FVec Ideal S50 .f32) :
    Gen.k0_pay4 (F := Ideal) (Host.dotGeneral (F := Ideal) ReferenceIdeal.dot_S32x65536_S65536x1000_S32x1000_1_0_0_1_n_n none h Wg1)
        (shapeCast S1x1000 bg1 Gen.shapeCasts_S1000_S1x1000) (truncf .bf16 Wg2 Gen.bitsLt_bf16_f32)
        (shapeCast S1x50 bg2 Gen.shapeCasts_S50_S1x50)
      = ReferenceIdeal.RefSpec.g2 (F := Ideal) (ReferenceIdeal.RefSpec.g1 h Wg1 bg1) Wg2 bg2 := by
  simp only [Gen.k0_pay4, ReferenceIdeal.RefSpec.g2, ReferenceIdeal.RefSpec.g1, shapeCast_self, broadcastInDim_constant,
    biasK, ↓biasR_1000, ↓biasR_50, dense]
  rfl

/-- The first ELU layer on the raw input and the second layer's product. -/
private theorem tailM1 (x : FVec Ideal S262144x1 .f32) (Wm1 : FVec Ideal S8192x350 .f32) (bm1 : FVec Ideal S350 .f32)
    (Wm2 : FVec Ideal S350x350 .f32) :
    Gen.k0_pay5 (F := Ideal) (truncf .bf16 (shapeCast S32x8192 x Gen.shapeCasts_S262144x1_S32x8192) Gen.bitsLt_bf16_f32)
        (truncf .bf16 Wm1 Gen.bitsLt_bf16_f32) (shapeCast S1x350 bm1 Gen.shapeCasts_S350_S1x350) (truncf .bf16 Wm2 Gen.bitsLt_bf16_f32)
      = Host.dotGeneral (F := Ideal) ReferenceIdeal.dot_S32x350_S350x350_S32x350_1_0_0_1_n_n none
          (ReferenceIdeal.RefSpec.m1 x Wm1 bm1) Wm2 := by
  simp only [Gen.k0_pay5, ReferenceIdeal.RefSpec.m1, elu_eq, shapeCast_self, biasK, ↓biasR_350, dense]
  rfl

/-- The remaining ELU layers, the plain layer, the two results side by side and the last product. -/
private theorem tailOut (G : FVec Ideal S32x50 .f32) (M1 : FVec Ideal S32x350 .f32) (Wm2 : FVec Ideal S350x350 .f32)
    (bm2 : FVec Ideal S350 .f32) (Wm3 : FVec Ideal S350x350 .f32) (bm3 : FVec Ideal S350 .f32) (Wm4 : FVec Ideal S350x50 .f32)
    (bm4 : FVec Ideal S50 .f32) (Wo : FVec Ideal S100x1 .f32) :
    Gen.k0_pay6 (F := Ideal) G (Host.dotGeneral (F := Ideal) ReferenceIdeal.dot_S32x350_S350x350_S32x350_1_0_0_1_n_n none M1 Wm2)
        (shapeCast S1x350 bm2 Gen.shapeCasts_S350_S1x350) (truncf .bf16 Wm3 Gen.bitsLt_bf16_f32)
        (shapeCast S1x350 bm3 Gen.shapeCasts_S350_S1x350) (truncf .bf16 Wm4 Gen.bitsLt_bf16_f32)
        (shapeCast S1x50 bm4 Gen.shapeCasts_S50_S1x50) (truncf .bf16 Wo Gen.bitsLt_bf16_f32)
      = Host.dotGeneral (F := Ideal) ReferenceIdeal.dot_S32x100_S100x1_S32x1_1_0_0_1_n_n none
          (concatenate ReferenceIdeal.S32x100 1
            [⟨ReferenceIdeal.S32x50, G⟩,
             ⟨ReferenceIdeal.S32x50, ReferenceIdeal.RefSpec.m4 (ReferenceIdeal.RefSpec.mm (ReferenceIdeal.RefSpec.mm M1 Wm2 bm2) Wm3 bm3) Wm4 bm4⟩]
            ReferenceIdeal.Gen.concatenates_S32x50_S32x50_S32x100_d1) Wo := by
  simp only [Gen.k0_pay6, shapeCast_self, dense]
  refine congrArg (fun c => Host.dotGeneral (F := Ideal) ReferenceIdeal.dot_S32x100_S100x1_S32x1_1_0_0_1_n_n none c Wo) ?_
  refine concat_congr _ _ _ rfl ?_
  simp only [ReferenceIdeal.RefSpec.m4, ReferenceIdeal.RefSpec.mm, elu_eq, shapeCast_self, biasK, ↓biasR_350, ↓biasR_50, dense]
  rfl

/-- The last bias, the clamp, and the reading of the column as a vector. -/
private theorem tailEnd (D : FVec Ideal S32x1 .f32) (bo : FVec Ideal S1 .f32) :
    shapeCast S32 (Gen.k0_pay3 (F := Ideal) D (Gen.k0_pay7 (shapeCast S1x1 bo Gen.shapeCasts_S1_S1x1))) Gen.shapeCasts_S32x1_S32
      = ReferenceIdeal.RefSpec.clip (F := Ideal) (shapeCast ReferenceIdeal.S32
          (addf D (broadcastInDim ReferenceIdeal.S32x1 ![0, 1] ReferenceIdeal.Gen.bcast_S1x1_S32x1_0_1
            (broadcastInDim ReferenceIdeal.S1x1 ![1] ReferenceIdeal.Gen.bcast_S1_S1x1_1 bo)))
          ReferenceIdeal.Gen.shapeCasts_S32x1_S32) := by
  simp only [Gen.k0_pay3, Gen.k0_pay7, ReferenceIdeal.RefSpec.clip, shapeCast_self, broadcastInDim_constant, id, biasK, ↓biasR_1]
  rfl

/-! ## The two tails -/

theorem kRes_eq_refTail (h : FVec Ideal S32x65536 .f32) (x : FVec Ideal S262144x1 .f32) (Wg1 : FVec Ideal S65536x1000 .f32) (bg1 : FVec Ideal S1000 .f32)
    (Wg2 : FVec Ideal S1000x50 .f32) (bg2 : FVec Ideal S50 .f32) (Wm1 : FVec Ideal S8192x350 .f32) (bm1 : FVec Ideal S350 .f32)
    (Wm2 : FVec Ideal S350x350 .f32) (bm2 : FVec Ideal S350 .f32) (Wm3 : FVec Ideal S350x350 .f32) (bm3 : FVec Ideal S350 .f32)
    (Wm4 : FVec Ideal S350x50 .f32) (bm4 : FVec Ideal S50 .f32) (Wo : FVec Ideal S100x1 .f32) (bo : FVec Ideal S1 .f32) :
    Cert.KernelIdeal.KSpec.kRes (F := Ideal) h x Wg1 bg1 Wg2 bg2 Wm1 bm1 Wm2 bm2 Wm3 bm3 Wm4 bm4 Wo bo
      = Cert.ReferenceIdeal.RefSpec.refTail (F := Ideal) h x Wg1 bg1 Wg2 bg2 Wm1 bm1 Wm2 bm2 Wm3 bm3 Wm4 bm4 Wo bo := by
  unfold Cert.KernelIdeal.KSpec.kRes Cert.KernelIdeal.KSpec.kOut Cert.ReferenceIdeal.RefSpec.refTail Cert.ReferenceIdeal.RefSpec.out
  rw [Cert.BlockSum.acc_eq, tailG, tailM1, tailOut]
  exact tailEnd _ bo

end Cert.Bridge

end
-- ==== Proof.lean ====
/-
  The certificate.  The kernel program and the reference run the same graph convolutions on the host; the kernel program
  then runs one fused call that accumulates the first dense product block by block over 32 grid points and, at the last
  point, the remaining dense layers, where the reference runs those layers on the host.  At the extended reals the
  two results are one function of the pooled features and the weights: the accumulated block products are the whole
  product regrouped, a change of float format is the identity, and the kernel's `exp v - 1` is the reference's
  `1 · expm1 v`.  The pooled features themselves are never opened: both programs compute them by the same operations
  from the same arguments.
-/
import proofs.«141686_j65317862637683_1_alg».proof.Defs
import proofs.«141686_j65317862637683_1_alg».proof.Proof.Gen.Kernel.Frame
import proofs.«141686_j65317862637683_1_alg».proof.Proof.Gen.KernelIdeal.Frame
import proofs.«141686_j65317862637683_1_alg».proof.Proof.Gen.ReferenceIdeal
import proofs.«141686_j65317862637683_1_alg».proof.Proof.Gen.Pre_finite_inputs
import proofs.«141686_j65317862637683_1_alg».proof.Proof.KRun
import proofs.«141686_j65317862637683_1_alg».proof.Proof.RefVal
import proofs.«141686_j65317862637683_1_alg».proof.Proof.PrefixAgree
import proofs.«141686_j65317862637683_1_alg».proof.Proof.Bridge

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefVal.run (F := Ideal) m ρ)

/-- Both runs end with the result at one function of the pooled features and the weights; the pooled features agree
    because the arguments do. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefVal.run (F := Ideal) m' ρ')
  obtain ⟨h0, h1, h2, h3, h4, h5, h6, h7, h8, h9, h10, h11, h12, h13, h14, h15, h16, h17, h18, h19, h20, h21⟩ := hagree c
  rw [h0, h8, h9, h10, h11, h12, h13, h14, h15, h16, h17, h18, h19, h20, h21]
  rw [show StableHlo.after (Cert.ReferenceIdeal.RefRun.opsPre (F := Ideal)) (StableHlo.launchContents m' c) (Proc.devRef .tc Cert.ReferenceIdeal.main_v196)
      = Cert.KernelIdeal.Gen.V0 m c (Proc.devRef .tc Cert.KernelIdeal.main_v196) from
    Cert.Prefix.agree (fun b => m (c, b)) (StableHlo.launchContents m' c) h0 h1 h4 h5 h6 h7]
  exact (Cert.Bridge.kRes_eq_refTail _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
